-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S1002x1024 : Shape := ⟨2, ![1002, 1024]⟩
abbrev S256x1024 : Shape := ⟨2, ![256, 1024]⟩
abbrev S9000x256 : Shape := ⟨2, ![9000, 256]⟩
abbrev S64x1024 : Shape := ⟨2, ![64, 1024]⟩
abbrev S40257x64 : Shape := ⟨2, ![40257, 64]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1002x1024 : S_.BroadcastsInDim S1002x1024 (![] : Fin 0 → Fin S1002x1024.rank)
  reducesTo_S1002x1024_S_d0_1 : S1002x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S9000x256 : S_.BroadcastsInDim S9000x256 (![] : Fin 0 → Fin S9000x256.rank)
  reducesTo_S9000x256_S_d0_1 : S9000x256.ReducesTo [0, 1] S_
  bcast_S_S64x1024 : S_.BroadcastsInDim S64x1024 (![] : Fin 0 → Fin S64x1024.rank)
  reducesTo_S64x1024_S_d0_1 : S64x1024.ReducesTo [0, 1] S_
  bcast_S_S40257x64 : S_.BroadcastsInDim S40257x64 (![] : Fin 0 → Fin S40257x64.rank)
  reducesTo_S40257x64_S_d0_1 : S40257x64.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_v28 : IVec S_ 1) (main_v33 : IVec S4096 1) : IVec S_ 1 :=
  let main_c_12 : IVec S_ 1 := constantI S_ 1 1#1
  let main_v34 : IVec S_ 1 := (fun x v => Host.reduce IntOp.andi x v reducesTo_S4096_S_d0 h_S_) main_v33 main_c_12
  let main_v35 : IVec S_ 1 := andi main_v28 main_v34
  main_v35

def fn_part1 {F : FTy → Type} [FloatOps F] (main_arg1 : IVec S4096 32) (main_arg5 : FVec F S64x1024 .f32) (main_arg6 : FVec F S40257x64 .f32) (main_v13 : IVec S_ 1) (main_v16 : IVec S9000x256 1) : IVec S_ 1 :=
  let main_c_5 : IVec S_ 1 := constantI S_ 1 1#1
  let main_v17 : IVec S_ 1 := (fun x v => Host.reduce IntOp.andi x v reducesTo_S9000x256_S_d0_1 h_S_) main_v16 main_c_5
  let main_v18 : IVec S_ 1 := andi main_v13 main_v17
  let main_v19 : FVec F S64x1024 .f32 := Host.absf main_arg5
  let main_cst_6 : FVec F S_ .f32 := constant S_ .f32 0x7F800000#32
  let main_v20 : FVec F S64x1024 .f32 := broadcastInDim S64x1024 ![] bcast_S_S64x1024 main_cst_6
  let main_v21 : IVec S64x1024 1 := cmpf .olt main_v19 main_v20
  let main_c_7 : IVec S_ 1 := constantI S_ 1 1#1
  let main_v22 : IVec S_ 1 := (fun x v => Host.reduce IntOp.andi x v reducesTo_S64x1024_S_d0_1 h_S_) main_v21 main_c_7
  let main_v23 : IVec S_ 1 := andi main_v18 main_v22
  let main_v24 : FVec F S40257x64 .f32 := Host.absf main_arg6
  let main_cst_8 : FVec F S_ .f32 := constant S_ .f32 0x7F800000#32
  let main_v25 : FVec F S40257x64 .f32 := broadcastInDim S40257x64 ![] bcast_S_S40257x64 main_cst_8
  let main_v26 : IVec S40257x64 1 := cmpf .olt main_v24 main_v25
  let main_c_9 : IVec S_ 1 := constantI S_ 1 1#1
  let main_v27 : IVec S_ 1 := (fun x v => Host.reduce IntOp.andi x v reducesTo_S40257x64_S_d0_1 h_S_) main_v26 main_c_9
  let main_v28 : IVec S_ 1 := andi main_v23 main_v27
  let main_c_10 : IVec S_ 32 := constantI S_ 32 0#32
  let main_v29 : IVec S4096 32 := broadcastInDim S4096 ![] bcast_S_S4096 main_c_10
  let main_v30 : IVec S4096 1 := cmpi .sge main_arg1 main_v29
  let main_c_11 : IVec S_ 32 := constantI S_ 32 50257#32
  let main_v31 : IVec S4096 32 := broadcastInDim S4096 ![] bcast_S_S4096 main_c_11
  let main_v32 : IVec S4096 1 := cmpi .slt main_arg1 main_v31
  let main_v33 : IVec S4096 1 := andi main_v30 main_v32
  fn_part2 (F := F) main_v28 main_v33

def fn {F : FTy → Type} [FloatOps F] (main_arg0 : FVec F S4096x1024 .f32) (main_arg1 : IVec S4096 32) (main_arg2 : FVec F S1002x1024 .f32) (main_arg3 : FVec F S256x1024 .f32) (main_arg4 : FVec F S9000x256 .f32) (main_arg5 : FVec F S64x1024 .f32) (main_arg6 : FVec F S40257x64 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1002x1024 .f32 := Host.absf main_arg2
  let main_cst_0 : FVec F S_ .f32 := constant S_ .f32 0x7F800000#32
  let main_v5 : FVec F S1002x1024 .f32 := broadcastInDim S1002x1024 ![] bcast_S_S1002x1024 main_cst_0
  let main_v6 : IVec S1002x1024 1 := cmpf .olt main_v4 main_v5
  let main_c_1 : IVec S_ 1 := constantI S_ 1 1#1
  let main_v7 : IVec S_ 1 := (fun x v => Host.reduce IntOp.andi x v reducesTo_S1002x1024_S_d0_1 h_S_) main_v6 main_c_1
  let main_v8 : IVec S_ 1 := andi main_v3 main_v7
  let main_v9 : FVec F S256x1024 .f32 := Host.absf main_arg3
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S9000x256 .f32 := Host.absf main_arg4
  let main_cst_4 : FVec F S_ .f32 := constant S_ .f32 0x7F800000#32
  let main_v15 : FVec F S9000x256 .f32 := broadcastInDim S9000x256 ![] bcast_S_S9000x256 main_cst_4
  let main_v16 : IVec S9000x256 1 := cmpf .olt main_v14 main_v15
  fn_part1 (F := F) main_arg1 main_arg5 main_arg6 main_v13 main_v16
-- ==== Kernel.lean ====
abbrev S4096x1024 : Shape := ⟨2, ![4096, 1024]⟩
abbrev S4096 : Shape := ⟨1, ![4096]⟩
abbrev S1002x1024 : Shape := ⟨2, ![1002, 1024]⟩
abbrev S256x1024 : Shape := ⟨2, ![256, 1024]⟩
abbrev S9000x256 : Shape := ⟨2, ![9000, 256]⟩
abbrev S64x1024 : Shape := ⟨2, ![64, 1024]⟩
abbrev S40257x64 : Shape := ⟨2, ![40257, 64]⟩
abbrev S_ : Shape := ⟨0, ![]⟩
abbrev S1024x1024 : Shape := ⟨2, ![1024, 1024]⟩
abbrev S9088x256 : Shape := ⟨2, ![9088, 256]⟩
abbrev S40320x64 : Shape := ⟨2, ![40320, 64]⟩
abbrev S4096x1 : Shape := ⟨2, ![4096, 1]⟩
abbrev S1024x1 : Shape := ⟨2, ![1024, 1]⟩
abbrev S1024 : Shape := ⟨1, ![1024]⟩
abbrev S256x1 : Shape := ⟨2, ![256, 1]⟩
abbrev S1024x256 : Shape := ⟨2, ![1024, 256]⟩
abbrev S256x256 : Shape := ⟨2, ![256, 256]⟩
abbrev S256x9088 : Shape := ⟨2, ![256, 9088]⟩
abbrev S256 : Shape := ⟨1, ![256]⟩
abbrev S64x1 : Shape := ⟨2, ![64, 1]⟩
abbrev S1024x64 : Shape := ⟨2, ![1024, 64]⟩
abbrev S64x64 : Shape := ⟨2, ![64, 64]⟩
abbrev S64x40320 : Shape := ⟨2, ![64, 40320]⟩
abbrev S64 : Shape := ⟨1, ![64]⟩

abbrev nBuf : Space → Nat
  | .hbm => 48
  | .vmem => 31
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S1002x1024, .f32⟩
  | .hbm, ⟨3, _⟩ => ⟨S256x1024, .f32⟩
  | .hbm, ⟨4, _⟩ => ⟨S9000x256, .f32⟩
  | .hbm, ⟨5, _⟩ => ⟨S64x1024, .f32⟩
  | .hbm, ⟨6, _⟩ => ⟨S40257x64, .f32⟩
  | .hbm, ⟨7, _⟩ => ⟨S4096x1024, .bf16⟩
  | .hbm, ⟨8, _⟩ => ⟨S_, .i32⟩
  | .hbm, ⟨9, _⟩ => ⟨S_, .f32⟩
  | .hbm, ⟨10, _⟩ => ⟨S1024x1024, .f32⟩
  | .hbm, ⟨11, _⟩ => ⟨S1024x1024, .bf16⟩
  | .hbm, ⟨12, _⟩ => ⟨S256x1024, .bf16⟩
  | .hbm, ⟨13, _⟩ => ⟨S_, .i32⟩
  | .hbm, ⟨14, _⟩ => ⟨S_, .f32⟩
  | .hbm, ⟨15, _⟩ => ⟨S9088x256, .f32⟩
  | .hbm, ⟨16, _⟩ => ⟨S9088x256, .bf16⟩
  | .hbm, ⟨17, _⟩ => ⟨S64x1024, .bf16⟩
  | .hbm, ⟨18, _⟩ => ⟨S_, .i32⟩
  | .hbm, ⟨19, _⟩ => ⟨S_, .f32⟩
  | .hbm, ⟨20, _⟩ => ⟨S40320x64, .f32⟩
  | .hbm, ⟨21, _⟩ => ⟨S40320x64, .bf16⟩
  | .hbm, ⟨22, _⟩ => ⟨S4096x1, .i32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S4096, .i1⟩
  | .hbm, ⟨38, _⟩ => ⟨S4096, .f32⟩
  | .hbm, ⟨39, _⟩ => ⟨S4096, .f32⟩
  | .hbm, ⟨40, _⟩ => ⟨S4096, .f32⟩
  | .hbm, ⟨41, _⟩ => ⟨S4096, .f32⟩
  | .hbm, ⟨42, _⟩ => ⟨S4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1, .i32⟩
  | .local _ .vmem, ⟨4, _⟩ => ⟨S1024x1, .i32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S9088x256, .bf16⟩
  | .local _ .vmem, ⟨15, _⟩ => ⟨S256x1, .i32⟩
  | .local _ .vmem, ⟨16, _⟩ => ⟨S256x1, .i32⟩
  | .local _ .vmem, ⟨17, _⟩ => ⟨S256x1, .f32⟩
  | .local _ .vmem, ⟨18, _⟩ => ⟨S256x1, .f32⟩
  | .local _ .vmem, ⟨19, _⟩ => ⟨S256x1, .f32⟩
  | .local _ .vmem, ⟨20, _⟩ => ⟨S256x1, .f32⟩
  | .local _ .vmem, ⟨21, _⟩ => ⟨S64x1024, .bf16⟩
  | .local _ .vmem, ⟨22, _⟩ => ⟨S64x1024, .bf16⟩
  | .local _ .vmem, ⟨23, _⟩ => ⟨S64x1024, .bf16⟩
  | .local _ .vmem, ⟨24, _⟩ => ⟨S40320x64, .bf16⟩
  | .local _ .vmem, ⟨25, _⟩ => ⟨S64x1, .i32⟩
  | .local _ .vmem, ⟨26, _⟩ => ⟨S64x1, .i32⟩
  | .local _ .vmem, ⟨27, _⟩ => ⟨S64x1, .f32⟩
  | .local _ .vmem, ⟨28, _⟩ => ⟨S64x1, .f32⟩
  | .local _ .vmem, ⟨29, _⟩ => ⟨S64x1, .f32⟩
  | .local _ .vmem, ⟨30, _⟩ => ⟨S64x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_call2_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem3_1 : DmaSem sig := 26
abbrev cc2_sem4_0 : DmaSem sig := 27
abbrev cc2_sem4_1 : DmaSem sig := 28
abbrev cc2_sem5_0 : DmaSem sig := 29
abbrev cc2_sem5_1 : DmaSem sig := 30

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S9088x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S64x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S40320x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S64x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S64x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S64x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bitsLt_bf16_f32 : FTy.bits .bf16 < FTy.bits .f32
  pads_S1002x1024_S1024x1024_0220_000 : S1002x1024.Pads (![0, 0] : Fin 2 → Nat) ![22, 0] ![0, 0] S1024x1024
  h_S_ : 0 < S_.numel
  pads_S9000x256_S9088x256_0880_000 : S9000x256.Pads (![0, 0] : Fin 2 → Nat) ![88, 0] ![0, 0] S9088x256
  pads_S40257x64_S40320x64_0630_000 : S40257x64.Pads (![0, 0] : Fin 2 → Nat) ![63, 0] ![0, 0] S40320x64
  shapeCasts_S4096_S4096x1 : S4096.ShapeCasts S4096x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S9088x256_S9088x256_0_0 : ∀ a, (![0, 0] : Fin 2 → Nat) a + S9088x256.size a ≤ S9088x256.size a
  h_S9088x256 : 0 < S9088x256.numel
  shapeCasts_S9088x256_S9088x256 : S9088x256.ShapeCasts S9088x256
  transposes_S256x1024_p1_0_S1024x256 : S256x1024.Transposes [1, 0] S1024x256
  transposes_S9088x256_p1_0_S256x9088 : S9088x256.Transposes [1, 0] S256x9088
  iota_S256x9088_d1_w32 : S256x9088.Iotas .tc 32 [1]
  reduces_S256x9088_S256 : S256x9088.Reduces [1] S256
  shapeCasts_S256_S256x1 : S256.ShapeCasts S256x1
  broadcasts_S256x1_S256x9088 : S256x1.Broadcasts S256x9088
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S40320x64_S40320x64_0_0 : ∀ a, (![0, 0] : Fin 2 → Nat) a + S40320x64.size a ≤ S40320x64.size a
  h_S40320x64 : 0 < S40320x64.numel
  shapeCasts_S40320x64_S40320x64 : S40320x64.ShapeCasts S40320x64
  transposes_S64x1024_p1_0_S1024x64 : S64x1024.Transposes [1, 0] S1024x64
  transposes_S40320x64_p1_0_S64x40320 : S40320x64.Transposes [1, 0] S64x40320
  iota_S64x40320_d1_w32 : S64x40320.Iotas .tc 32 [1]
  reduces_S64x40320_S64 : S64x40320.Reduces [1] S64
  shapeCasts_S64_S64x1 : S64.ShapeCasts S64x1
  broadcasts_S64x1_S64x40320 : S64x1.Broadcasts S64x40320
  inb_S64x1_S64x1_0_0 : ∀ a, (![0, 0] : Fin 2 → Nat) a + S64x1.size a ≤ S64x1.size a
  h_S64x1 : 0 < S64x1.numel
  shapeCasts_S64x1_S64x1 : S64x1.ShapeCasts S64x1
  bcast_S_S4096 : S_.BroadcastsInDim S4096 (![] : Fin 0 → Fin S4096.rank)
  shapeCasts_S4096x1_S4096 : S4096x1.ShapeCasts S4096
  reducesTo_S4096_S_d0 : S4096.ReducesTo [0] S_
  dot_S1024x1024_S1024x1024_S1024x1024_1_0_0_1_n_n_wf : DotDims.WF S1024x1024 S1024x1024 S1024x1024 [1] [0] [0] [1] [] []
  dot_S256x1024_S1024x256_S256x256_1_0_0_1_n_n_wf : DotDims.WF S256x1024 S1024x256 S256x256 [1] [0] [0] [1] [] []
  dot_S256x256_S256x9088_S256x9088_1_0_0_1_n_n_wf : DotDims.WF S256x256 S256x9088 S256x9088 [1] [0] [0] [1] [] []
  dot_S64x1024_S1024x64_S64x64_1_0_0_1_n_n_wf : DotDims.WF S64x1024 S1024x64 S64x64 [1] [0] [0] [1] [] []
  dot_S64x64_S64x40320_S64x40320_1_0_0_1_n_n_wf : DotDims.WF S64x64 S64x40320 S64x40320 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .i32 = 32 ∨ (Rect.block (s := S4096x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x1024.size a
  hwx1_0 : ∀ i : grid1.Coords, EltTy.bits .bf16 = 32 ∨ (Rect.block (s := S4096x1024) S256x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S256x1024.size a
  hwx1_1 : ∀ i : grid1.Coords, EltTy.bits .bf16 = 32 ∨ (Rect.block (s := S256x1024) S256x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S9088x256.size a ≤ S9088x256.size a
  hwx1_2 : ∀ i : grid1.Coords, EltTy.bits .bf16 = 32 ∨ (Rect.block (s := S9088x256) S9088x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S4096x1.size a
  hwx1_3 : ∀ i : grid1.Coords, EltTy.bits .i32 = 32 ∨ (Rect.block (s := S4096x1) S256x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S4096x1.size a
  hwx1_4 : ∀ i : grid1.Coords, EltTy.bits .f32 = 32 ∨ (Rect.block (s := S4096x1) S256x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S4096x1.size a
  hwx1_5 : ∀ i : grid1.Coords, EltTy.bits .f32 = 32 ∨ (Rect.block (s := S4096x1) S256x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x1024.size a ≤ S4096x1024.size a
  hwx2_0 : ∀ i : grid2.Coords, EltTy.bits .bf16 = 32 ∨ (Rect.block (s := S4096x1024) S64x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1024.size a ≤ S64x1024.size a
  hwx2_1 : ∀ i : grid2.Coords, EltTy.bits .bf16 = 32 ∨ (Rect.block (s := S64x1024) S64x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S40320x64.size a ≤ S40320x64.size a
  hwx2_2 : ∀ i : grid2.Coords, EltTy.bits .bf16 = 32 ∨ (Rect.block (s := S40320x64) S40320x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S4096x1.size a
  hwx2_3 : ∀ i : grid2.Coords, EltTy.bits .i32 = 32 ∨ (Rect.block (s := S4096x1) S64x1.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S64x1.size a ≤ S4096x1.size a
  hwx2_4 : ∀ i : grid2.Coords, EltTy.bits .f32 = 32 ∨ (Rect.block (s := S4096x1) S64x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S64x1.size a ≤ S4096x1.size a
  hwx2_5 : ∀ i : grid2.Coords, EltTy.bits .f32 = 32 ∨ (Rect.block (s := S4096x1) S64x1.size (cc2_transform_5 i) (hinb2_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S256x256_S256x9088_S256x9088_1_0_0_1_n_n : DotDims S256x256 S256x9088 S256x9088 where
  lhsContracting := [1]
  rhsContracting := [0]
  lhsNonContracting := [0]
  rhsNonContracting := [1]
  lhsBatch := []
  rhsBatch := []
  wf := dot_S256x256_S256x9088_S256x9088_1_0_0_1_n_n_wf
def dot_S64x1024_S1024x64_S64x64_1_0_0_1_n_n : DotDims S64x1024 S1024x64 S64x64 where
  lhsContracting := [1]
  rhsContracting := [0]
  lhsNonContracting := [0]
  rhsNonContracting := [1]
  lhsBatch := []
  rhsBatch := []
  wf := dot_S64x1024_S1024x64_S64x64_1_0_0_1_n_n_wf
def dot_S64x64_S64x40320_S64x40320_1_0_0_1_n_n : DotDims S64x64 S64x40320 S64x40320 where
  lhsContracting := [1]
  rhsContracting := [0]
  lhsNonContracting := [0]
  rhsNonContracting := [1]
  lhsBatch := []
  rhsBatch := []
  wf := dot_S64x64_S64x40320_S64x40320_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S1024x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_2) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S256x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S9088x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S256x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10_1) S256x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v11) S256x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v0) S64x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S64x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S40320x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S64x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v10_2) S64x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v12) S64x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S4096x1024 : Shape := ⟨2, ![4096, 1024]⟩
abbrev S4096 : Shape := ⟨1, ![4096]⟩
abbrev S1002x1024 : Shape := ⟨2, ![1002, 1024]⟩
abbrev S256x1024 : Shape := ⟨2, ![256, 1024]⟩
abbrev S9000x256 : Shape := ⟨2, ![9000, 256]⟩
abbrev S64x1024 : Shape := ⟨2, ![64, 1024]⟩
abbrev S40257x64 : Shape := ⟨2, ![40257, 64]⟩
abbrev S1024x1002 : Shape := ⟨2, ![1024, 1002]⟩
abbrev S4096x1002 : Shape := ⟨2, ![4096, 1002]⟩
abbrev S_ : Shape := ⟨0, ![]⟩
abbrev S4096x1 : Shape := ⟨2, ![4096, 1]⟩
abbrev S4096x1000 : Shape := ⟨2, ![4096, 1000]⟩
abbrev S1024x256 : Shape := ⟨2, ![1024, 256]⟩
abbrev S4096x256 : Shape := ⟨2, ![4096, 256]⟩
abbrev S256x9000 : Shape := ⟨2, ![256, 9000]⟩
abbrev S4096x9000 : Shape := ⟨2, ![4096, 9000]⟩
abbrev S1024x64 : Shape := ⟨2, ![1024, 64]⟩
abbrev S4096x64 : Shape := ⟨2, ![4096, 64]⟩
abbrev S64x40257 : Shape := ⟨2, ![64, 40257]⟩
abbrev S4096x40257 : Shape := ⟨2, ![4096, 40257]⟩
abbrev S4096x50257 : Shape := ⟨2, ![4096, 50257]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 99
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S1002x1024, .f32⟩
  | .hbm, ⟨3, _⟩ => ⟨S256x1024, .f32⟩
  | .hbm, ⟨4, _⟩ => ⟨S9000x256, .f32⟩
  | .hbm, ⟨5, _⟩ => ⟨S64x1024, .f32⟩
  | .hbm, ⟨6, _⟩ => ⟨S40257x64, .f32⟩
  | .hbm, ⟨7, _⟩ => ⟨S1024x1002, .f32⟩
  | .hbm, ⟨8, _⟩ => ⟨S4096x1002, .f32⟩
  | .hbm, ⟨9, _⟩ => ⟨S_, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S4096x1, .f32⟩
  | .hbm, ⟨15, _⟩ => ⟨S4096x1002, .f32⟩
  | .hbm, ⟨16, _⟩ => ⟨S4096x1002, .f32⟩
  | .hbm, ⟨17, _⟩ => ⟨S4096x1002, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S4096x1, .f32⟩
  | .hbm, ⟨22, _⟩ => ⟨S4096x1002, .f32⟩
  | .hbm, ⟨23, _⟩ => ⟨S4096x1002, .f32⟩
  | .hbm, ⟨24, _⟩ => ⟨S4096x1000, .f32⟩
  | .hbm, ⟨25, _⟩ => ⟨S1024x256, .f32⟩
  | .hbm, ⟨26, _⟩ => ⟨S4096x256, .f32⟩
  | .hbm, ⟨27, _⟩ => ⟨S256x9000, .f32⟩
  | .hbm, ⟨28, _⟩ => ⟨S4096x9000, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096x1, .f32⟩
  | .hbm, ⟨35, _⟩ => ⟨S4096x9000, .f32⟩
  | .hbm, ⟨36, _⟩ => ⟨S4096x9000, .f32⟩
  | .hbm, ⟨37, _⟩ => ⟨S4096x9000, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1, .f32⟩
  | .hbm, ⟨42, _⟩ => ⟨S4096x9000, .f32⟩
  | .hbm, ⟨43, _⟩ => ⟨S4096x9000, .f32⟩
  | .hbm, ⟨44, _⟩ => ⟨S4096x1, .f32⟩
  | .hbm, ⟨45, _⟩ => ⟨S4096x9000, .f32⟩
  | .hbm, ⟨46, _⟩ => ⟨S4096x9000, .f32⟩
  | .hbm, ⟨47, _⟩ => ⟨S1024x64, .f32⟩
  | .hbm, ⟨48, _⟩ => ⟨S4096x64, .f32⟩
  | .hbm, ⟨49, _⟩ => ⟨S64x40257, .f32⟩
  | .hbm, ⟨50, _⟩ => ⟨S4096x40257, .f32⟩
  | .hbm, ⟨51, _⟩ => ⟨S_, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S4096x1, .f32⟩
  | .hbm, ⟨57, _⟩ => ⟨S4096x40257, .f32⟩
  | .hbm, ⟨58, _⟩ => ⟨S4096x40257, .f32⟩
  | .hbm, ⟨59, _⟩ => ⟨S4096x40257, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1, .f32⟩
  | .hbm, ⟨64, _⟩ => ⟨S4096x40257, .f32⟩
  | .hbm, ⟨65, _⟩ => ⟨S4096x40257, .f32⟩
  | .hbm, ⟨66, _⟩ => ⟨S4096x1, .f32⟩
  | .hbm, ⟨67, _⟩ => ⟨S4096x40257, .f32⟩
  | .hbm, ⟨68, _⟩ => ⟨S4096x40257, .f32⟩
  | .hbm, ⟨69, _⟩ => ⟨S4096x50257, .f32⟩
  | .hbm, ⟨70, _⟩ => ⟨S4096x1, .i32⟩
  | .hbm, ⟨71, _⟩ => ⟨S_, .i32⟩
  | .hbm, ⟨72, _⟩ => ⟨S4096x1, .i32⟩
  | .hbm, ⟨73, _⟩ => ⟨S4096x1, .i1⟩
  | .hbm, ⟨74, _⟩ => ⟨S_, .i32⟩
  | .hbm, ⟨75, _⟩ => ⟨S4096x1, .i32⟩
  | .hbm, ⟨76, _⟩ => ⟨S4096x1, .i32⟩
  | .hbm, ⟨77, _⟩ => ⟨S4096x1, .i32⟩
  | .hbm, ⟨78, _⟩ => ⟨S4096x1x1, .i32⟩
  | .hbm, ⟨79, _⟩ => ⟨S1, .i32⟩
  | .hbm, ⟨80, _⟩ => ⟨S_, .i32⟩
  | .hbm, ⟨81, _⟩ => ⟨S4096x1x1, .i32⟩
  | .hbm, ⟨82, _⟩ => ⟨S4096x1x1, .i1⟩
  | .hbm, ⟨83, _⟩ => ⟨S1x1x1, .i32⟩
  | .hbm, ⟨84, _⟩ => ⟨S4096x1x1, .i32⟩
  | .hbm, ⟨85, _⟩ => ⟨S4096x1x1, .i1⟩
  | .hbm, ⟨86, _⟩ => ⟨S4096x1x1, .i1⟩
  | .hbm, ⟨87, _⟩ => ⟨S_, .i1⟩
  | .hbm, ⟨88, _⟩ => ⟨S4096x1, .i1⟩
  | .hbm, ⟨89, _⟩ => ⟨S4096x1, .f32⟩
  | .hbm, ⟨90, _⟩ => ⟨S_, .f32⟩
  | .hbm, ⟨91, _⟩ => ⟨S4096x1, .f32⟩
  | .hbm, ⟨92, _⟩ => ⟨S4096x1, .f32⟩
  | .hbm, ⟨93, _⟩ => ⟨S4096, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_cst : Ref sig .tc := ⟨.hbm, 9, rfl⟩
abbrev main_call0_v0 : Ref sig .tc := ⟨.hbm, 10, rfl⟩
abbrev main_call0_cst_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_1 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_call1_cst : Ref sig .tc := ⟨.hbm, 29, rfl⟩
abbrev main_call1_v0 : Ref sig .tc := ⟨.hbm, 30, rfl⟩
abbrev main_call1_cst_0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_cst_1 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_call2_cst : Ref sig .tc := ⟨.hbm, 51, rfl⟩
abbrev main_call2_v0 : Ref sig .tc := ⟨.hbm, 52, rfl⟩
abbrev main_call2_cst_0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_cst_1 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_call3_c : Ref sig .tc := ⟨.hbm, 71, rfl⟩
abbrev main_call3_v0 : Ref sig .tc := ⟨.hbm, 72, rfl⟩
abbrev main_call3_v1 : Ref sig .tc := ⟨.hbm, 73, rfl⟩
abbrev main_call3_c_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_c_1 : Ref sig .tc := ⟨.hbm, 79, rfl⟩
abbrev main_call3_c_2 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_c_3 : Ref sig .tc := ⟨.hbm, 87, rfl⟩
abbrev main_call3_v12 : Ref sig .tc := ⟨.hbm, 88, rfl⟩
abbrev main_call3_v13 : Ref sig .tc := ⟨.hbm, 89, rfl⟩
abbrev main_call3_cst : Ref sig .tc := ⟨.hbm, 90, rfl⟩
abbrev main_call3_v14 : Ref sig .tc := ⟨.hbm, 91, rfl⟩
abbrev main_v22 : Ref sig .tc := ⟨.hbm, 92, rfl⟩
abbrev main_v23 : Ref sig .tc := ⟨.hbm, 93, rfl⟩
abbrev main_cst : Ref sig .tc := ⟨.hbm, 94, rfl⟩
abbrev main_v24 : Ref sig .tc := ⟨.hbm, 95, rfl⟩
abbrev main_cst_0 : Ref sig .tc := ⟨.hbm, 96, rfl⟩
abbrev main_v25 : Ref sig .tc := ⟨.hbm, 97, rfl⟩
abbrev main_v26 : Ref sig .tc := ⟨.hbm, 98, rfl⟩

abbrev nD : Nat := 1
abbrev τ : Topo := Topo.v7x

variable {F : FTy → Type} [FloatOps F]

class Facts₀ : Prop where
  transposes_S1002x1024_S1024x1002_1_0 : S1002x1024.Transposes [1, 0] S1024x1002
  reducesTo_S4096x1002_S4096_d1 : S4096x1002.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x1002_0_1 : S4096x1.BroadcastsInDim S4096x1002 (![0, 1] : Fin 2 → Fin S4096x1002.rank)
  slices_S4096x1002_S4096x1000_0_0 : S4096x1002.Slices ![0, 0] S4096x1000
  transposes_S256x1024_S1024x256_1_0 : S256x1024.Transposes [1, 0] S1024x256
  transposes_S9000x256_S256x9000_1_0 : S9000x256.Transposes [1, 0] S256x9000
  reducesTo_S4096x9000_S4096_d1 : S4096x9000.ReducesTo [1] S4096
  bcast_S4096x1_S4096x9000_0_1 : S4096x1.BroadcastsInDim S4096x9000 (![0, 1] : Fin 2 → Fin S4096x9000.rank)
  slices_S4096x1002_S4096x1_0_1000 : S4096x1002.Slices ![0, 1000] S4096x1
  transposes_S64x1024_S1024x64_1_0 : S64x1024.Transposes [1, 0] S1024x64
  transposes_S40257x64_S64x40257_1_0 : S40257x64.Transposes [1, 0] S64x40257
  reducesTo_S4096x40257_S4096_d1 : S4096x40257.ReducesTo [1] S4096
  bcast_S4096x1_S4096x40257_0_1 : S4096x1.BroadcastsInDim S4096x40257 (![0, 1] : Fin 2 → Fin S4096x40257.rank)
  slices_S4096x1002_S4096x1_0_1001 : S4096x1002.Slices ![0, 1001] S4096x1
  concatenates_S4096x1000_S4096x9000_S4096x40257_S4096x50257_d1 : Shape.Concatenates [S4096x1000, S4096x9000, S4096x40257] S4096x50257 1
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  dot_S4096x1024_S1024x1002_S4096x1002_1_0_0_1_n_n_wf : DotDims.WF S4096x1024 S1024x1002 S4096x1002 [1] [0] [0] [1] [] []
  dot_S4096x1024_S1024x256_S4096x256_1_0_0_1_n_n_wf : DotDims.WF S4096x1024 S1024x256 S4096x256 [1] [0] [0] [1] [] []
  dot_S4096x256_S256x9000_S4096x9000_1_0_0_1_n_n_wf : DotDims.WF S4096x256 S256x9000 S4096x9000 [1] [0] [0] [1] [] []
  dot_S4096x1024_S1024x64_S4096x64_1_0_0_1_n_n_wf : DotDims.WF S4096x1024 S1024x64 S4096x64 [1] [0] [0] [1] [] []
  dot_S4096x64_S64x40257_S4096x40257_1_0_0_1_n_n_wf : DotDims.WF S4096x64 S64x40257 S4096x40257 [1] [0] [0] [1] [] []
  gather_S4096x50257_S4096x1x1_S4096x1_n_1_0_0_1_2_11_wf : GatherDims.WF S4096x50257 S4096x1x1 S4096x1 [] [1] [0] [1] [0] 2 ![1, 1]

variable [Facts₀]

def dot_S4096x1024_S1024x1002_S4096x1002_1_0_0_1_n_n : DotDims S4096x1024 S1024x1002 S4096x1002 where
  lhsContracting := [1]
  rhsContracting := [0]
  lhsNonContracting := [0]
  rhsNonContracting := [1]
  lhsBatch := []
  rhsBatch := []
  wf := dot_S4096x1024_S1024x1002_S4096x1002_1_0_0_1_n_n_wf
def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x256_S256x9000_S4096x9000_1_0_0_1_n_n : DotDims S4096x256 S256x9000 S4096x9000 where
  lhsContracting := [1]
  rhsContracting := [0]
  lhsNonContracting := [0]
  rhsNonContracting := [1]
  lhsBatch := []
  rhsBatch := []
  wf := dot_S4096x256_S256x9000_S4096x9000_1_0_0_1_n_n_wf
def dot_S4096x1024_S1024x64_S4096x64_1_0_0_1_n_n : DotDims S4096x1024 S1024x64 S4096x64 where
  lhsContracting := [1]
  rhsContracting := [0]
  lhsNonContracting := [0]
  rhsNonContracting := [1]
  lhsBatch := []
  rhsBatch := []
  wf := dot_S4096x1024_S1024x64_S4096x64_1_0_0_1_n_n_wf
def dot_S4096x64_S64x40257_S4096x40257_1_0_0_1_n_n : DotDims S4096x64 S64x40257 S4096x40257 where
  lhsContracting := [1]
  rhsContracting := [0]
  lhsNonContracting := [0]
  rhsNonContracting := [1]
  lhsBatch := []
  rhsBatch := []
  wf := dot_S4096x64_S64x40257_S4096x40257_1_0_0_1_n_n_wf
def gather_S4096x50257_S4096x1x1_S4096x1_n_1_0_0_1_2_11 : GatherDims S4096x50257 S4096x1x1 S4096x1 where
  offsetDims := []
  collapsedSliceDims := [1]
  operandBatchingDims := [0]
  startIndicesBatchingDims := [0]
  startIndexMap := [1]
  indexVectorDim := 2
  sliceSizes := ![1, 1]
  wf := gather_S4096x50257_S4096x1x1_S4096x1_n_1_0_0_1_2_11_wf

class Facts : Prop extends Facts₀ where

variable [Facts]
-- ==== Proof.Spec.lean ====
/-
  The mathematics both programs compute, written once over plain coordinates.

  An adaptive softmax over 50257 classes in three clusters: a head of 1000 short-list classes plus two
  cluster logits (columns 1000 and 1001), a first tail of 9000 classes reached through a 256-wide
  projection, and a second tail of 40257 classes reached through a 64-wide projection. For a row `n`
  with target class `t` the result is the log-probability of `t`: the head's log-softmax at `t` when
  `t < 1000`; otherwise the tail's log-softmax at `t` minus the cluster's offset, plus the head's
  log-softmax at the cluster's column.

  Two shapes of the same log-softmax are named here. `logSoftmax` subtracts the row maximum first and the
  logarithm of the shifted exponentials' sum second. `lse` adds the maximum and that logarithm into one
  number which is subtracted once, over a row whose padded columns hold −∞ (`masked`): their exponentials
  vanish, so they change neither the maximum nor the sum.
-/
import Idealize.ShloMosaic.PureOps.Ideal
import Idealize.ShloMosaic.Lib.ValueIdx
import Mathlib.Algebra.BigOperators.Group.Finset.Basic
import Mathlib.Data.EReal.Basic

noncomputable section

namespace Cert.Spec

open Idealize.ShloMosaic

/-- The seven argument arrays read by coordinates: activations, targets, and the five weight matrices. -/
structure Args where
  X  : Fin 4096 → Fin 1024 → EReal
  T  : Fin 4096 → BitVec 32
  Wh : Fin 1002 → Fin 1024 → EReal
  A0 : Fin 256 → Fin 1024 → EReal
  B0 : Fin 9000 → Fin 256 → EReal
  A1 : Fin 64 → Fin 1024 → EReal
  B1 : Fin 40257 → Fin 64 → EReal

/-- Every float entry is a real number. -/
def Args.Finite (a : Args) : Prop :=
  (∀ n k, ∃ r : ℝ, a.X n k = (r : EReal)) ∧ (∀ j k, ∃ r : ℝ, a.Wh j k = (r : EReal))
  ∧ (∀ j k, ∃ r : ℝ, a.A0 j k = (r : EReal)) ∧ (∀ j k, ∃ r : ℝ, a.B0 j k = (r : EReal))
  ∧ (∀ j k, ∃ r : ℝ, a.A1 j k = (r : EReal)) ∧ (∀ j k, ∃ r : ℝ, a.B1 j k = (r : EReal))

/-- Every target is a class label, `0 ≤ t < 50257` (as a 32-bit word read unsigned). -/
def Args.InRange (a : Args) : Prop := ∀ n, (a.T n).toNat < 50257

/-- The inner product of two rows. -/
def dot {K : ℕ} (u v : Fin K → EReal) : EReal := ∑ k, u k * v k

/-- A row's maximum, from −∞. -/
def rowMax {n : ℕ} (g : Fin n → EReal) : EReal := Finset.univ.fold max ⊥ g

/-- Log-softmax, the shift taken first. -/
def logSoftmax {n : ℕ} (f : Fin n → EReal) (j : Fin n) : EReal :=
  (f j - rowMax f) - Ideal.log (∑ i, Ideal.exp (f i - rowMax f))

/-- The log of the sum of a row's exponentials, through its maximum. -/
def lse {n : ℕ} (g : Fin n → EReal) : EReal :=
  rowMax g + Ideal.log (∑ i, Ideal.exp (g i - rowMax g))

/-- A padded row: the first `C` columns carry the logit, the padding −∞. -/
def masked (C : ℕ) {n : ℕ} (l : Fin n → EReal) (j : Fin n) : EReal := if j.val < C then l j else ⊥

/-! ## The logits -/

def headLogit (a : Args) (n : Fin 4096) (j : Fin 1002) : EReal := dot (a.X n) (a.Wh j)
def hid0 (a : Args) (n : Fin 4096) (r : Fin 256) : EReal := dot (a.X n) (a.A0 r)
def logit0 (a : Args) (n : Fin 4096) (j : Fin 9000) : EReal := dot (hid0 a n) (a.B0 j)
def hid1 (a : Args) (n : Fin 4096) (r : Fin 64) : EReal := dot (a.X n) (a.A1 r)
def logit1 (a : Args) (n : Fin 4096) (j : Fin 40257) : EReal := dot (hid1 a n) (a.B1 j)

/-- The target's log-probability in row `n`. -/
def lp (a : Args) (n : Fin 4096) : EReal :=
  if h : (a.T n).toNat < 1000 then logSoftmax (headLogit a n) ⟨(a.T n).toNat, by omega⟩
  else if h1 : (a.T n).toNat < 10000 then
    logSoftmax (logit0 a n) ⟨(a.T n).toNat - 1000, by omega⟩ + logSoftmax (headLogit a n) ⟨1000, by norm_num⟩
  else if h2 : (a.T n).toNat < 50257 then
    logSoftmax (logit1 a n) ⟨(a.T n).toNat - 10000, by omega⟩ + logSoftmax (headLogit a n) ⟨1001, by norm_num⟩
  else 0

/-! ## One row as the three kernels compute it -/

/-- The head's log-softmax over 1024 padded columns, 1002 of them valid: `x` the row of activations, `w` the
    padded head weights. -/
def headLp (x : Fin 1024 → EReal) (w : Fin 1024 → Fin 1024 → EReal) (j : Fin 1024) : EReal :=
  masked 1002 (fun j => dot x (w j)) j - lse (masked 1002 fun j => dot x (w j))

/-- The short-list entry: the head's log-softmax summed over the one column that equals the target and lies
    below 1000 (nothing, hence zero, for a target outside the short list). -/
def kShort (x : Fin 1024 → EReal) (w : Fin 1024 → Fin 1024 → EReal) (t : BitVec 32) : EReal :=
  ∑ j : Fin 1024, if BitVec.ofNat 32 j.val = t ∧ j.val < 1000 then headLp x w j else 0

/-- A cluster's column of the head's log-softmax. -/
def kBias (c : ℕ) (x : Fin 1024 → EReal) (w : Fin 1024 → Fin 1024 → EReal) : EReal :=
  ∑ j : Fin 1024, if j.val = c then headLp x w j else 0

/-- A tail: the masked logit at the target's column within the cluster, minus the row's `lse`, plus the
    cluster's head column. `C` valid classes, the cluster starting at `off`. -/
def kTail (C : ℕ) (off : BitVec 32) {R Cp : ℕ} (x : Fin 1024 → EReal) (wa : Fin R → Fin 1024 → EReal)
    (wb : Fin Cp → Fin R → EReal) (t : BitVec 32) (bias : EReal) : EReal :=
  (∑ j : Fin Cp, if BitVec.ofNat 32 j.val = t - off then
      masked C (fun j => dot (fun r => dot x (wa r)) (wb j)) j else 0)
    - lse (masked C fun j => dot (fun r => dot x (wa r)) (wb j)) + bias

/-- The three kernels' choice by the target's cluster. -/
def kSelect (t : BitVec 32) (s a b : EReal) : EReal :=
  if t.slt 1000#32 then s else if (1000#32).sle t ∧ t.slt 10000#32 then a else b

/-! ## The arrays as the programs hold them -/

open Idealize.ShloMosaic.ValueIdx in
/-- The argument arrays, of their literal shapes, as coordinates. -/
def mkArgs (x : (⟨2, ![4096, 1024]⟩ : Shape).Idx → EReal) (t : (⟨1, ![4096]⟩ : Shape).Idx → BitVec 32)
    (wh : (⟨2, ![1002, 1024]⟩ : Shape).Idx → EReal) (a0 : (⟨2, ![256, 1024]⟩ : Shape).Idx → EReal)
    (b0 : (⟨2, ![9000, 256]⟩ : Shape).Idx → EReal) (a1 : (⟨2, ![64, 1024]⟩ : Shape).Idx → EReal)
    (b1 : (⟨2, ![40257, 64]⟩ : Shape).Idx → EReal) : Args where
  X n k := x (ix2 n k)
  T n := t (ix1 n)
  Wh j k := wh (ix2 j k)
  A0 j k := a0 (ix2 j k)
  B0 j k := b0 (ix2 j k)
  A1 j k := a1 (ix2 j k)
  B1 j k := b1 (ix2 j k)

/-- The first result: every row's target log-probability. -/
def out (a : Args) : (⟨1, ![4096]⟩ : Shape).Idx → EReal := fun i => lp a (i 0)

/-- The second result from the first: minus the mean over the 4096 rows, as the host operations spell it (a sum
    from zero, a quotient by 4096, a negation). -/
def lossTail (h : (⟨1, ![4096]⟩ : Shape).ReducesTo [0] ⟨0, ![]⟩) (hu : 0 < (⟨0, ![]⟩ : Shape).numel)
    (o : FVec Ideal ⟨1, ![4096]⟩ .f32) : FVec Ideal ⟨0, ![]⟩ .f32 :=
  Host.negf (Host.divf (Host.reduceAdd o (constant (F := Ideal) ⟨0, ![]⟩ .f32 0x00000000#32) h hu)
    (constant (F := Ideal) ⟨0, ![]⟩ .f32 0x45800000#32))

end Cert.Spec

end
-- ==== Proof.Region0.lean ====
/-
  The head kernel's three output columns after its four grid points, each as one function of the arrays the
  region finds: row `n` of a column depends on row `n` of the activations, on the whole padded head weights and
  on row `n`'s target. Grid point `t` computes rows `1024·t … 1024·t + 1023`.
-/
import proofs.«414738_j37469294691089_1_alg».proof.Proof.Gen.KernelIdeal.Frame
import proofs.«414738_j37469294691089_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable {α : Type}

/-! ## Layout steps of a row reduction kept as a column -/

/-- A vector cast to a column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a lane reduction of the square block reads: row `r`, column `k`. -/
theorem lift_row (h : S1024x1024.Reduces [1] S1024) (r k : Fin 1024) : h.lift (ix1 r) k = ix2 r k :=
  funext fun a => Fin.ext (by
    match a with
    | ⟨0, _⟩ => rfl
    | ⟨1, _⟩ => rfl)

/-! ## Constants and column tests -/

/-- The masking constant denotes −∞. -/
theorem negBig : Named.named (F := Ideal) κ "neg_big" (φ := .f32) 0xF149F2CA#32 = (⊥ : EReal) :=
  IdealRules.named_const.ideal_named_scalar _ _ _ _ rfl

/-- The maximum's starting word is −∞. -/
theorem negInf : FloatOps.ofBits (F := Ideal) .f32 0xFF800000#32 = (⊥ : EReal) := by
  simp [Ideal.ofBits, Ideal.ieee]

/-- A small natural number as a 32-bit word, read signed, is itself. -/
theorem toInt_small (n : ℕ) (hn : n < 2000) : (BitVec.ofNat 32 n).toInt = (n : Int) := by
  rw [BitVec.toInt_eq_toNat_cond, BitVec.toNat_ofNat]
  have e : n % 2 ^ 32 = n := Nat.mod_eq_of_lt (by omega)
  rw [e, if_pos (by omega)]

/-- A column number as a word equals a small constant's word exactly when the numbers are equal. -/
theorem eq_col (j : Fin 1024) (n : ℕ) (hn : n < 2000) : (BitVec.ofNat 32 j.val = BitVec.ofNat 32 n) ↔ j.val = n := by
  have := j.isLt
  constructor
  · intro h
    have h2 := congrArg BitVec.toNat h
    simp only [BitVec.toNat_ofNat] at h2
    omega
  · intro h; rw [h]

/-- The column iota compared below a small constant: the column number is below it. -/
theorem colLt (r j : Fin 1024) (n : ℕ) (hn : n < 2000) :
    cmpi .slt (iota .tc S1024x1024 32 [1] iota_S1024x1024_d1_w32) (broadcast S1024x1024 (BitVec.ofNat 32 n)) (ix2 r j) = 1#1 ↔ j.val < n := by
  show IntOp.cmpi .slt ((iota .tc S1024x1024 32 [1] iota_S1024x1024_d1_w32) (ix2 r j)) (BitVec.ofNat 32 n) = 1#1 ↔ _
  rw [iota_single_apply, IntOp.cmpi_slt, toInt_small _ hn, toInt_small _ (by have := j.isLt; show j.val < 2000; omega)]
  exact Int.ofNat_lt

/-- The column iota compared for equality with a matrix of words: the column's word is the entry. -/
theorem colEq (y : IVec S1024x1024 32) (r j : Fin 1024) :
    cmpi .eq (iota .tc S1024x1024 32 [1] iota_S1024x1024_d1_w32) y (ix2 r j) = 1#1 ↔ BitVec.ofNat 32 j.val = y (ix2 r j) := by
  show IntOp.cmpi .eq ((iota .tc S1024x1024 32 [1] iota_S1024x1024_d1_w32) (ix2 r j)) (y (ix2 r j)) = 1#1 ↔ _
  rw [iota_single_apply, IntOp.cmpi_eq]

/-! ## Row reductions at a row -/

/-- The lane maximum of row `r`. -/
theorem rowmax_apply (g : FVec Ideal S1024x1024 .f32) (r : Fin 1024) :
    (multiReduction .maximumf [1] S1024 g 0xFF800000#32 reduces_S1024x1024_S1024 (.inl rfl) rfl) (ix1 r) = Spec.rowMax (fun k => g (ix2 r k)) := by
  refine (Ideal.multiReduction_maximumf_single g 0xFF800000#32 reduces_S1024x1024_S1024 (.inl rfl) rfl (ix1 r)).trans ?_
  unfold Spec.rowMax
  rw [negInf]
  show Finset.fold max ⊥ (fun k : Fin 1024 => g (reduces_S1024x1024_S1024.lift (ix1 r) k)) Finset.univ = _
  simp only [lift_row]

/-- The lane sum of row `r`. -/
theorem rowsum_apply (f : FVec Ideal S1024x1024 .f32) (r : Fin 1024) :
    (multiReduction .add [1] S1024 f 0x00000000#32 reduces_S1024x1024_S1024 (.inl rfl) rfl) (ix1 r) = ∑ k : Fin 1024, f (ix2 r k) :=
  (Ideal.multiReduction_add_single f 0x00000000#32 reduces_S1024x1024_S1024 (.inl rfl) rfl (ix1 r)).trans
    (Finset.sum_congr rfl fun k _ => congrArg f (lift_row _ r k))

/-! ## The body's two shapes over any matrix -/

/-- The log-softmax of every row as the body spells it: the row maximum and the logarithm of the shifted
    exponentials' sum, added into one column and subtracted once. -/
def lsm (g : FVec Ideal S1024x1024 .f32) : FVec Ideal S1024x1024 .f32 :=
  subf g (broadcastTo S1024x1024 (addf (shapeCast S1024x1 (multiReduction .maximumf [1] S1024 g 0xFF800000#32 reduces_S1024x1024_S1024 (.inl rfl) rfl) shapeCasts_S1024_S1024x1) (log (shapeCast S1024x1 (multiReduction .add [1] S1024 (exp (subf g (broadcastTo S1024x1024 (shapeCast S1024x1 (multiReduction .maximumf [1] S1024 g 0xFF800000#32 reduces_S1024x1024_S1024 (.inl rfl) rfl) shapeCasts_S1024_S1024x1) broadcasts_S1024x1_S1024x1024))) 0x00000000#32 reduces_S1024x1024_S1024 (.inl rfl) rfl) shapeCasts_S1024_S1024x1))) broadcasts_S1024x1_S1024x1024)

theorem lsm_apply (g : FVec Ideal S1024x1024 .f32) (r j : Fin 1024) :
    lsm g (ix2 r j) = g (ix2 r j) - Spec.lse (fun j => g (ix2 r j)) := by
  unfold lsm
  rw [subf_apply, broadcastTo_a1_ab_apply, addf_apply, shapeCast_a_a1_apply, rowmax_apply]
  show g (ix2 r j) - (Spec.rowMax _ + Ideal.log ((shapeCast S1024x1 (multiReduction .add [1] S1024 (exp (subf g (broadcastTo S1024x1024 (shapeCast S1024x1 (multiReduction .maximumf [1] S1024 g 0xFF800000#32 reduces_S1024x1024_S1024 (.inl rfl) rfl) shapeCasts_S1024_S1024x1) broadcasts_S1024x1_S1024x1024))) 0x00000000#32 reduces_S1024x1024_S1024 (.inl rfl) rfl) shapeCasts_S1024_S1024x1) (ix2 r 0))) = _
  rw [shapeCast_a_a1_apply, rowsum_apply]
  unfold Spec.lse
  refine congrArg (fun s => g (ix2 r j) - (Spec.rowMax (fun k => g (ix2 r k)) + Ideal.log s)) (Finset.sum_congr rfl fun i _ => ?_)
  show Ideal.exp (g (ix2 r i) - (broadcastTo S1024x1024 (shapeCast S1024x1 (multiReduction .maximumf [1] S1024 g 0xFF800000#32 reduces_S1024x1024_S1024 (.inl rfl) rfl) shapeCasts_S1024_S1024x1) broadcasts_S1024x1_S1024x1024) (ix2 r i)) = _
  rw [broadcastTo_a1_ab_apply, shapeCast_a_a1_apply, rowmax_apply]

/-- The entries of every row a mask selects, summed into a column. -/
def pick (c : IVec S1024x1024 1) (h : FVec Ideal S1024x1024 .f32) : FVec Ideal S1024x1 .f32 :=
  (shapeCast S1024x1 (multiReduction .add [1] S1024 (select c h (broadcast S1024x1024 (Scalar.ofBits (F := Ideal) .f32 0x00000000#32))) 0x00000000#32 reduces_S1024x1024_S1024 (.inl rfl) rfl) shapeCasts_S1024_S1024x1)

theorem pick_apply (c : IVec S1024x1024 1) (h : FVec Ideal S1024x1024 .f32) (r : Fin 1024) (q : Fin 1) :
    pick c h (ix2 r q) = ∑ j : Fin 1024, if c (ix2 r j) = 1#1 then h (ix2 r j) else 0 := by
  unfold pick
  rw [shapeCast_a_a1_apply, rowsum_apply]
  refine Finset.sum_congr rfl fun j _ => ?_
  show (if c (ix2 r j) = 1 then h (ix2 r j) else Ideal.ofBits .f32 0x00000000#32) = _
  rw [Ideal.ofBits_zero_f32]
  rfl

/-! ## The matrix product at an index -/

theorem lhs_head_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_head_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_head_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_head_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The matrix unit's output at row `r`, column `j`: the inner product of row `r` of the activations with row `j`
    of the weights (the weights enter transposed, the accumulator is zero). -/
theorem logits_apply (x0 x1 : FVec Ideal S1024x1024 .bf16) (r j : Fin 1024) :
    (matmul dot_S1024x1024_S1024x1024_S1024x1024_1_0_0_1_n_n none (shapeCast S1024x1024 x0 shapeCasts_S1024x1024_S1024x1024)
      (transpose S1024x1024 [1, 0] (shapeCast S1024x1024 x1 shapeCasts_S1024x1024_S1024x1024) transposes_S1024x1024_p1_0_S1024x1024)
      (constant S1024x1024 .f32 0x00000000#32)) (ix2 r j)
    = Spec.dot (fun k => x0 (ix2 r k)) (fun k => x1 (ix2 j k)) := by
  rw [shapeCast_self, shapeCast_self]
  show FloatOps.matmul dot_S1024x1024_S1024x1024_S1024x1024_1_0_0_1_n_n none x0 _ (constant S1024x1024 .f32 0x00000000#32) (ix2 r j) = _
  rw [Ideal.matmul_constant_zero_apply, ← Equiv.sum_comp (contrEquiv1 dot_S1024x1024_S1024x1024_S1024x1024_1_0_0_1_n_n 1024 rfl rfl).symm]
  unfold Spec.dot
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r j) ((contrEquiv1 dot_S1024x1024_S1024x1024_S1024x1024_1_0_0_1_n_n 1024 rfl rfl).symm k) = ix2 r k := funext fun a => Fin.ext (by
    match a with
    | ⟨0, _⟩ => exact lhs_head_0 _ _
    | ⟨1, _⟩ => exact (lhs_head_1 _ _).trans hk)
  have er : dot_S1024x1024_S1024x1024_S1024x1024_1_0_0_1_n_n.rhsIdx (ix2 r j) ((contrEquiv1 dot_S1024x1024_S1024x1024_S1024x1024_1_0_0_1_n_n 1024 rfl rfl).symm k) = ix2 k j := funext fun a => Fin.ext (by
    match a with
    | ⟨0, _⟩ => exact (rhs_head_0 _ _).trans hk
    | ⟨1, _⟩ => exact rhs_head_1 _ _)
  rw [el, er, transpose_ix2_apply]

/-! ## The payloads at an index -/

/-- The masked logits: the product where the column is a valid class, the masking constant on the padding. -/
def mlog (x0 x1 : FVec Ideal S1024x1024 .bf16) : FVec Ideal S1024x1024 .f32 :=
  select (cmpi .slt (iota .tc S1024x1024 32 [1] iota_S1024x1024_d1_w32) (broadcast S1024x1024 1002#32)) (matmul dot_S1024x1024_S1024x1024_S1024x1024_1_0_0_1_n_n none (shapeCast S1024x1024 x0 shapeCasts_S1024x1024_S1024x1024)
      (transpose S1024x1024 [1, 0] (shapeCast S1024x1024 x1 shapeCasts_S1024x1024_S1024x1024) transposes_S1024x1024_p1_0_S1024x1024)
      (constant S1024x1024 .f32 0x00000000#32))
    (broadcast S1024x1024 (Named.named (F := Ideal) κ "neg_big" (φ := .f32) 0xF149F2CA#32))

theorem mlog_apply (x0 x1 : FVec Ideal S1024x1024 .bf16) (r j : Fin 1024) :
    mlog x0 x1 (ix2 r j) = Spec.masked 1002 (fun j => Spec.dot (fun k => x0 (ix2 r k)) (fun k => x1 (ix2 j k))) j := by
  unfold mlog Spec.masked
  rw [select_apply, logits_apply, broadcast_apply, negBig]
  exact if_congr (colLt r j 1002 (by norm_num)) rfl rfl

/-- The head's log-softmax payload is the log-softmax shape over the masked logits. -/
theorem pay2_eq (x0 x1 : Vec Ideal S1024x1024 .bf16) : k0_pay2 (F := Ideal) x0 x1 = lsm (mlog x0 x1) := rfl

/-- Row `r`, column `j` of the head's log-softmax payload: the head's log-softmax of row `r` of the activations block
    against the weights block. -/
theorem pay2_apply (x0 x1 : Vec Ideal S1024x1024 .bf16) (r j : Fin 1024) :
    k0_pay2 (F := Ideal) x0 x1 (ix2 r j) = Spec.headLp (fun k => x0 (ix2 r k)) (fun j k => x1 (ix2 j k)) j := by
  rw [pay2_eq, lsm_apply]
  unfold Spec.headLp
  rw [mlog_apply, funext (mlog_apply x0 x1 r)]

theorem pay1_eq (v21 : FVec Ideal S1024x1024 .f32) (v40 : IVec S1024x1024 1) : k0_pay1 (F := Ideal) v21 v40 = pick v40 v21 := rfl

theorem pay3_eq (x0 x1 : Vec Ideal S1024x1024 .bf16) (x2 : Vec Ideal S1024x1 .i32) :
    k0_pay3 (F := Ideal) x0 x1 x2 = pick (andi (cmpi .eq (iota .tc S1024x1024 32 [1] iota_S1024x1024_d1_w32) (broadcastTo S1024x1024 (shapeCast S1024x1 x2 shapeCasts_S1024x1_S1024x1) broadcasts_S1024x1_S1024x1024))
      (cmpi .slt (iota .tc S1024x1024 32 [1] iota_S1024x1024_d1_w32) (broadcast S1024x1024 1000#32))) (k0_pay2 (F := Ideal) x0 x1) := rfl

theorem pay4_eq (x0 x1 : Vec Ideal S1024x1024 .bf16) :
    k0_pay4 (F := Ideal) x0 x1 = pick (cmpi .eq (iota .tc S1024x1024 32 [1] iota_S1024x1024_d1_w32) (broadcast S1024x1024 1000#32)) (k0_pay2 (F := Ideal) x0 x1) := rfl

/-- The short-list payload at row `r`. -/
theorem pay3_apply (x0 x1 : Vec Ideal S1024x1024 .bf16) (x2 : Vec Ideal S1024x1 .i32) (r : Fin 1024) (q : Fin 1) :
    k0_pay3 (F := Ideal) x0 x1 x2 (ix2 r q)
      = Spec.kShort (fun k => x0 (ix2 r k)) (fun j k => x1 (ix2 j k)) (x2 (ix2 r (0 : Fin 1))) := by
  rw [pay3_eq, pick_apply]
  unfold Spec.kShort
  refine Finset.sum_congr rfl fun j _ => ?_
  rw [pay2_apply]
  refine if_congr ?_ rfl rfl
  show IntOp.andi (cmpi .eq (iota .tc S1024x1024 32 [1] iota_S1024x1024_d1_w32) (broadcastTo S1024x1024 (shapeCast S1024x1 x2 shapeCasts_S1024x1_S1024x1) broadcasts_S1024x1_S1024x1024) (ix2 r j))
      (cmpi .slt (iota .tc S1024x1024 32 [1] iota_S1024x1024_d1_w32) (broadcast S1024x1024 1000#32) (ix2 r j)) = 1#1 ↔ _
  rw [IntOp.andi_eq_one, colLt r j 1000 (by norm_num), colEq, broadcastTo_a1_ab_apply, shapeCast_self]

/-- A cluster column's payload at row `r`: the head's log-softmax at that column. -/
theorem bias_apply (x0 x1 : Vec Ideal S1024x1024 .bf16) (n : ℕ) (hn : n < 2000) (r : Fin 1024) (q : Fin 1) :
    pick (cmpi .eq (iota .tc S1024x1024 32 [1] iota_S1024x1024_d1_w32) (broadcast S1024x1024 (BitVec.ofNat 32 n))) (k0_pay2 (F := Ideal) x0 x1) (ix2 r q)
      = Spec.kBias n (fun k => x0 (ix2 r k)) (fun j k => x1 (ix2 j k)) := by
  rw [pick_apply]
  unfold Spec.kBias
  refine Finset.sum_congr rfl fun j _ => ?_
  rw [pay2_apply]
  refine if_congr ?_ rfl rfl
  rw [colEq, broadcast_apply]
  exact eq_col j n hn

theorem pay4_apply (x0 x1 : Vec Ideal S1024x1024 .bf16) (r : Fin 1024) (q : Fin 1) :
    k0_pay4 (F := Ideal) x0 x1 (ix2 r q) = Spec.kBias 1000 (fun k => x0 (ix2 r k)) (fun j k => x1 (ix2 j k)) := by
  rw [pay4_eq]
  exact bias_apply x0 x1 1000 (by norm_num) r q

theorem pay5_eq : k0_pay5 = cmpi .eq (iota .tc S1024x1024 32 [1] iota_S1024x1024_d1_w32) (broadcast S1024x1024 1001#32) := rfl

theorem pay15_apply (x0 x1 : Vec Ideal S1024x1024 .bf16) (r : Fin 1024) (q : Fin 1) :
    k0_pay1 (F := Ideal) (k0_pay2 (F := Ideal) x0 x1) k0_pay5 (ix2 r q)
      = Spec.kBias 1001 (fun k => x0 (ix2 r k)) (fun j k => x1 (ix2 j k)) := by
  rw [pay1_eq, pay5_eq]
  exact bias_apply x0 x1 1001 (by norm_num) r q

variable (V : (c : Dev nD) → (b : Ref sig .tc) → Buf (Elt Ideal) ((c : Thread nD τ).loc b))

/-- The activations, the padded head weights and the targets as the region finds them. -/
abbrev xs (c : Dev nD) : S4096x1024.Idx → EReal := V c main_v0
abbrev wh (c : Dev nD) : S1024x1024.Idx → EReal := V c main_v2
abbrev tg (c : Dev nD) : S4096x1.Idx → BitVec 32 := V c main_v9

/-! ## From blocks to the arrays -/

theorem zeroOff : (![0, 0] : Fin 2 → Nat) = fun _ => 0 := funext fun a => by fin_cases a <;> rfl

/-- The printed index maps over the four grid points: the activations', targets' and the three output windows' block
    index on the row axis is the point's number, every other block index is zero. -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 ∧ t.val < 4 :=
  (by decide +kernel : ∀ t : Fin grid0.N, _)

/-- The activations' block at point `t`: rows `1024·t …` of the array. -/
theorem xblk_apply (c : Dev nD) (t : Fin cfg0.N) (p k : Fin 1024) (n : Fin 4096) (hn : n.val = 1024 * t.val + p.val) :
    (iblk0 V c 0 t : Vec Ideal S1024x1024 .bf16) (ix2 p k) = xs V c (ix2 n k) := by
  obtain ⟨e0, e1, -⟩ := blockIndex t
  unfold iblk0
  rw [View.read_apply]
  show V c main_v0 (((cfg0.win 0).blk t).view.emb (ix2 p k)) = V c main_v0 (ix2 n k)
  refine congrArg (V c main_v0) (funext fun a => Fin.ext ?_)
  match a with
  | ⟨0, _⟩ => show win0_0.index t (0 : Fin 2) * 1024 + 1 * p.val = n.val; omega
  | ⟨1, _⟩ => show win0_0.index t (1 : Fin 2) * 1024 + 1 * k.val = k.val; omega

/-- The weights' block at every point: the whole array. -/
theorem wblk_apply (c : Dev nD) (t : Fin cfg0.N) (j k : Fin 1024) :
    (iblk0 V c 1 t : Vec Ideal S1024x1024 .bf16) (ix2 j k) = wh V c (ix2 j k) := by
  obtain ⟨-, -, e0, e1, -⟩ := blockIndex t
  unfold iblk0
  rw [View.read_apply]
  show V c main_v2 (((cfg0.win 1).blk t).view.emb (ix2 j k)) = V c main_v2 (ix2 j k)
  refine congrArg (V c main_v2) (funext fun a => Fin.ext ?_)
  match a with
  | ⟨0, _⟩ => show win0_1.index t (0 : Fin 2) * 1024 + 1 * j.val = j.val; omega
  | ⟨1, _⟩ => show win0_1.index t (1 : Fin 2) * 1024 + 1 * k.val = k.val; omega

/-- The targets' block at point `t`: rows `1024·t …` of the column. -/
theorem tblk_apply (c : Dev nD) (t : Fin cfg0.N) (p : Fin 1024) (q : Fin 1) (n : Fin 4096) (hn : n.val = 1024 * t.val + p.val) :
    (iblk0 V c 2 t : Vec Ideal S1024x1 .i32) (ix2 p q) = tg V c (ix2 n (0 : Fin 1)) := by
  obtain ⟨-, -, -, -, e0, e1, -⟩ := blockIndex t
  unfold iblk0
  rw [View.read_apply]
  show V c main_v9 (((cfg0.win 2).blk t).view.emb (ix2 p q)) = V c main_v9 (ix2 n (0 : Fin 1))
  refine congrArg (V c main_v9) (funext fun a => Fin.ext ?_)
  match a with
  | ⟨0, _⟩ => show win0_2.index t (0 : Fin 2) * 1024 + 1 * p.val = n.val; omega
  | ⟨1, _⟩ => show win0_2.index t (1 : Fin 2) * 1 + 1 * q.val = 0; omega

theorem shortRows (c : Dev nD) (t : Fin cfg0.N) :
    (dat0 V c).flushed 3 t = ((cfg0.win 3).blk t).view.read (Elt Ideal)
      (fun i : S4096x1.Idx => Spec.kShort (fun k => xs V c (ix2 (i 0) k)) (fun j k => wh V c (ix2 j k)) (tg V c (ix2 (i 0) 0))) := by
  show (cfg0.win 3).cut (grid0.coords t) ((dat0 V c).after 3 t) = _
  rw [after0_3]
  unfold out0_3
  rw [View.canon_unit_zero zeroOff]
  simp only [View.ld_unit_zero (S := S1024x1024) zeroOff, View.ld_unit_zero (S := S1024x1) zeroOff]
  funext y
  obtain ⟨p, q, rfl⟩ : ∃ (p : Fin 1024) (q : Fin 1), y = ix2 p q := ⟨y 0, y 1, eq_ix2 y⟩
  obtain ⟨-, -, -, -, -, -, e30, e31, e40, e41, e50, e51, ht⟩ := blockIndex t
  have hn : 1024 * t.val + p.val < 4096 := by have := p.isLt; omega
  have he : ((cfg0.win 3).blk t).view.emb (ix2 p q) = (ix2 (⟨1024 * t.val + p.val, hn⟩ : Fin 4096) (0 : Fin 1) : S4096x1.Idx) :=
    funext fun a => Fin.ext (by
      match a with
      | ⟨0, _⟩ => show win0_3.index t (0 : Fin 2) * 1024 + 1 * p.val = 1024 * t.val + p.val; omega
      | ⟨1, _⟩ => show win0_3.index t (1 : Fin 2) * 1 + 1 * q.val = 0; omega)
  refine (pay3_apply (iblk0 V c 0 t) (iblk0 V c 1 t) (iblk0 V c 2 t) p q).trans ?_
  rw [View.read_apply]
  show _ = (fun i : S4096x1.Idx => Spec.kShort (fun k => xs V c (ix2 (i 0) k)) (fun j k => wh V c (ix2 j k)) (tg V c (ix2 (i 0) 0))) (((cfg0.win 3).blk t).view.emb (ix2 p q))
  rw [he]
  show _ = Spec.kShort (fun k => xs V c (ix2 (⟨1024 * t.val + p.val, hn⟩ : Fin 4096) k)) (fun j k => wh V c (ix2 j k)) (tg V c (ix2 (⟨1024 * t.val + p.val, hn⟩ : Fin 4096) 0))
  rw [funext fun k => xblk_apply V c t p k ⟨1024 * t.val + p.val, hn⟩ rfl, funext fun j => funext fun k => wblk_apply V c t j k,
    tblk_apply V c t p 0 ⟨1024 * t.val + p.val, hn⟩ rfl]

/-- What point `t` writes back to the first cluster's column: rows `1024·t …` of the column's function. -/
theorem firstRows (c : Dev nD) (t : Fin cfg0.N) :
    (dat0 V c).flushed 4 t = ((cfg0.win 4).blk t).view.read (Elt Ideal)
      (fun i : S4096x1.Idx => Spec.kBias 1000 (fun k => xs V c (ix2 (i 0) k)) (fun j k => wh V c (ix2 j k))) := by
  show (cfg0.win 4).cut (grid0.coords t) ((dat0 V c).after 4 t) = _
  rw [after0_4]
  unfold out0_4
  rw [View.canon_unit_zero zeroOff]
  simp only [View.ld_unit_zero (S := S1024x1024) zeroOff]
  funext y
  obtain ⟨p, q, rfl⟩ : ∃ (p : Fin 1024) (q : Fin 1), y = ix2 p q := ⟨y 0, y 1, eq_ix2 y⟩
  obtain ⟨-, -, -, -, -, -, e30, e31, e40, e41, e50, e51, ht⟩ := blockIndex t
  have hn : 1024 * t.val + p.val < 4096 := by have := p.isLt; omega
  have he : ((cfg0.win 4).blk t).view.emb (ix2 p q) = (ix2 (⟨1024 * t.val + p.val, hn⟩ : Fin 4096) (0 : Fin 1) : S4096x1.Idx) :=
    funext fun a => Fin.ext (by
      match a with
      | ⟨0, _⟩ => show win0_4.index t (0 : Fin 2) * 1024 + 1 * p.val = 1024 * t.val + p.val; omega
      | ⟨1, _⟩ => show win0_4.index t (1 : Fin 2) * 1 + 1 * q.val = 0; omega)
  refine (pay4_apply (iblk0 V c 0 t) (iblk0 V c 1 t) p q).trans ?_
  rw [View.read_apply]
  show _ = (fun i : S4096x1.Idx => Spec.kBias 1000 (fun k => xs V c (ix2 (i 0) k)) (fun j k => wh V c (ix2 j k))) (((cfg0.win 4).blk t).view.emb (ix2 p q))
  rw [he]
  show _ = Spec.kBias 1000 (fun k => xs V c (ix2 (⟨1024 * t.val + p.val, hn⟩ : Fin 4096) k)) (fun j k => wh V c (ix2 j k))
  rw [funext fun k => xblk_apply V c t p k ⟨1024 * t.val + p.val, hn⟩ rfl, funext fun j => funext fun k => wblk_apply V c t j k]

/-- What point `t` writes back to the second cluster's column: rows `1024·t …` of the column's function. -/
theorem secondRows (c : Dev nD) (t : Fin cfg0.N) :
    (dat0 V c).flushed 5 t = ((cfg0.win 5).blk t).view.read (Elt Ideal)
      (fun i : S4096x1.Idx => Spec.kBias 1001 (fun k => xs V c (ix2 (i 0) k)) (fun j k => wh V c (ix2 j k))) := by
  show (cfg0.win 5).cut (grid0.coords t) ((dat0 V c).after 5 t) = _
  rw [after0_5]
  unfold out0_5
  rw [View.canon_unit_zero zeroOff]
  simp only [View.ld_unit_zero (S := S1024x1024) zeroOff]
  funext y
  obtain ⟨p, q, rfl⟩ : ∃ (p : Fin 1024) (q : Fin 1), y = ix2 p q := ⟨y 0, y 1, eq_ix2 y⟩
  obtain ⟨-, -, -, -, -, -, e30, e31, e40, e41, e50, e51, ht⟩ := blockIndex t
  have hn : 1024 * t.val + p.val < 4096 := by have := p.isLt; omega
  have he : ((cfg0.win 5).blk t).view.emb (ix2 p q) = (ix2 (⟨1024 * t.val + p.val, hn⟩ : Fin 4096) (0 : Fin 1) : S4096x1.Idx) :=
    funext fun a => Fin.ext (by
      match a with
      | ⟨0, _⟩ => show win0_5.index t (0 : Fin 2) * 1024 + 1 * p.val = 1024 * t.val + p.val; omega
      | ⟨1, _⟩ => show win0_5.index t (1 : Fin 2) * 1 + 1 * q.val = 0; omega)
  refine (pay15_apply (iblk0 V c 0 t) (iblk0 V c 1 t) p q).trans ?_
  rw [View.read_apply]
  show _ = (fun i : S4096x1.Idx => Spec.kBias 1001 (fun k => xs V c (ix2 (i 0) k)) (fun j k => wh V c (ix2 j k))) (((cfg0.win 5).blk t).view.emb (ix2 p q))
  rw [he]
  show _ = Spec.kBias 1001 (fun k => xs V c (ix2 (⟨1024 * t.val + p.val, hn⟩ : Fin 4096) k)) (fun j k => wh V c (ix2 j k))
  rw [funext fun k => xblk_apply V c t p k ⟨1024 * t.val + p.val, hn⟩ rfl, funext fun j => funext fun k => wblk_apply V c t j k]

/-- An index of column 3's array is in point `t`'s block iff each coordinate is in the block's range on its axis. -/
theorem inShortRows (t : Fin cfg0.N) (i : S4096x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v10_0).slice (win0_3.rect t)).set ↔ _
  rw [View.set_slice_whole, Rect.mem_set_unit]
  exact Iff.rfl

/-- Row `n` is written back by point `n / 1024`. -/
theorem shortCovered (i : S4096x1.Idx) : ∃ t : Fin cfg0.N, (cfg0.win 3).flush t = true ∧ i ∈ ((cfg0.win 3).blk t).view.set := by
  have hi0 : (i 0).val < 4096 := (i 0).isLt
  have hi1 : (i 1).val < 1 := (i 1).isLt
  have hN : grid0.N = 4 := N_0
  have hlt : (i 0).val / 1024 < cfg0.N := by show (i 0).val / 1024 < grid0.N; omega
  obtain ⟨-, -, -, -, -, -, e30, e31, e40, e41, e50, e51, -⟩ := blockIndex ⟨(i 0).val / 1024, hlt⟩
  refine ⟨⟨(i 0).val / 1024, hlt⟩, flush0_3 _, ?_⟩
  rw [inShortRows]
  intro a
  match a with
  | ⟨0, _⟩ =>
    show win0_3.index ⟨(i 0).val / 1024, hlt⟩ (0 : Fin 2) * 1024 ≤ (i 0).val ∧ (i 0).val < win0_3.index ⟨(i 0).val / 1024, hlt⟩ (0 : Fin 2) * 1024 + 1024
    rw [e30]
    show (i 0).val / 1024 * 1024 ≤ (i 0).val ∧ (i 0).val < (i 0).val / 1024 * 1024 + 1024
    omega
  | ⟨1, _⟩ =>
    show win0_3.index ⟨(i 0).val / 1024, hlt⟩ (1 : Fin 2) * 1 ≤ (i 1).val ∧ (i 1).val < win0_3.index ⟨(i 0).val / 1024, hlt⟩ (1 : Fin 2) * 1 + 1
    omega

/-- An index of column 4's array is in point `t`'s block iff each coordinate is in the block's range on its axis. -/
theorem inFirstRows (t : Fin cfg0.N) (i : S4096x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v10_1).slice (win0_4.rect t)).set ↔ _
  rw [View.set_slice_whole, Rect.mem_set_unit]
  exact Iff.rfl

/-- Row `n` is written back by point `n / 1024`. -/
theorem firstCovered (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  have hN : grid0.N = 4 := N_0
  have hlt : (i 0).val / 1024 < cfg0.N := by show (i 0).val / 1024 < grid0.N; omega
  obtain ⟨-, -, -, -, -, -, e30, e31, e40, e41, e50, e51, -⟩ := blockIndex ⟨(i 0).val / 1024, hlt⟩
  refine ⟨⟨(i 0).val / 1024, hlt⟩, flush0_4 _, ?_⟩
  rw [inFirstRows]
  intro a
  match a with
  | ⟨0, _⟩ =>
    show win0_4.index ⟨(i 0).val / 1024, hlt⟩ (0 : Fin 2) * 1024 ≤ (i 0).val ∧ (i 0).val < win0_4.index ⟨(i 0).val / 1024, hlt⟩ (0 : Fin 2) * 1024 + 1024
    rw [e40]
    show (i 0).val / 1024 * 1024 ≤ (i 0).val ∧ (i 0).val < (i 0).val / 1024 * 1024 + 1024
    omega
  | ⟨1, _⟩ =>
    show win0_4.index ⟨(i 0).val / 1024, hlt⟩ (1 : Fin 2) * 1 ≤ (i 1).val ∧ (i 1).val < win0_4.index ⟨(i 0).val / 1024, hlt⟩ (1 : Fin 2) * 1 + 1
    omega

/-- An index of column 5's array is in point `t`'s block iff each coordinate is in the block's range on its axis. -/
theorem inSecondRows (t : Fin cfg0.N) (i : S4096x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v10_2).slice (win0_5.rect t)).set ↔ _
  rw [View.set_slice_whole, Rect.mem_set_unit]
  exact Iff.rfl

/-- Row `n` is written back by point `n / 1024`. -/
theorem secondCovered (i : S4096x1.Idx) : ∃ t : Fin cfg0.N, (cfg0.win 5).flush t = true ∧ i ∈ ((cfg0.win 5).blk t).view.set := by
  have hi0 : (i 0).val < 4096 := (i 0).isLt
  have hi1 : (i 1).val < 1 := (i 1).isLt
  have hN : grid0.N = 4 := N_0
  have hlt : (i 0).val / 1024 < cfg0.N := by show (i 0).val / 1024 < grid0.N; omega
  obtain ⟨-, -, -, -, -, -, e30, e31, e40, e41, e50, e51, -⟩ := blockIndex ⟨(i 0).val / 1024, hlt⟩
  refine ⟨⟨(i 0).val / 1024, hlt⟩, flush0_5 _, ?_⟩
  rw [inSecondRows]
  intro a
  match a with
  | ⟨0, _⟩ =>
    show win0_5.index ⟨(i 0).val / 1024, hlt⟩ (0 : Fin 2) * 1024 ≤ (i 0).val ∧ (i 0).val < win0_5.index ⟨(i 0).val / 1024, hlt⟩ (0 : Fin 2) * 1024 + 1024
    rw [e50]
    show (i 0).val / 1024 * 1024 ≤ (i 0).val ∧ (i 0).val < (i 0).val / 1024 * 1024 + 1024
    omega
  | ⟨1, _⟩ =>
    show win0_5.index ⟨(i 0).val / 1024, hlt⟩ (1 : Fin 2) * 1 ≤ (i 1).val ∧ (i 1).val < win0_5.index ⟨(i 0).val / 1024, hlt⟩ (1 : Fin 2) * 1 + 1
    omega

/-- The short-list column. -/
theorem arr3 (c : Dev nD) : (dat0 (F := Ideal) V c).arrAt 3 cfg0.N
    = fun i => Spec.kShort (fun k => xs V c (ix2 (i 0) k)) (fun j k => wh V c (ix2 j k)) (tg V c (ix2 (i 0) 0)) :=
  (dat0 V c).arrAt_eq_of_cover 3 _ (fun t _ => shortRows V c t) shortCovered

/-- The first cluster's head column (class 1000). -/
theorem arr4 (c : Dev nD) : (dat0 (F := Ideal) V c).arrAt 4 cfg0.N
    = fun i => Spec.kBias 1000 (fun k => xs V c (ix2 (i 0) k)) (fun j k => wh V c (ix2 j k)) :=
  (dat0 V c).arrAt_eq_of_cover 4 _ (fun t _ => firstRows V c t) firstCovered

/-- The second cluster's head column (class 1001). -/
theorem arr5 (c : Dev nD) : (dat0 (F := Ideal) V c).arrAt 5 cfg0.N
    = fun i => Spec.kBias 1001 (fun k => xs V c (ix2 (i 0) k)) (fun j k => wh V c (ix2 j k)) :=
  (dat0 V c).arrAt_eq_of_cover 5 _ (fun t _ => secondRows V c t) secondCovered

end Cert.KernelIdeal.Region0

end
-- ==== Proof.Region1.lean ====
/-
  A tail kernel's output column after its 16 grid points as one function of the arrays the region finds: row
  `n` depends on row `n` of the activations, on the two whole projection matrices, on row `n`'s target and on row
  `n` of the cluster's head column. Grid point `t` computes rows `256·t … 256·t + 255`.
-/
import proofs.«414738_j37469294691089_1_alg».proof.Proof.Gen.KernelIdeal.Frame
import proofs.«414738_j37469294691089_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The activations, the two projections (the second padded), the targets and the cluster's head column as the
    region finds them. -/
abbrev xs (c : Dev nD) : S4096x1024.Idx → EReal := V c main_v0
abbrev wa (c : Dev nD) : S256x1024.Idx → EReal := V c main_v3
abbrev wb (c : Dev nD) : S9088x256.Idx → EReal := V c main_v5
abbrev tg (c : Dev nD) : S4096x1.Idx → BitVec 32 := V c main_v9
abbrev bias (c : Dev nD) : S4096x1.Idx → EReal := V c main_v10_1

/-! ## The two products at an index -/

theorem lhs_hid_0 (i : S256x256.Idx) (q : dot_S256x1024_S1024x256_S256x256_1_0_0_1_n_n.contr.Idx) :
    (dot_S256x1024_S1024x256_S256x256_1_0_0_1_n_n.lhsIdx i q 0).val = (i 0).val := by
  unfold DotDims.lhsIdx
  rw [dif_neg (show ¬(0 : Fin S256x1024.rank) ∈ dot_S256x1024_S1024x256_S256x256_1_0_0_1_n_n.lhsBatch by decide), dif_pos (show (0 : Fin S256x1024.rank) ∈ dot_S256x1024_S1024x256_S256x256_1_0_0_1_n_n.lhsNonContracting by decide)]
  rfl
theorem lhs_hid_1 (i : S256x256.Idx) (q : dot_S256x1024_S1024x256_S256x256_1_0_0_1_n_n.contr.Idx) :
    (dot_S256x1024_S1024x256_S256x256_1_0_0_1_n_n.lhsIdx i q 1).val = (q ⟨0, by decide⟩).val :=
  dot_S256x1024_S1024x256_S256x256_1_0_0_1_n_n.lhsIdx_val_of_single rfl i q
theorem rhs_hid_0 (i : S256x256.Idx) (q : dot_S256x1024_S1024x256_S256x256_1_0_0_1_n_n.contr.Idx) :
    (dot_S256x1024_S1024x256_S256x256_1_0_0_1_n_n.rhsIdx i q 0).val = (q ⟨0, by decide⟩).val :=
  dot_S256x1024_S1024x256_S256x256_1_0_0_1_n_n.rhsIdx_val_of_single rfl i q
theorem rhs_hid_1 (i : S256x256.Idx) (q : dot_S256x1024_S1024x256_S256x256_1_0_0_1_n_n.contr.Idx) :
    (dot_S256x1024_S1024x256_S256x256_1_0_0_1_n_n.rhsIdx i q 1).val = (i 1).val := by
  unfold DotDims.rhsIdx
  rw [dif_neg (show ¬(1 : Fin S1024x256.rank) ∈ dot_S256x1024_S1024x256_S256x256_1_0_0_1_n_n.rhsBatch by decide), dif_pos (show (1 : Fin S1024x256.rank) ∈ dot_S256x1024_S1024x256_S256x256_1_0_0_1_n_n.rhsNonContracting by decide)]
  rfl

theorem lhs_out_0 (i : S256x9088.Idx) (q : dot_S256x256_S256x9088_S256x9088_1_0_0_1_n_n.contr.Idx) :
    (dot_S256x256_S256x9088_S256x9088_1_0_0_1_n_n.lhsIdx i q 0).val = (i 0).val := by
  unfold DotDims.lhsIdx
  rw [dif_neg (show ¬(0 : Fin S256x256.rank) ∈ dot_S256x256_S256x9088_S256x9088_1_0_0_1_n_n.lhsBatch by decide), dif_pos (show (0 : Fin S256x256.rank) ∈ dot_S256x256_S256x9088_S256x9088_1_0_0_1_n_n.lhsNonContracting by decide)]
  rfl
theorem lhs_out_1 (i : S256x9088.Idx) (q : dot_S256x256_S256x9088_S256x9088_1_0_0_1_n_n.contr.Idx) :
    (dot_S256x256_S256x9088_S256x9088_1_0_0_1_n_n.lhsIdx i q 1).val = (q ⟨0, by decide⟩).val :=
  dot_S256x256_S256x9088_S256x9088_1_0_0_1_n_n.lhsIdx_val_of_single rfl i q
theorem rhs_out_0 (i : S256x9088.Idx) (q : dot_S256x256_S256x9088_S256x9088_1_0_0_1_n_n.contr.Idx) :
    (dot_S256x256_S256x9088_S256x9088_1_0_0_1_n_n.rhsIdx i q 0).val = (q ⟨0, by decide⟩).val :=
  dot_S256x256_S256x9088_S256x9088_1_0_0_1_n_n.rhsIdx_val_of_single rfl i q
theorem rhs_out_1 (i : S256x9088.Idx) (q : dot_S256x256_S256x9088_S256x9088_1_0_0_1_n_n.contr.Idx) :
    (dot_S256x256_S256x9088_S256x9088_1_0_0_1_n_n.rhsIdx i q 1).val = (i 1).val := by
  unfold DotDims.rhsIdx
  rw [dif_neg (show ¬(1 : Fin S256x9088.rank) ∈ dot_S256x256_S256x9088_S256x9088_1_0_0_1_n_n.rhsBatch by decide), dif_pos (show (1 : Fin S256x9088.rank) ∈ dot_S256x256_S256x9088_S256x9088_1_0_0_1_n_n.rhsNonContracting by decide)]
  rfl

/-- The first product into a zero accumulator: entry `(r, q)` is the inner product of row `r` of the left
    operand with column `q` of the right. -/
theorem hid_apply (a : FVec Ideal S256x1024 .bf16) (b : FVec Ideal S1024x256 .bf16) (r q : Fin 256) :
    matmul dot_S256x1024_S1024x256_S256x256_1_0_0_1_n_n none a b (constant (F := Ideal) S256x256 .f32 0x00000000#32) (ix2 r q)
      = ∑ k : Fin 1024, a (ix2 r k) * b (ix2 k q) := by
  simp only [matmul]
  rw [Ideal.matmul_constant_zero_apply, ← Equiv.sum_comp (contrEquiv1 dot_S256x1024_S1024x256_S256x256_1_0_0_1_n_n 1024 rfl rfl).symm]
  refine Finset.sum_congr rfl fun k _ => ?_
  have hk := contrEquiv1_symm_val dot_S256x1024_S1024x256_S256x256_1_0_0_1_n_n 1024 rfl rfl k
  have el : dot_S256x1024_S1024x256_S256x256_1_0_0_1_n_n.lhsIdx (ix2 r q) ((contrEquiv1 dot_S256x1024_S1024x256_S256x256_1_0_0_1_n_n 1024 rfl rfl).symm k) = ix2 r k := funext fun a => Fin.ext (by
    match a with
    | ⟨0, _⟩ => exact lhs_hid_0 _ _
    | ⟨1, _⟩ => exact (lhs_hid_1 _ _).trans hk)
  have er : dot_S256x1024_S1024x256_S256x256_1_0_0_1_n_n.rhsIdx (ix2 r q) ((contrEquiv1 dot_S256x1024_S1024x256_S256x256_1_0_0_1_n_n 1024 rfl rfl).symm k) = ix2 k q := funext fun a => Fin.ext (by
    match a with
    | ⟨0, _⟩ => exact (rhs_hid_0 _ _).trans hk
    | ⟨1, _⟩ => exact rhs_hid_1 _ _)
  rw [el, er]

/-- The second product likewise, over the 256 hidden coordinates. -/
theorem out_apply (a : FVec Ideal S256x256 .bf16) (b : FVec Ideal S256x9088 .bf16) (r : Fin 256) (j : Fin 9088) :
    matmul dot_S256x256_S256x9088_S256x9088_1_0_0_1_n_n none a b (constant (F := Ideal) S256x9088 .f32 0x00000000#32) (ix2 r j)
      = ∑ q : Fin 256, a (ix2 r q) * b (ix2 q j) := by
  simp only [matmul]
  rw [Ideal.matmul_constant_zero_apply, ← Equiv.sum_comp (contrEquiv1 dot_S256x256_S256x9088_S256x9088_1_0_0_1_n_n 256 rfl rfl).symm]
  refine Finset.sum_congr rfl fun k _ => ?_
  have hk := contrEquiv1_symm_val dot_S256x256_S256x9088_S256x9088_1_0_0_1_n_n 256 rfl rfl k
  have el : dot_S256x256_S256x9088_S256x9088_1_0_0_1_n_n.lhsIdx (ix2 r j) ((contrEquiv1 dot_S256x256_S256x9088_S256x9088_1_0_0_1_n_n 256 rfl rfl).symm k) = ix2 r k := funext fun a => Fin.ext (by
    match a with
    | ⟨0, _⟩ => exact lhs_out_0 _ _
    | ⟨1, _⟩ => exact (lhs_out_1 _ _).trans hk)
  have er : dot_S256x256_S256x9088_S256x9088_1_0_0_1_n_n.rhsIdx (ix2 r j) ((contrEquiv1 dot_S256x256_S256x9088_S256x9088_1_0_0_1_n_n 256 rfl rfl).symm k) = ix2 k j := funext fun a => Fin.ext (by
    match a with
    | ⟨0, _⟩ => exact (rhs_out_0 _ _).trans hk
    | ⟨1, _⟩ => exact rhs_out_1 _ _)
  rw [el, er]

/-! ## The layout steps at an index -/

/-- A vector of 256 entries viewed as a column reads, in row `r`, entry `r`. -/
theorem col_apply {α : Type} (v : S256.Idx → α) (r : Fin 256) (z : Fin 1) :
    shapeCast S256x1 v shapeCasts_S256_S256x1 (ix2 r z) = v (ix1 r) :=
  shapeCast_apply v shapeCasts_S256_S256x1 (ix2 r z) (ix1 r) (by
    rw [Shape.rowMajor_val_one, Shape.rowMajor_val_two]
    show r.val = r.val * 1 + z.val
    omega)

/-- A column repeated along the class axis reads, at `(r, j)`, the column's row `r`. -/
theorem bcol_apply {α : Type} (v : S256x1.Idx → α) (r : Fin 256) (j : Fin 9088) :
    broadcastTo S256x9088 v broadcasts_S256x1_S256x9088 (ix2 r j) = v (ix2 r 0) := by
  refine broadcastTo_apply v broadcasts_S256x1_S256x9088 (ix2 r j) (ix2 r 0) fun ax => ?_
  match ax with
  | ⟨0, _⟩ => rfl
  | ⟨1, _⟩ => rfl

/-- The index a reduction over the class axis inserts `j` at, from row `r`. -/
theorem lift_eq (r : Fin 256) (j : Fin 9088) : reduces_S256x9088_S256.lift (ix1 r) j = ix2 r j :=
  funext fun a => Fin.ext (by
    match a with
    | ⟨0, _⟩ => rfl
    | ⟨1, _⟩ => rfl)

/-- A sum over the class axis, from the zero word. -/
theorem sum_apply (N : FVec Ideal S256x9088 .f32) (r : Fin 256) :
    multiReduction .add [1] S256 N 0x00000000#32 reduces_S256x9088_S256 (.inl rfl) rfl (ix1 r) = ∑ j : Fin 9088, N (ix2 r j) := by
  refine (Ideal.multiReduction_add_single N _ _ _ _ (ix1 r)).trans ?_
  show (∑ j : Fin 9088, N (reduces_S256x9088_S256.lift (ix1 r) j)) = _
  exact Finset.sum_congr rfl fun j _ => congrArg N (lift_eq r j)

/-- The word of −∞. -/
theorem neg_inf : Ideal.ofBits .f32 0xFF800000#32 = (⊥ : EReal) := by simp [Ideal.ofBits, Ideal.ieee]

/-- A maximum over the class axis, from −∞. -/
theorem max_apply (N : FVec Ideal S256x9088 .f32) (r : Fin 256) :
    multiReduction .maximumf [1] S256 N 0xFF800000#32 reduces_S256x9088_S256 (.inl rfl) rfl (ix1 r)
      = Spec.rowMax (fun j : Fin 9088 => N (ix2 r j)) := by
  refine (Ideal.multiReduction_maximumf_single N _ _ _ _ (ix1 r)).trans ?_
  show (Finset.univ : Finset (Fin 9088)).fold max (Ideal.ofBits .f32 0xFF800000#32) (fun j : Fin 9088 => N (reduces_S256x9088_S256.lift (ix1 r) j)) = _
  have e : (fun j : Fin 9088 => N (reduces_S256x9088_S256.lift (ix1 r) j)) = fun j : Fin 9088 => N (ix2 r j) :=
    funext fun j => congrArg N (lift_eq r j)
  rw [neg_inf, e]
  rfl

/-- The logarithm and the exponential act entry by entry. -/
theorem log_at {s : Shape} {φ : FTy} (a : FVec Ideal s φ) (i : s.Idx) : log a i = Ideal.log (a i) := rfl
theorem exp_at {s : Shape} {φ : FTy} (a : FVec Ideal s φ) (i : s.Idx) : exp a i = Ideal.exp (a i) := rfl

/-! ## The body's stages -/

/-- The logits: the activations through the first projection (transposed), narrowed, through the second. -/
def logitV (x0 x1 : FVec Ideal S256x1024 .bf16) (x2 : FVec Ideal S9088x256 .bf16) : FVec Ideal S256x9088 .f32 :=
  matmul dot_S256x256_S256x9088_S256x9088_1_0_0_1_n_n none
    (truncf .bf16 (matmul dot_S256x1024_S1024x256_S256x256_1_0_0_1_n_n none (shapeCast S256x1024 x0 shapeCasts_S256x1024_S256x1024)
      (transpose S1024x256 [1, 0] (shapeCast S256x1024 x1 shapeCasts_S256x1024_S256x1024) transposes_S256x1024_p1_0_S1024x256)
      (constant (F := Ideal) S256x256 .f32 0x00000000#32)) bitsLt_bf16_f32)
    (transpose S256x9088 [1, 0] (shapeCast S9088x256 x2 shapeCasts_S9088x256_S9088x256) transposes_S9088x256_p1_0_S256x9088)
    (constant (F := Ideal) S256x9088 .f32 0x00000000#32)

theorem logitV_apply (x0 x1 : FVec Ideal S256x1024 .bf16) (x2 : FVec Ideal S9088x256 .bf16) (r : Fin 256) (j : Fin 9088) :
    logitV x0 x1 x2 (ix2 r j)
      = Spec.dot (fun q : Fin 256 => Spec.dot (fun k : Fin 1024 => x0 (ix2 r k)) (fun k => x1 (ix2 q k))) (fun q => x2 (ix2 j q)) := by
  unfold logitV Spec.dot
  rw [shapeCast_self, shapeCast_self, shapeCast_self]
  refine (out_apply _ _ r j).trans (Finset.sum_congr rfl fun q _ => ?_)
  rw [transpose_ix2_apply]
  refine congrArg (· * x2 (ix2 j q)) ?_
  show matmul dot_S256x1024_S1024x256_S256x256_1_0_0_1_n_n none x0 _ (constant (F := Ideal) S256x256 .f32 0x00000000#32) (ix2 r q) = _
  refine (hid_apply _ _ r q).trans (Finset.sum_congr rfl fun k _ => ?_)
  rw [transpose_ix2_apply]

/-- The padded logits: −∞ (the named constant) from column 9000 on. -/
def maskV (L : FVec Ideal S256x9088 .f32) : FVec Ideal S256x9088 .f32 :=
  select (cmpi .slt (iota .tc S256x9088 32 [1] iota_S256x9088_d1_w32) (broadcast S256x9088 9000#32)) L
    (broadcast S256x9088 (Named.named (F := Ideal) κ "neg_big" (φ := .f32) 0xF149F2CA#32))

theorem neg_big : Named.named (F := Ideal) κ "neg_big" (φ := .f32) 0xF149F2CA#32 = (⊥ : EReal) :=
  IdealRules.named_const.ideal_named_scalar _ _ _ _ rfl

theorem slt_col (j : Nat) (hj : j < 9088) : IntOp.cmpi .slt (BitVec.ofNat 32 j) 9000#32 = 1#1 ↔ j < 9000 := by
  have e : (BitVec.ofNat 32 j).toNat = j := by rw [BitVec.toNat_ofNat]; omega
  rw [StableHlo.Predicate.slt_iff_toNat (by rw [e]; omega) (by decide), e]
  exact Iff.rfl

theorem maskV_apply (L : FVec Ideal S256x9088 .f32) (r : Fin 256) (j : Fin 9088) :
    maskV L (ix2 r j) = if j.val < 9000 then L (ix2 r j) else ⊥ := by
  show Scalar.select (IntOp.cmpi .slt (iota .tc S256x9088 32 [1] iota_S256x9088_d1_w32 (ix2 r j)) 9000#32) (L (ix2 r j))
    (Named.named (F := Ideal) κ "neg_big" (φ := .f32) 0xF149F2CA#32) = _
  rw [iota_single_apply, neg_big]
  exact if_congr (slt_col j.val j.isLt) rfl rfl

/-- The row maxima, as a column. -/
def rowMaxV (M : FVec Ideal S256x9088 .f32) : FVec Ideal S256x1 .f32 :=
  shapeCast S256x1 (multiReduction .maximumf [1] S256 M 0xFF800000#32 reduces_S256x9088_S256 (.inl rfl) rfl) shapeCasts_S256_S256x1

theorem rowMaxV_apply (M : FVec Ideal S256x9088 .f32) (r : Fin 256) (z : Fin 1) :
    rowMaxV M (ix2 r z) = Spec.rowMax (fun j : Fin 9088 => M (ix2 r j)) :=
  (col_apply _ r z).trans (max_apply M r)

/-- The maximum plus the logarithm of the shifted exponentials' sum, as a column. -/
def lseV (M : FVec Ideal S256x9088 .f32) : FVec Ideal S256x1 .f32 :=
  addf (rowMaxV M) (log (shapeCast S256x1 (multiReduction .add [1] S256
    (exp (subf M (broadcastTo S256x9088 (rowMaxV M) broadcasts_S256x1_S256x9088))) 0x00000000#32 reduces_S256x9088_S256 (.inl rfl) rfl)
    shapeCasts_S256_S256x1))

theorem lseV_apply (M : FVec Ideal S256x9088 .f32) (r : Fin 256) (z : Fin 1) (g : Fin 9088 → EReal)
    (hg : ∀ j, M (ix2 r j) = g j) : lseV M (ix2 r z) = Spec.lse g := by
  have hM : (fun j : Fin 9088 => M (ix2 r j)) = g := funext hg
  unfold lseV Spec.lse
  rw [addf_apply, log_at, rowMaxV_apply, col_apply, sum_apply, hM]
  refine congrArg (fun s => Spec.rowMax g + Ideal.log s) (Finset.sum_congr rfl fun j _ => ?_)
  rw [exp_at, subf_apply, bcol_apply, rowMaxV_apply, hM, hg]

/-- The entry at the target's column within the cluster, picked by a masked sum, as a column. -/
def pickV (M : FVec Ideal S256x9088 .f32) (T : IVec S256x1 32) : FVec Ideal S256x1 .f32 :=
  shapeCast S256x1 (multiReduction .add [1] S256
    (select (cmpi .eq (iota .tc S256x9088 32 [1] iota_S256x9088_d1_w32)
        (broadcastTo S256x9088 (subi (shapeCast S256x1 T shapeCasts_S256x1_S256x1) (broadcast S256x1 1000#32)) broadcasts_S256x1_S256x9088))
      M (broadcast S256x9088 (Scalar.ofBits (F := Ideal) .f32 0x00000000#32)))
    0x00000000#32 reduces_S256x9088_S256 (.inl rfl) rfl) shapeCasts_S256_S256x1

theorem pickV_apply (M : FVec Ideal S256x9088 .f32) (T : IVec S256x1 32) (r : Fin 256) (z : Fin 1) (g : Fin 9088 → EReal)
    (hg : ∀ j, M (ix2 r j) = g j) :
    pickV M T (ix2 r z) = ∑ j : Fin 9088, if BitVec.ofNat 32 j.val = T (ix2 r 0) - 1000#32 then g j else 0 := by
  unfold pickV
  rw [col_apply, sum_apply]
  refine Finset.sum_congr rfl fun j _ => ?_
  show Scalar.select (IntOp.cmpi .eq (iota .tc S256x9088 32 [1] iota_S256x9088_d1_w32 (ix2 r j))
      (broadcastTo S256x9088 (subi (shapeCast S256x1 T shapeCasts_S256x1_S256x1) (broadcast S256x1 1000#32)) broadcasts_S256x1_S256x9088 (ix2 r j)))
    (M (ix2 r j)) (Ideal.ofBits .f32 0x00000000#32) = _
  rw [iota_single_apply, bcol_apply, shapeCast_self, Ideal.ofBits_zero_f32, hg]
  exact if_congr StableHlo.Predicate.cmpi_eq_iff rfl rfl

/-- The body's arithmetic is those stages composed. -/
theorem pay_eq (x0 x1 : FVec Ideal S256x1024 .bf16) (x2 : FVec Ideal S9088x256 .bf16) (x3 : IVec S256x1 32) (x4 : FVec Ideal S256x1 .f32) :
    k1_pay1 (F := Ideal) x0 x1 x2 x3 x4
      = addf (subf (pickV (maskV (logitV x0 x1 x2)) x3) (lseV (maskV (logitV x0 x1 x2)))) (shapeCast S256x1 x4 shapeCasts_S256x1_S256x1) := rfl

/-- Row `r` of what the body stores: the tail's value of that row of the activations block, the two whole weight
    blocks, the row's target and the row's head column, whatever arrays those entries are read from. -/
theorem pay_apply (x0 x1 : FVec Ideal S256x1024 .bf16) (x2 : FVec Ideal S9088x256 .bf16) (x3 : IVec S256x1 32) (x4 : FVec Ideal S256x1 .f32)
    (r : Fin 256) (X : Fin 1024 → EReal) (WA : Fin 256 → Fin 1024 → EReal) (WB : Fin 9088 → Fin 256 → EReal) (tt : BitVec 32) (bb : EReal)
    (h0 : ∀ k, x0 (ix2 r k) = X k) (h1 : ∀ q k, x1 (ix2 q k) = WA q k) (h2 : ∀ j q, x2 (ix2 j q) = WB j q)
    (h3 : x3 (ix2 r 0) = tt) (h4 : x4 (ix2 r 0) = bb) :
    k1_pay1 (F := Ideal) x0 x1 x2 x3 x4 (ix2 r 0) = Spec.kTail 9000 1000#32 X WA WB tt bb := by
  have hM : ∀ j : Fin 9088, maskV (logitV x0 x1 x2) (ix2 r j)
      = Spec.masked 9000 (fun j : Fin 9088 => Spec.dot (fun q : Fin 256 => Spec.dot X (WA q)) (WB j)) j := fun j => by
    rw [maskV_apply, logitV_apply]
    simp only [h0, h1, h2]
    rfl
  rw [pay_eq, addf_apply, subf_apply, pickV_apply _ _ r 0 _ hM, lseV_apply _ r 0 _ hM, shapeCast_self, h3, h4]
  rfl

/-! ## From the blocks to the array -/

theorem hz : (![0, 0] : Fin 2 → Nat) = fun _ => 0 := funext fun a => by fin_cases a <;> rfl

/-- The printed index maps over the grid: the activations', targets', head column's and output's blocks are block
    `t` of 256 rows at point `t`; the two weight windows are whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The one function the output column ends holding. -/
def G (c : Dev nD) : S4096x1.Idx → EReal := fun i =>
  Spec.kTail 9000 1000#32 (fun k => xs V c (ix2 (i 0) k)) (fun r k => wa V c (ix2 r k))
    (fun j r => wb V c (ix2 j r)) (tg V c (ix2 (i 0) 0)) (bias V c (ix2 (i 0) 0))

/-- Row `r` of the activations block at point `t` is row `256·t + r` of the array. -/
theorem read0 (c : Dev nD) (t : Fin cfg1.N) (r : Fin 256) (k : Fin 1024) (h : t.val * 256 + r.val < 4096) :
    iblk1 (F := Ideal) V c 0 t (ix2 r k) = xs V c (ix2 ⟨t.val * 256 + r.val, h⟩ k) := by
  unfold iblk1
  rw [View.read_apply]
  show V c main_v0 (((cfg1.win 0).blk t).view.emb (ix2 r k)) = V c main_v0 _
  refine congrArg (V c main_v0) (funext fun a => Fin.ext ?_)
  obtain ⟨e0, e1, -⟩ := idx_facts t
  match a with
  | ⟨0, _⟩ => show win1_0.index t (0 : Fin 2) * 256 + 1 * r.val = t.val * 256 + r.val; rw [e0]; omega
  | ⟨1, _⟩ => show win1_0.index t (1 : Fin 2) * 1024 + 1 * k.val = k.val; rw [e1]; omega

/-- The first projection's block is the whole array. -/
theorem read1 (c : Dev nD) (t : Fin cfg1.N) (q : Fin 256) (k : Fin 1024) :
    iblk1 (F := Ideal) V c 1 t (ix2 q k) = wa V c (ix2 q k) := by
  unfold iblk1
  rw [View.read_apply]
  show V c main_v3 (((cfg1.win 1).blk t).view.emb (ix2 q k)) = V c main_v3 _
  refine congrArg (V c main_v3) (funext fun a => Fin.ext ?_)
  obtain ⟨-, -, e0, e1, -⟩ := idx_facts t
  match a with
  | ⟨0, _⟩ => show win1_1.index t (0 : Fin 2) * 256 + 1 * q.val = q.val; rw [e0]; omega
  | ⟨1, _⟩ => show win1_1.index t (1 : Fin 2) * 1024 + 1 * k.val = k.val; rw [e1]; omega

/-- The second projection's block is the whole array. -/
theorem read2 (c : Dev nD) (t : Fin cfg1.N) (j : Fin 9088) (q : Fin 256) :
    iblk1 (F := Ideal) V c 2 t (ix2 j q) = wb V c (ix2 j q) := by
  unfold iblk1
  rw [View.read_apply]
  show V c main_v5 (((cfg1.win 2).blk t).view.emb (ix2 j q)) = V c main_v5 _
  refine congrArg (V c main_v5) (funext fun a => Fin.ext ?_)
  obtain ⟨-, -, -, -, e0, e1, -⟩ := idx_facts t
  match a with
  | ⟨0, _⟩ => show win1_2.index t (0 : Fin 2) * 9088 + 1 * j.val = j.val; rw [e0]; omega
  | ⟨1, _⟩ => show win1_2.index t (1 : Fin 2) * 256 + 1 * q.val = q.val; rw [e1]; omega

/-- Row `r` of the targets' block at point `t` is row `256·t + r` of the array. -/
theorem read3 (c : Dev nD) (t : Fin cfg1.N) (r : Fin 256) (h : t.val * 256 + r.val < 4096) :
    iblk1 (F := Ideal) V c 3 t (ix2 r 0) = tg V c (ix2 ⟨t.val * 256 + r.val, h⟩ 0) := by
  unfold iblk1
  rw [View.read_apply]
  show V c main_v9 (((cfg1.win 3).blk t).view.emb (ix2 r 0)) = V c main_v9 _
  refine congrArg (V c main_v9) (funext fun a => Fin.ext ?_)
  obtain ⟨-, -, -, -, -, -, e0, e1, -⟩ := idx_facts t
  match a with
  | ⟨0, _⟩ => show win1_3.index t (0 : Fin 2) * 256 + 1 * r.val = t.val * 256 + r.val; rw [e0]; omega
  | ⟨1, _⟩ => show win1_3.index t (1 : Fin 2) * 1 + 1 * 0 = 0; rw [e1]

/-- Row `r` of the head column's block at point `t` is row `256·t + r` of the array. -/
theorem read4 (c : Dev nD) (t : Fin cfg1.N) (r : Fin 256) (h : t.val * 256 + r.val < 4096) :
    iblk1 (F := Ideal) V c 4 t (ix2 r 0) = bias V c (ix2 ⟨t.val * 256 + r.val, h⟩ 0) := by
  unfold iblk1
  rw [View.read_apply]
  show V c main_v10_1 (((cfg1.win 4).blk t).view.emb (ix2 r 0)) = V c main_v10_1 _
  refine congrArg (V c main_v10_1) (funext fun a => Fin.ext ?_)
  obtain ⟨-, -, -, -, -, -, -, -, e0, e1, -⟩ := idx_facts t
  match a with
  | ⟨0, _⟩ => show win1_4.index t (0 : Fin 2) * 256 + 1 * r.val = t.val * 256 + r.val; rw [e0]; omega
  | ⟨1, _⟩ => show win1_4.index t (1 : Fin 2) * 1 + 1 * 0 = 0; rw [e1]

/-- Row `r` of the output's block at point `t` sits at row `256·t + r` of the array. -/
theorem emb5 (t : Fin cfg1.N) (r : Fin 256) (h : t.val * 256 + r.val < 4096) :
    ((cfg1.win 5).blk t).view.emb (ix2 r 0) = (ix2 ⟨t.val * 256 + r.val, h⟩ 0 : S4096x1.Idx) := by
  refine funext fun a => Fin.ext ?_
  obtain ⟨-, -, -, -, -, -, -, -, -, -, e0, e1⟩ := idx_facts t
  match a with
  | ⟨0, _⟩ => show win1_5.index t (0 : Fin 2) * 256 + 1 * r.val = t.val * 256 + r.val; rw [e0]; omega
  | ⟨1, _⟩ => show win1_5.index t (1 : Fin 2) * 1 + 1 * 0 = 0; rw [e1]

/-- What point `t` writes back is block `t` of that one function. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 (F := Ideal) V c).after 5 t) = _
  rw [after1_5]
  unfold out1_5
  rw [View.canon_unit_zero hz]
  simp only [View.ld_unit_zero (S := S256x1024) hz, View.ld_unit_zero (S := S9088x256) hz, View.ld_unit_zero (S := S256x1) hz]
  funext y
  obtain ⟨r, z, rfl⟩ : ∃ (r : Fin 256) (z : Fin 1), y = ix2 r z := ⟨y 0, y 1, eq_ix2 y⟩
  obtain rfl : z = 0 := Subsingleton.elim z 0
  rw [View.read_apply]
  have hN : cfg1.N = 16 := N_1
  have ht := t.isLt
  have hr := r.isLt
  have hn : t.val * 256 + r.val < 4096 := by omega
  refine (pay_apply (iblk1 (F := Ideal) V c 0 t) (iblk1 (F := Ideal) V c 1 t) (iblk1 (F := Ideal) V c 2 t)
    (iblk1 (F := Ideal) V c 3 t) (iblk1 (F := Ideal) V c 4 t) r
    (fun k => xs V c (ix2 ⟨t.val * 256 + r.val, hn⟩ k)) (fun q k => wa V c (ix2 q k)) (fun j q => wb V c (ix2 j q))
    (tg V c (ix2 ⟨t.val * 256 + r.val, hn⟩ 0)) (bias V c (ix2 ⟨t.val * 256 + r.val, hn⟩ 0))
    (fun k => read0 V c t r k hn) (fun q k => read1 V c t q k) (fun j q => read2 V c t j q)
    (read3 V c t r hn) (read4 V c t r hn)).trans ?_
  rw [emb5 t r hn]
  rfl

/-- An index of the output column is in point `t`'s block iff its row is among the block's 256. -/
theorem mem_blk (t : Fin cfg1.N) (i : S4096x1.Idx) :
    i ∈ ((cfg1.win 5).blk t).view.set ↔ ∀ a : Fin 2, win1_5.index t a * S256x1.size a ≤ (i a).val ∧ (i a).val < win1_5.index t a * S256x1.size a + S256x1.size a := by
  show i ∈ ((View.whole main_v11).slice (win1_5.rect t)).set ↔ _
  rw [View.set_slice_whole, Rect.mem_set_unit]
  exact Iff.rfl

/-- Every row is in the block of the point `row / 256`. -/
theorem cover (i : S4096x1.Idx) : ∃ t : Fin cfg1.N, (cfg1.win 5).flush t = true ∧ i ∈ ((cfg1.win 5).blk t).view.set := by
  have hi0 : (i 0).val < 4096 := (i 0).isLt
  have hi1 : (i 1).val < 1 := (i 1).isLt
  have hN : cfg1.N = 16 := N_1
  refine ⟨⟨(i 0).val / 256, by omega⟩, flush1_5 _, ?_⟩
  rw [mem_blk]
  obtain ⟨-, -, -, -, -, -, -, -, -, -, e0, e1⟩ := idx_facts ⟨(i 0).val / 256, by omega⟩
  intro a
  match a with
  | ⟨0, _⟩ =>
    show win1_5.index ⟨(i 0).val / 256, _⟩ (0 : Fin 2) * 256 ≤ (i 0).val ∧ (i 0).val < win1_5.index ⟨(i 0).val / 256, _⟩ (0 : Fin 2) * 256 + 256
    rw [e0]; show (i 0).val / 256 * 256 ≤ (i 0).val ∧ (i 0).val < (i 0).val / 256 * 256 + 256; omega
  | ⟨1, _⟩ =>
    show win1_5.index ⟨(i 0).val / 256, _⟩ (1 : Fin 2) * 1 ≤ (i 1).val ∧ (i 1).val < win1_5.index ⟨(i 0).val / 256, _⟩ (1 : Fin 2) * 1 + 1
    rw [e1]; omega

/-- The cluster's column. -/
theorem arr5 (c : Dev nD) : (dat1 (F := Ideal) V c).arrAt 5 cfg1.N
    = fun i => Spec.kTail 9000 1000#32 (fun k => xs V c (ix2 (i 0) k)) (fun r k => wa V c (ix2 r k))
        (fun j r => wb V c (ix2 j r)) (tg V c (ix2 (i 0) 0)) (bias V c (ix2 (i 0) 0)) :=
  (dat1 (F := Ideal) V c).arrAt_eq_of_cover 5 (G V c) (fun t _ => flushed_eq V c t) cover

end Cert.KernelIdeal.Region1

end
-- ==== Proof.Region2.lean ====
/-
  A tail kernel's output column after its 64 grid points as one function of the arrays the region finds: row
  `n` depends on row `n` of the activations, on the two whole projection matrices, on row `n`'s target and on row
  `n` of the cluster's head column. Grid point `t` computes rows `64·t … 64·t + 63`.
-/
import proofs.«414738_j37469294691089_1_alg».proof.Proof.Gen.KernelIdeal.Frame
import proofs.«414738_j37469294691089_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The activations, the two projections (the second padded), the targets and the cluster's head column as the
    region finds them. -/
abbrev xs (c : Dev nD) : S4096x1024.Idx → EReal := V c main_v0
abbrev wa (c : Dev nD) : S64x1024.Idx → EReal := V c main_v6
abbrev wb (c : Dev nD) : S40320x64.Idx → EReal := V c main_v8
abbrev tg (c : Dev nD) : S4096x1.Idx → BitVec 32 := V c main_v9
abbrev bias (c : Dev nD) : S4096x1.Idx → EReal := V c main_v10_2

/-! ## The two products at an index -/

theorem lhs_hid_0 (i : S64x64.Idx) (q : dot_S64x1024_S1024x64_S64x64_1_0_0_1_n_n.contr.Idx) :
    (dot_S64x1024_S1024x64_S64x64_1_0_0_1_n_n.lhsIdx i q 0).val = (i 0).val := by
  unfold DotDims.lhsIdx
  rw [dif_neg (show ¬(0 : Fin S64x1024.rank) ∈ dot_S64x1024_S1024x64_S64x64_1_0_0_1_n_n.lhsBatch by decide), dif_pos (show (0 : Fin S64x1024.rank) ∈ dot_S64x1024_S1024x64_S64x64_1_0_0_1_n_n.lhsNonContracting by decide)]
  rfl
theorem lhs_hid_1 (i : S64x64.Idx) (q : dot_S64x1024_S1024x64_S64x64_1_0_0_1_n_n.contr.Idx) :
    (dot_S64x1024_S1024x64_S64x64_1_0_0_1_n_n.lhsIdx i q 1).val = (q ⟨0, by decide⟩).val :=
  dot_S64x1024_S1024x64_S64x64_1_0_0_1_n_n.lhsIdx_val_of_single rfl i q
theorem rhs_hid_0 (i : S64x64.Idx) (q : dot_S64x1024_S1024x64_S64x64_1_0_0_1_n_n.contr.Idx) :
    (dot_S64x1024_S1024x64_S64x64_1_0_0_1_n_n.rhsIdx i q 0).val = (q ⟨0, by decide⟩).val :=
  dot_S64x1024_S1024x64_S64x64_1_0_0_1_n_n.rhsIdx_val_of_single rfl i q
theorem rhs_hid_1 (i : S64x64.Idx) (q : dot_S64x1024_S1024x64_S64x64_1_0_0_1_n_n.contr.Idx) :
    (dot_S64x1024_S1024x64_S64x64_1_0_0_1_n_n.rhsIdx i q 1).val = (i 1).val := by
  unfold DotDims.rhsIdx
  rw [dif_neg (show ¬(1 : Fin S1024x64.rank) ∈ dot_S64x1024_S1024x64_S64x64_1_0_0_1_n_n.rhsBatch by decide), dif_pos (show (1 : Fin S1024x64.rank) ∈ dot_S64x1024_S1024x64_S64x64_1_0_0_1_n_n.rhsNonContracting by decide)]
  rfl

theorem lhs_out_0 (i : S64x40320.Idx) (q : dot_S64x64_S64x40320_S64x40320_1_0_0_1_n_n.contr.Idx) :
    (dot_S64x64_S64x40320_S64x40320_1_0_0_1_n_n.lhsIdx i q 0).val = (i 0).val := by
  unfold DotDims.lhsIdx
  rw [dif_neg (show ¬(0 : Fin S64x64.rank) ∈ dot_S64x64_S64x40320_S64x40320_1_0_0_1_n_n.lhsBatch by decide), dif_pos (show (0 : Fin S64x64.rank) ∈ dot_S64x64_S64x40320_S64x40320_1_0_0_1_n_n.lhsNonContracting by decide)]
  rfl
theorem lhs_out_1 (i : S64x40320.Idx) (q : dot_S64x64_S64x40320_S64x40320_1_0_0_1_n_n.contr.Idx) :
    (dot_S64x64_S64x40320_S64x40320_1_0_0_1_n_n.lhsIdx i q 1).val = (q ⟨0, by decide⟩).val :=
  dot_S64x64_S64x40320_S64x40320_1_0_0_1_n_n.lhsIdx_val_of_single rfl i q
theorem rhs_out_0 (i : S64x40320.Idx) (q : dot_S64x64_S64x40320_S64x40320_1_0_0_1_n_n.contr.Idx) :
    (dot_S64x64_S64x40320_S64x40320_1_0_0_1_n_n.rhsIdx i q 0).val = (q ⟨0, by decide⟩).val :=
  dot_S64x64_S64x40320_S64x40320_1_0_0_1_n_n.rhsIdx_val_of_single rfl i q
theorem rhs_out_1 (i : S64x40320.Idx) (q : dot_S64x64_S64x40320_S64x40320_1_0_0_1_n_n.contr.Idx) :
    (dot_S64x64_S64x40320_S64x40320_1_0_0_1_n_n.rhsIdx i q 1).val = (i 1).val := by
  unfold DotDims.rhsIdx
  rw [dif_neg (show ¬(1 : Fin S64x40320.rank) ∈ dot_S64x64_S64x40320_S64x40320_1_0_0_1_n_n.rhsBatch by decide), dif_pos (show (1 : Fin S64x40320.rank) ∈ dot_S64x64_S64x40320_S64x40320_1_0_0_1_n_n.rhsNonContracting by decide)]
  rfl

/-- The first product into a zero accumulator: entry `(r, q)` is the inner product of row `r` of the left
    operand with column `q` of the right. -/
theorem hid_apply (a : FVec Ideal S64x1024 .bf16) (b : FVec Ideal S1024x64 .bf16) (r q : Fin 64) :
    matmul dot_S64x1024_S1024x64_S64x64_1_0_0_1_n_n none a b (constant (F := Ideal) S64x64 .f32 0x00000000#32) (ix2 r q)
      = ∑ k : Fin 1024, a (ix2 r k) * b (ix2 k q) := by
  simp only [matmul]
  rw [Ideal.matmul_constant_zero_apply, ← Equiv.sum_comp (contrEquiv1 dot_S64x1024_S1024x64_S64x64_1_0_0_1_n_n 1024 rfl rfl).symm]
  refine Finset.sum_congr rfl fun k _ => ?_
  have hk := contrEquiv1_symm_val dot_S64x1024_S1024x64_S64x64_1_0_0_1_n_n 1024 rfl rfl k
  have el : dot_S64x1024_S1024x64_S64x64_1_0_0_1_n_n.lhsIdx (ix2 r q) ((contrEquiv1 dot_S64x1024_S1024x64_S64x64_1_0_0_1_n_n 1024 rfl rfl).symm k) = ix2 r k := funext fun a => Fin.ext (by
    match a with
    | ⟨0, _⟩ => exact lhs_hid_0 _ _
    | ⟨1, _⟩ => exact (lhs_hid_1 _ _).trans hk)
  have er : dot_S64x1024_S1024x64_S64x64_1_0_0_1_n_n.rhsIdx (ix2 r q) ((contrEquiv1 dot_S64x1024_S1024x64_S64x64_1_0_0_1_n_n 1024 rfl rfl).symm k) = ix2 k q := funext fun a => Fin.ext (by
    match a with
    | ⟨0, _⟩ => exact (rhs_hid_0 _ _).trans hk
    | ⟨1, _⟩ => exact rhs_hid_1 _ _)
  rw [el, er]

/-- The second product likewise, over the 64 hidden coordinates. -/
theorem out_apply (a : FVec Ideal S64x64 .bf16) (b : FVec Ideal S64x40320 .bf16) (r : Fin 64) (j : Fin 40320) :
    matmul dot_S64x64_S64x40320_S64x40320_1_0_0_1_n_n none a b (constant (F := Ideal) S64x40320 .f32 0x00000000#32) (ix2 r j)
      = ∑ q : Fin 64, a (ix2 r q) * b (ix2 q j) := by
  simp only [matmul]
  rw [Ideal.matmul_constant_zero_apply, ← Equiv.sum_comp (contrEquiv1 dot_S64x64_S64x40320_S64x40320_1_0_0_1_n_n 64 rfl rfl).symm]
  refine Finset.sum_congr rfl fun k _ => ?_
  have hk := contrEquiv1_symm_val dot_S64x64_S64x40320_S64x40320_1_0_0_1_n_n 64 rfl rfl k
  have el : dot_S64x64_S64x40320_S64x40320_1_0_0_1_n_n.lhsIdx (ix2 r j) ((contrEquiv1 dot_S64x64_S64x40320_S64x40320_1_0_0_1_n_n 64 rfl rfl).symm k) = ix2 r k := funext fun a => Fin.ext (by
    match a with
    | ⟨0, _⟩ => exact lhs_out_0 _ _
    | ⟨1, _⟩ => exact (lhs_out_1 _ _).trans hk)
  have er : dot_S64x64_S64x40320_S64x40320_1_0_0_1_n_n.rhsIdx (ix2 r j) ((contrEquiv1 dot_S64x64_S64x40320_S64x40320_1_0_0_1_n_n 64 rfl rfl).symm k) = ix2 k j := funext fun a => Fin.ext (by
    match a with
    | ⟨0, _⟩ => exact (rhs_out_0 _ _).trans hk
    | ⟨1, _⟩ => exact rhs_out_1 _ _)
  rw [el, er]

/-! ## The layout steps at an index -/

/-- A vector of 64 entries viewed as a column reads, in row `r`, entry `r`. -/
theorem col_apply {α : Type} (v : S64.Idx → α) (r : Fin 64) (z : Fin 1) :
    shapeCast S64x1 v shapeCasts_S64_S64x1 (ix2 r z) = v (ix1 r) :=
  shapeCast_apply v shapeCasts_S64_S64x1 (ix2 r z) (ix1 r) (by
    rw [Shape.rowMajor_val_one, Shape.rowMajor_val_two]
    show r.val = r.val * 1 + z.val
    omega)

/-- A column repeated along the class axis reads, at `(r, j)`, the column's row `r`. -/
theorem bcol_apply {α : Type} (v : S64x1.Idx → α) (r : Fin 64) (j : Fin 40320) :
    broadcastTo S64x40320 v broadcasts_S64x1_S64x40320 (ix2 r j) = v (ix2 r 0) := by
  refine broadcastTo_apply v broadcasts_S64x1_S64x40320 (ix2 r j) (ix2 r 0) fun ax => ?_
  match ax with
  | ⟨0, _⟩ => rfl
  | ⟨1, _⟩ => rfl

/-- The index a reduction over the class axis inserts `j` at, from row `r`. -/
theorem lift_eq (r : Fin 64) (j : Fin 40320) : reduces_S64x40320_S64.lift (ix1 r) j = ix2 r j :=
  funext fun a => Fin.ext (by
    match a with
    | ⟨0, _⟩ => rfl
    | ⟨1, _⟩ => rfl)

/-- A sum over the class axis, from the zero word. -/
theorem sum_apply (N : FVec Ideal S64x40320 .f32) (r : Fin 64) :
    multiReduction .add [1] S64 N 0x00000000#32 reduces_S64x40320_S64 (.inl rfl) rfl (ix1 r) = ∑ j : Fin 40320, N (ix2 r j) := by
  refine (Ideal.multiReduction_add_single N _ _ _ _ (ix1 r)).trans ?_
  show (∑ j : Fin 40320, N (reduces_S64x40320_S64.lift (ix1 r) j)) = _
  exact Finset.sum_congr rfl fun j _ => congrArg N (lift_eq r j)

/-- The word of −∞. -/
theorem neg_inf : Ideal.ofBits .f32 0xFF800000#32 = (⊥ : EReal) := by simp [Ideal.ofBits, Ideal.ieee]

/-- A maximum over the class axis, from −∞. -/
theorem max_apply (N : FVec Ideal S64x40320 .f32) (r : Fin 64) :
    multiReduction .maximumf [1] S64 N 0xFF800000#32 reduces_S64x40320_S64 (.inl rfl) rfl (ix1 r)
      = Spec.rowMax (fun j : Fin 40320 => N (ix2 r j)) := by
  refine (Ideal.multiReduction_maximumf_single N _ _ _ _ (ix1 r)).trans ?_
  show (Finset.univ : Finset (Fin 40320)).fold max (Ideal.ofBits .f32 0xFF800000#32) (fun j : Fin 40320 => N (reduces_S64x40320_S64.lift (ix1 r) j)) = _
  have e : (fun j : Fin 40320 => N (reduces_S64x40320_S64.lift (ix1 r) j)) = fun j : Fin 40320 => N (ix2 r j) :=
    funext fun j => congrArg N (lift_eq r j)
  rw [neg_inf, e]
  rfl

/-- The logarithm and the exponential act entry by entry. -/
theorem log_at {s : Shape} {φ : FTy} (a : FVec Ideal s φ) (i : s.Idx) : log a i = Ideal.log (a i) := rfl
theorem exp_at {s : Shape} {φ : FTy} (a : FVec Ideal s φ) (i : s.Idx) : exp a i = Ideal.exp (a i) := rfl

/-! ## The body's stages -/

/-- The logits: the activations through the first projection (transposed), narrowed, through the second. -/
def logitV (x0 x1 : FVec Ideal S64x1024 .bf16) (x2 : FVec Ideal S40320x64 .bf16) : FVec Ideal S64x40320 .f32 :=
  matmul dot_S64x64_S64x40320_S64x40320_1_0_0_1_n_n none
    (truncf .bf16 (matmul dot_S64x1024_S1024x64_S64x64_1_0_0_1_n_n none (shapeCast S64x1024 x0 shapeCasts_S64x1024_S64x1024)
      (transpose S1024x64 [1, 0] (shapeCast S64x1024 x1 shapeCasts_S64x1024_S64x1024) transposes_S64x1024_p1_0_S1024x64)
      (constant (F := Ideal) S64x64 .f32 0x00000000#32)) bitsLt_bf16_f32)
    (transpose S64x40320 [1, 0] (shapeCast S40320x64 x2 shapeCasts_S40320x64_S40320x64) transposes_S40320x64_p1_0_S64x40320)
    (constant (F := Ideal) S64x40320 .f32 0x00000000#32)

theorem logitV_apply (x0 x1 : FVec Ideal S64x1024 .bf16) (x2 : FVec Ideal S40320x64 .bf16) (r : Fin 64) (j : Fin 40320) :
    logitV x0 x1 x2 (ix2 r j)
      = Spec.dot (fun q : Fin 64 => Spec.dot (fun k : Fin 1024 => x0 (ix2 r k)) (fun k => x1 (ix2 q k))) (fun q => x2 (ix2 j q)) := by
  unfold logitV Spec.dot
  rw [shapeCast_self, shapeCast_self, shapeCast_self]
  refine (out_apply _ _ r j).trans (Finset.sum_congr rfl fun q _ => ?_)
  rw [transpose_ix2_apply]
  refine congrArg (· * x2 (ix2 j q)) ?_
  show matmul dot_S64x1024_S1024x64_S64x64_1_0_0_1_n_n none x0 _ (constant (F := Ideal) S64x64 .f32 0x00000000#32) (ix2 r q) = _
  refine (hid_apply _ _ r q).trans (Finset.sum_congr rfl fun k _ => ?_)
  rw [transpose_ix2_apply]

/-- The padded logits: −∞ (the named constant) from column 40257 on. -/
def maskV (L : FVec Ideal S64x40320 .f32) : FVec Ideal S64x40320 .f32 :=
  select (cmpi .slt (iota .tc S64x40320 32 [1] iota_S64x40320_d1_w32) (broadcast S64x40320 40257#32)) L
    (broadcast S64x40320 (Named.named (F := Ideal) κ "neg_big" (φ := .f32) 0xF149F2CA#32))

theorem neg_big : Named.named (F := Ideal) κ "neg_big" (φ := .f32) 0xF149F2CA#32 = (⊥ : EReal) :=
  IdealRules.named_const.ideal_named_scalar _ _ _ _ rfl

theorem slt_col (j : Nat) (hj : j < 40320) : IntOp.cmpi .slt (BitVec.ofNat 32 j) 40257#32 = 1#1 ↔ j < 40257 := by
  have e : (BitVec.ofNat 32 j).toNat = j := by rw [BitVec.toNat_ofNat]; omega
  rw [StableHlo.Predicate.slt_iff_toNat (by rw [e]; omega) (by decide), e]
  exact Iff.rfl

theorem maskV_apply (L : FVec Ideal S64x40320 .f32) (r : Fin 64) (j : Fin 40320) :
    maskV L (ix2 r j) = if j.val < 40257 then L (ix2 r j) else ⊥ := by
  show Scalar.select (IntOp.cmpi .slt (iota .tc S64x40320 32 [1] iota_S64x40320_d1_w32 (ix2 r j)) 40257#32) (L (ix2 r j))
    (Named.named (F := Ideal) κ "neg_big" (φ := .f32) 0xF149F2CA#32) = _
  rw [iota_single_apply, neg_big]
  exact if_congr (slt_col j.val j.isLt) rfl rfl

/-- The row maxima, as a column. -/
def rowMaxV (M : FVec Ideal S64x40320 .f32) : FVec Ideal S64x1 .f32 :=
  shapeCast S64x1 (multiReduction .maximumf [1] S64 M 0xFF800000#32 reduces_S64x40320_S64 (.inl rfl) rfl) shapeCasts_S64_S64x1

theorem rowMaxV_apply (M : FVec Ideal S64x40320 .f32) (r : Fin 64) (z : Fin 1) :
    rowMaxV M (ix2 r z) = Spec.rowMax (fun j : Fin 40320 => M (ix2 r j)) :=
  (col_apply _ r z).trans (max_apply M r)

/-- The maximum plus the logarithm of the shifted exponentials' sum, as a column. -/
def lseV (M : FVec Ideal S64x40320 .f32) : FVec Ideal S64x1 .f32 :=
  addf (rowMaxV M) (log (shapeCast S64x1 (multiReduction .add [1] S64
    (exp (subf M (broadcastTo S64x40320 (rowMaxV M) broadcasts_S64x1_S64x40320))) 0x00000000#32 reduces_S64x40320_S64 (.inl rfl) rfl)
    shapeCasts_S64_S64x1))

theorem lseV_apply (M : FVec Ideal S64x40320 .f32) (r : Fin 64) (z : Fin 1) (g : Fin 40320 → EReal)
    (hg : ∀ j, M (ix2 r j) = g j) : lseV M (ix2 r z) = Spec.lse g := by
  have hM : (fun j : Fin 40320 => M (ix2 r j)) = g := funext hg
  unfold lseV Spec.lse
  rw [addf_apply, log_at, rowMaxV_apply, col_apply, sum_apply, hM]
  refine congrArg (fun s => Spec.rowMax g + Ideal.log s) (Finset.sum_congr rfl fun j _ => ?_)
  rw [exp_at, subf_apply, bcol_apply, rowMaxV_apply, hM, hg]

/-- The entry at the target's column within the cluster, picked by a masked sum, as a column. -/
def pickV (M : FVec Ideal S64x40320 .f32) (T : IVec S64x1 32) : FVec Ideal S64x1 .f32 :=
  shapeCast S64x1 (multiReduction .add [1] S64
    (select (cmpi .eq (iota .tc S64x40320 32 [1] iota_S64x40320_d1_w32)
        (broadcastTo S64x40320 (subi (shapeCast S64x1 T shapeCasts_S64x1_S64x1) (broadcast S64x1 10000#32)) broadcasts_S64x1_S64x40320))
      M (broadcast S64x40320 (Scalar.ofBits (F := Ideal) .f32 0x00000000#32)))
    0x00000000#32 reduces_S64x40320_S64 (.inl rfl) rfl) shapeCasts_S64_S64x1

theorem pickV_apply (M : FVec Ideal S64x40320 .f32) (T : IVec S64x1 32) (r : Fin 64) (z : Fin 1) (g : Fin 40320 → EReal)
    (hg : ∀ j, M (ix2 r j) = g j) :
    pickV M T (ix2 r z) = ∑ j : Fin 40320, if BitVec.ofNat 32 j.val = T (ix2 r 0) - 10000#32 then g j else 0 := by
  unfold pickV
  rw [col_apply, sum_apply]
  refine Finset.sum_congr rfl fun j _ => ?_
  show Scalar.select (IntOp.cmpi .eq (iota .tc S64x40320 32 [1] iota_S64x40320_d1_w32 (ix2 r j))
      (broadcastTo S64x40320 (subi (shapeCast S64x1 T shapeCasts_S64x1_S64x1) (broadcast S64x1 10000#32)) broadcasts_S64x1_S64x40320 (ix2 r j)))
    (M (ix2 r j)) (Ideal.ofBits .f32 0x00000000#32) = _
  rw [iota_single_apply, bcol_apply, shapeCast_self, Ideal.ofBits_zero_f32, hg]
  exact if_congr StableHlo.Predicate.cmpi_eq_iff rfl rfl

/-- The body's arithmetic is those stages composed. -/
theorem pay_eq (x0 x1 : FVec Ideal S64x1024 .bf16) (x2 : FVec Ideal S40320x64 .bf16) (x3 : IVec S64x1 32) (x4 : FVec Ideal S64x1 .f32) :
    k2_pay1 (F := Ideal) x0 x1 x2 x3 x4
      = addf (subf (pickV (maskV (logitV x0 x1 x2)) x3) (lseV (maskV (logitV x0 x1 x2)))) (shapeCast S64x1 x4 shapeCasts_S64x1_S64x1) := rfl

/-- Row `r` of what the body stores: the tail's value of that row of the activations block, the two whole weight
    blocks, the row's target and the row's head column, whatever arrays those entries are read from. -/
theorem pay_apply (x0 x1 : FVec Ideal S64x1024 .bf16) (x2 : FVec Ideal S40320x64 .bf16) (x3 : IVec S64x1 32) (x4 : FVec Ideal S64x1 .f32)
    (r : Fin 64) (X : Fin 1024 → EReal) (WA : Fin 64 → Fin 1024 → EReal) (WB : Fin 40320 → Fin 64 → EReal) (tt : BitVec 32) (bb : EReal)
    (h0 : ∀ k, x0 (ix2 r k) = X k) (h1 : ∀ q k, x1 (ix2 q k) = WA q k) (h2 : ∀ j q, x2 (ix2 j q) = WB j q)
    (h3 : x3 (ix2 r 0) = tt) (h4 : x4 (ix2 r 0) = bb) :
    k2_pay1 (F := Ideal) x0 x1 x2 x3 x4 (ix2 r 0) = Spec.kTail 40257 10000#32 X WA WB tt bb := by
  have hM : ∀ j : Fin 40320, maskV (logitV x0 x1 x2) (ix2 r j)
      = Spec.masked 40257 (fun j : Fin 40320 => Spec.dot (fun q : Fin 64 => Spec.dot X (WA q)) (WB j)) j := fun j => by
    rw [maskV_apply, logitV_apply]
    simp only [h0, h1, h2]
    rfl
  rw [pay_eq, addf_apply, subf_apply, pickV_apply _ _ r 0 _ hM, lseV_apply _ r 0 _ hM, shapeCast_self, h3, h4]
  rfl

/-! ## From the blocks to the array -/

theorem hz : (![0, 0] : Fin 2 → Nat) = fun _ => 0 := funext fun a => by fin_cases a <;> rfl

/-- The printed index maps over the grid: the activations', targets', head column's and output's blocks are block
    `t` of 64 rows at point `t`; the two weight windows are whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- The one function the output column ends holding. -/
def G (c : Dev nD) : S4096x1.Idx → EReal := fun i =>
  Spec.kTail 40257 10000#32 (fun k => xs V c (ix2 (i 0) k)) (fun r k => wa V c (ix2 r k))
    (fun j r => wb V c (ix2 j r)) (tg V c (ix2 (i 0) 0)) (bias V c (ix2 (i 0) 0))

/-- Row `r` of the activations block at point `t` is row `64·t + r` of the array. -/
theorem read0 (c : Dev nD) (t : Fin cfg2.N) (r : Fin 64) (k : Fin 1024) (h : t.val * 64 + r.val < 4096) :
    iblk2 (F := Ideal) V c 0 t (ix2 r k) = xs V c (ix2 ⟨t.val * 64 + r.val, h⟩ k) := by
  unfold iblk2
  rw [View.read_apply]
  show V c main_v0 (((cfg2.win 0).blk t).view.emb (ix2 r k)) = V c main_v0 _
  refine congrArg (V c main_v0) (funext fun a => Fin.ext ?_)
  obtain ⟨e0, e1, -⟩ := idx_facts t
  match a with
  | ⟨0, _⟩ => show win2_0.index t (0 : Fin 2) * 64 + 1 * r.val = t.val * 64 + r.val; rw [e0]; omega
  | ⟨1, _⟩ => show win2_0.index t (1 : Fin 2) * 1024 + 1 * k.val = k.val; rw [e1]; omega

/-- The first projection's block is the whole array. -/
theorem read1 (c : Dev nD) (t : Fin cfg2.N) (q : Fin 64) (k : Fin 1024) :
    iblk2 (F := Ideal) V c 1 t (ix2 q k) = wa V c (ix2 q k) := by
  unfold iblk2
  rw [View.read_apply]
  show V c main_v6 (((cfg2.win 1).blk t).view.emb (ix2 q k)) = V c main_v6 _
  refine congrArg (V c main_v6) (funext fun a => Fin.ext ?_)
  obtain ⟨-, -, e0, e1, -⟩ := idx_facts t
  match a with
  | ⟨0, _⟩ => show win2_1.index t (0 : Fin 2) * 64 + 1 * q.val = q.val; rw [e0]; omega
  | ⟨1, _⟩ => show win2_1.index t (1 : Fin 2) * 1024 + 1 * k.val = k.val; rw [e1]; omega

/-- The second projection's block is the whole array. -/
theorem read2 (c : Dev nD) (t : Fin cfg2.N) (j : Fin 40320) (q : Fin 64) :
    iblk2 (F := Ideal) V c 2 t (ix2 j q) = wb V c (ix2 j q) := by
  unfold iblk2
  rw [View.read_apply]
  show V c main_v8 (((cfg2.win 2).blk t).view.emb (ix2 j q)) = V c main_v8 _
  refine congrArg (V c main_v8) (funext fun a => Fin.ext ?_)
  obtain ⟨-, -, -, -, e0, e1, -⟩ := idx_facts t
  match a with
  | ⟨0, _⟩ => show win2_2.index t (0 : Fin 2) * 40320 + 1 * j.val = j.val; rw [e0]; omega
  | ⟨1, _⟩ => show win2_2.index t (1 : Fin 2) * 64 + 1 * q.val = q.val; rw [e1]; omega

/-- Row `r` of the targets' block at point `t` is row `64·t + r` of the array. -/
theorem read3 (c : Dev nD) (t : Fin cfg2.N) (r : Fin 64) (h : t.val * 64 + r.val < 4096) :
    iblk2 (F := Ideal) V c 3 t (ix2 r 0) = tg V c (ix2 ⟨t.val * 64 + r.val, h⟩ 0) := by
  unfold iblk2
  rw [View.read_apply]
  show V c main_v9 (((cfg2.win 3).blk t).view.emb (ix2 r 0)) = V c main_v9 _
  refine congrArg (V c main_v9) (funext fun a => Fin.ext ?_)
  obtain ⟨-, -, -, -, -, -, e0, e1, -⟩ := idx_facts t
  match a with
  | ⟨0, _⟩ => show win2_3.index t (0 : Fin 2) * 64 + 1 * r.val = t.val * 64 + r.val; rw [e0]; omega
  | ⟨1, _⟩ => show win2_3.index t (1 : Fin 2) * 1 + 1 * 0 = 0; rw [e1]

/-- Row `r` of the head column's block at point `t` is row `64·t + r` of the array. -/
theorem read4 (c : Dev nD) (t : Fin cfg2.N) (r : Fin 64) (h : t.val * 64 + r.val < 4096) :
    iblk2 (F := Ideal) V c 4 t (ix2 r 0) = bias V c (ix2 ⟨t.val * 64 + r.val, h⟩ 0) := by
  unfold iblk2
  rw [View.read_apply]
  show V c main_v10_2 (((cfg2.win 4).blk t).view.emb (ix2 r 0)) = V c main_v10_2 _
  refine congrArg (V c main_v10_2) (funext fun a => Fin.ext ?_)
  obtain ⟨-, -, -, -, -, -, -, -, e0, e1, -⟩ := idx_facts t
  match a with
  | ⟨0, _⟩ => show win2_4.index t (0 : Fin 2) * 64 + 1 * r.val = t.val * 64 + r.val; rw [e0]; omega
  | ⟨1, _⟩ => show win2_4.index t (1 : Fin 2) * 1 + 1 * 0 = 0; rw [e1]

/-- Row `r` of the output's block at point `t` sits at row `64·t + r` of the array. -/
theorem emb5 (t : Fin cfg2.N) (r : Fin 64) (h : t.val * 64 + r.val < 4096) :
    ((cfg2.win 5).blk t).view.emb (ix2 r 0) = (ix2 ⟨t.val * 64 + r.val, h⟩ 0 : S4096x1.Idx) := by
  refine funext fun a => Fin.ext ?_
  obtain ⟨-, -, -, -, -, -, -, -, -, -, e0, e1⟩ := idx_facts t
  match a with
  | ⟨0, _⟩ => show win2_5.index t (0 : Fin 2) * 64 + 1 * r.val = t.val * 64 + r.val; rw [e0]; omega
  | ⟨1, _⟩ => show win2_5.index t (1 : Fin 2) * 1 + 1 * 0 = 0; rw [e1]

/-- What point `t` writes back is block `t` of that one function. -/
theorem flushed_eq (c : Dev nD) (t : Fin cfg2.N) :
    (dat2 (F := Ideal) V c).flushed 5 t = ((cfg2.win 5).blk t).view.read (Elt Ideal) (G V c) := by
  show (cfg2.win 5).cut (grid2.coords t) ((dat2 (F := Ideal) V c).after 5 t) = _
  rw [after2_5]
  unfold out2_5
  rw [View.canon_unit_zero hz]
  simp only [View.ld_unit_zero (S := S64x1024) hz, View.ld_unit_zero (S := S40320x64) hz, View.ld_unit_zero (S := S64x1) hz]
  funext y
  obtain ⟨r, z, rfl⟩ : ∃ (r : Fin 64) (z : Fin 1), y = ix2 r z := ⟨y 0, y 1, eq_ix2 y⟩
  obtain rfl : z = 0 := Subsingleton.elim z 0
  rw [View.read_apply]
  have hN : cfg2.N = 64 := N_2
  have ht := t.isLt
  have hr := r.isLt
  have hn : t.val * 64 + r.val < 4096 := by omega
  refine (pay_apply (iblk2 (F := Ideal) V c 0 t) (iblk2 (F := Ideal) V c 1 t) (iblk2 (F := Ideal) V c 2 t)
    (iblk2 (F := Ideal) V c 3 t) (iblk2 (F := Ideal) V c 4 t) r
    (fun k => xs V c (ix2 ⟨t.val * 64 + r.val, hn⟩ k)) (fun q k => wa V c (ix2 q k)) (fun j q => wb V c (ix2 j q))
    (tg V c (ix2 ⟨t.val * 64 + r.val, hn⟩ 0)) (bias V c (ix2 ⟨t.val * 64 + r.val, hn⟩ 0))
    (fun k => read0 V c t r k hn) (fun q k => read1 V c t q k) (fun j q => read2 V c t j q)
    (read3 V c t r hn) (read4 V c t r hn)).trans ?_
  rw [emb5 t r hn]
  rfl

/-- An index of the output column is in point `t`'s block iff its row is among the block's 64. -/
theorem mem_blk (t : Fin cfg2.N) (i : S4096x1.Idx) :
    i ∈ ((cfg2.win 5).blk t).view.set ↔ ∀ a : Fin 2, win2_5.index t a * S64x1.size a ≤ (i a).val ∧ (i a).val < win2_5.index t a * S64x1.size a + S64x1.size a := by
  show i ∈ ((View.whole main_v12).slice (win2_5.rect t)).set ↔ _
  rw [View.set_slice_whole, Rect.mem_set_unit]
  exact Iff.rfl

/-- Every row is in the block of the point `row / 64`. -/
theorem cover (i : S4096x1.Idx) : ∃ t : Fin cfg2.N, (cfg2.win 5).flush t = true ∧ i ∈ ((cfg2.win 5).blk t).view.set := by
  have hi0 : (i 0).val < 4096 := (i 0).isLt
  have hi1 : (i 1).val < 1 := (i 1).isLt
  have hN : cfg2.N = 64 := N_2
  refine ⟨⟨(i 0).val / 64, by omega⟩, flush2_5 _, ?_⟩
  rw [mem_blk]
  obtain ⟨-, -, -, -, -, -, -, -, -, -, e0, e1⟩ := idx_facts ⟨(i 0).val / 64, by omega⟩
  intro a
  match a with
  | ⟨0, _⟩ =>
    show win2_5.index ⟨(i 0).val / 64, _⟩ (0 : Fin 2) * 64 ≤ (i 0).val ∧ (i 0).val < win2_5.index ⟨(i 0).val / 64, _⟩ (0 : Fin 2) * 64 + 64
    rw [e0]; show (i 0).val / 64 * 64 ≤ (i 0).val ∧ (i 0).val < (i 0).val / 64 * 64 + 64; omega
  | ⟨1, _⟩ =>
    show win2_5.index ⟨(i 0).val / 64, _⟩ (1 : Fin 2) * 1 ≤ (i 1).val ∧ (i 1).val < win2_5.index ⟨(i 0).val / 64, _⟩ (1 : Fin 2) * 1 + 1
    rw [e1]; omega

/-- The cluster's column. -/
theorem arr5 (c : Dev nD) : (dat2 (F := Ideal) V c).arrAt 5 cfg2.N
    = fun i => Spec.kTail 40257 10000#32 (fun k => xs V c (ix2 (i 0) k)) (fun r k => wa V c (ix2 r k))
        (fun j r => wb V c (ix2 j r)) (tg V c (ix2 (i 0) 0)) (bias V c (ix2 (i 0) 0)) :=
  (dat2 (F := Ideal) V c).arrAt_eq_of_cover 5 (G V c) (fun t _ => flushed_eq V c t) cover

end Cert.KernelIdeal.Region2

end
-- ==== Proof.HostChain.lean ====
/-
  The host operations around the three kernels, read back to the argument arrays.

  Before the first kernel the host only re-formats: each float array is narrowed to a 16-bit float (the identity on
  extended reals), the three class matrices are padded with zero rows up to a multiple of 128, and the targets
  are reshaped to a column. Each kernel leaves every array it only reads as it found it, so the later kernels
  find the same inputs, plus the head kernel's columns. After the last kernel the host picks, row by row, the
  column of the target's cluster, and takes minus the mean.
-/
import proofs.«414738_j37469294691089_1_alg».proof.Proof.Gen.KernelIdeal.Frame
import proofs.«414738_j37469294691089_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost

set_option maxRecDepth 16384

noncomputable section

namespace Cert.KernelIdeal.HostChain

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The seven argument arrays as launched. -/
abbrev a0 (c : Dev nD) : S4096x1024.Idx → EReal := m ((c.tc : Thread nD τ).loc main_arg0)
abbrev a1 (c : Dev nD) : S4096.Idx → BitVec 32 := m ((c.tc : Thread nD τ).loc main_arg1)
abbrev a2 (c : Dev nD) : S1002x1024.Idx → EReal := m ((c.tc : Thread nD τ).loc main_arg2)
abbrev a3 (c : Dev nD) : S256x1024.Idx → EReal := m ((c.tc : Thread nD τ).loc main_arg3)
abbrev a4 (c : Dev nD) : S9000x256.Idx → EReal := m ((c.tc : Thread nD τ).loc main_arg4)
abbrev a5 (c : Dev nD) : S64x1024.Idx → EReal := m ((c.tc : Thread nD τ).loc main_arg5)
abbrev a6 (c : Dev nD) : S40257x64.Idx → EReal := m ((c.tc : Thread nD τ).loc main_arg6)

/-! ## What the first kernel finds -/

/-- The first kernel's entry contents at one buffer, as the host operations that made it applied to the launch memory. -/
local macro "entry_contents" : tactic =>
  `(tactic| (dsimp only [V7, W7, W6, W5, W4, W3, W2, W1, hostOps0_6, hostOps0_5, hostOps0_4, hostOps0_3, hostOps0_2,
      hostOps0_1, hostOps0]; after_results))

theorem v7_x (c : Dev nD) : (V7 m ρ c main_v0 : S4096x1024.Idx → EReal) = a0 m c := by
  entry_contents
  rfl
theorem v7_wh (c : Dev nD) (j : Fin 1024) (k : Fin 1024) (h : j.val < 1002) :
    (V7 m ρ c main_v2 : S1024x1024.Idx → EReal) (ix2 j k) = a2 m c (ix2 ⟨j.val, h⟩ k) := by
  entry_contents
  -- narrowing is the identity on extended reals; a row below 1002 lies inside the padded operand
  show pad S1024x1024 ![0, 0] ![22, 0] ![0, 0] (a2 m c) _ pads_S1002x1024_S1024x1024_0220_000 h_S_ (ix2 j k) = _
  refine pad_apply_of_inside _ _ _ _ _ _ _ (ix2 j k) (ix2 ⟨j.val, h⟩ k) fun a => ?_
  match a with
  | ⟨0, _⟩ => show j.val = 0 + j.val * (0 + 1); omega
  | ⟨1, _⟩ => show k.val = 0 + k.val * (0 + 1); omega
theorem v7_a0 (c : Dev nD) : (V7 m ρ c main_v3 : S256x1024.Idx → EReal) = a3 m c := by
  entry_contents
  rfl
theorem v7_b0 (c : Dev nD) (j : Fin 9088) (r : Fin 256) (h : j.val < 9000) :
    (V7 m ρ c main_v5 : S9088x256.Idx → EReal) (ix2 j r) = a4 m c (ix2 ⟨j.val, h⟩ r) := by
  entry_contents
  show pad S9088x256 ![0, 0] ![88, 0] ![0, 0] (a4 m c) _ pads_S9000x256_S9088x256_0880_000 h_S_ (ix2 j r) = _
  refine pad_apply_of_inside _ _ _ _ _ _ _ (ix2 j r) (ix2 ⟨j.val, h⟩ r) fun a => ?_
  match a with
  | ⟨0, _⟩ => show j.val = 0 + j.val * (0 + 1); omega
  | ⟨1, _⟩ => show r.val = 0 + r.val * (0 + 1); omega
theorem v7_a1 (c : Dev nD) : (V7 m ρ c main_v6 : S64x1024.Idx → EReal) = a5 m c := by
  entry_contents
  rfl
theorem v7_b1 (c : Dev nD) (j : Fin 40320) (r : Fin 64) (h : j.val < 40257) :
    (V7 m ρ c main_v8 : S40320x64.Idx → EReal) (ix2 j r) = a6 m c (ix2 ⟨j.val, h⟩ r) := by
  entry_contents
  show pad S40320x64 ![0, 0] ![63, 0] ![0, 0] (a6 m c) _ pads_S40257x64_S40320x64_0630_000 h_S_ (ix2 j r) = _
  refine pad_apply_of_inside _ _ _ _ _ _ _ (ix2 j r) (ix2 ⟨j.val, h⟩ r) fun a => ?_
  match a with
  | ⟨0, _⟩ => show j.val = 0 + j.val * (0 + 1); omega
  | ⟨1, _⟩ => show r.val = 0 + r.val * (0 + 1); omega
theorem v7_t (c : Dev nD) (n : Fin 4096) :
    (V7 m ρ c main_v9 : S4096x1.Idx → BitVec 32) (ix2 n 0) = a1 m c (ix1 n) := by
  entry_contents
  -- the column [4096, 1] holds entry n of the vector at (n, 0): the same row-major position
  show shapeCast S4096x1 (a1 m c) shapeCasts_S4096_S4096x1 (ix2 n 0) = _
  refine shapeCast_apply _ _ (ix2 n 0) (ix1 n) ?_
  rw [Shape.rowMajor_val_one, Shape.rowMajor_val_two]
  show n.val = n.val * 1 + 0
  omega

/-! ## What the second and third kernels find, and what the three leave -/

theorem v8_x (c : Dev nD) : V8 m ρ c main_v0 = V7 m ρ c main_v0 := by
  exact (W8_arr m ρ c 0).trans (((dat0 (F := Ideal) (V7 m ρ) c).arrAt_in 0 rfl _).trans (A_eq0 (V7 m ρ) c 0))
theorem v8_a0 (c : Dev nD) : V8 m ρ c main_v3 = V7 m ρ c main_v3 := by
  exact W8_of_ne m ρ c main_v3 (by decide)
theorem v8_b0 (c : Dev nD) : V8 m ρ c main_v5 = V7 m ρ c main_v5 := by
  exact W8_of_ne m ρ c main_v5 (by decide)
theorem v8_t (c : Dev nD) : V8 m ρ c main_v9 = V7 m ρ c main_v9 := by
  exact (W8_arr m ρ c 2).trans (((dat0 (F := Ideal) (V7 m ρ) c).arrAt_in 2 rfl _).trans (A_eq0 (V7 m ρ) c 2))
theorem v8_bias (c : Dev nD) : V8 m ρ c main_v10_1 = (dat0 (F := Ideal) (V7 m ρ) c).arrAt 4 cfg0.N := by
  exact W8_arr m ρ c 4
theorem v9_x (c : Dev nD) : V9 m ρ c main_v0 = V7 m ρ c main_v0 := by
  exact ((W9_arr m ρ c 0).trans (((dat1 (F := Ideal) (V8 m ρ) c).arrAt_in 0 rfl _).trans (A_eq1 (V8 m ρ) c 0))).trans (v8_x m ρ c)
theorem v9_a1 (c : Dev nD) : V9 m ρ c main_v6 = V7 m ρ c main_v6 := by
  exact (W9_of_ne m ρ c main_v6 (by decide)).trans (W8_of_ne m ρ c main_v6 (by decide))
theorem v9_b1 (c : Dev nD) : V9 m ρ c main_v8 = V7 m ρ c main_v8 := by
  exact (W9_of_ne m ρ c main_v8 (by decide)).trans (W8_of_ne m ρ c main_v8 (by decide))
theorem v9_t (c : Dev nD) : V9 m ρ c main_v9 = V7 m ρ c main_v9 := by
  exact ((W9_arr m ρ c 3).trans (((dat1 (F := Ideal) (V8 m ρ) c).arrAt_in 3 rfl _).trans (A_eq1 (V8 m ρ) c 3))).trans (v8_t m ρ c)
theorem v9_bias (c : Dev nD) : V9 m ρ c main_v10_2 = (dat0 (F := Ideal) (V7 m ρ) c).arrAt 5 cfg0.N := by
  exact (W9_of_ne m ρ c main_v10_2 (by decide)).trans (W8_arr m ρ c 5)
theorem v10_short (c : Dev nD) : V10 m ρ c main_v10_0 = (dat0 (F := Ideal) (V7 m ρ) c).arrAt 3 cfg0.N := by
  exact (W10_of_ne m ρ c main_v10_0 (by decide)).trans ((W9_of_ne m ρ c main_v10_0 (by decide)).trans (W8_arr m ρ c 3))
theorem v10_tail0 (c : Dev nD) : V10 m ρ c main_v11 = (dat1 (F := Ideal) (V8 m ρ) c).arrAt 5 cfg1.N := by
  exact (W10_of_ne m ρ c main_v11 (by decide)).trans (W9_arr m ρ c 5)
theorem v10_tail1 (c : Dev nD) : V10 m ρ c main_v12 = (dat2 (F := Ideal) (V9 m ρ) c).arrAt 5 cfg2.N := by
  exact W10_arr m ρ c 5

/-! ## The two results -/

/-- The targets reach the last host operations as launched: no kernel has a window on their buffer and no host
    operation writes it. -/
private theorem w10_t (c : Dev nD) : W10 m ρ c (Proc.devRef .tc main_arg1) = m ((c.tc : Thread nD τ).loc main_arg1) := by
  rw [W10_of_ne m ρ c main_arg1 (by decide), W9_of_ne m ρ c main_arg1 (by decide), W8_of_ne m ρ c main_arg1 (by decide)]
  dsimp only [W7, W6, W5, W4, W3, W2, W1, hostOps0_6, hostOps0_5, hostOps0_4, hostOps0_3, hostOps0_2, hostOps0_1, hostOps0]
  after_results

/-- A column [4096, 1] read back as a vector: entry i is the column's entry (i, 0), the same row-major position. -/
private theorem col_apply {α : Type} (x : S4096x1.Idx → α) (i : S4096.Idx) :
    shapeCast S4096 x shapeCasts_S4096x1_S4096 i = x (ix2 (i 0) 0) :=
  shapeCast_apply _ _ i (ix2 (i 0) 0) (by
    rw [Shape.rowMajor_val_one, Shape.rowMajor_val_two]
    show (i 0).val * 1 + 0 = (i 0).val
    omega)

/-- The two nested selects on the three one-bit comparisons are the choice by cluster: a signed comparison's bit is 1
    exactly when it holds, and the conjunction of two bits is 1 exactly when both are. -/
private theorem select_chain (t : BitVec 32) (s a b : EReal) :
    Scalar.select (IntOp.cmpi .slt t 1000#32) s
      (Scalar.select (IntOp.andi (IntOp.cmpi .sge t 1000#32) (IntOp.cmpi .slt t 10000#32)) a b)
    = Spec.kSelect t s a b := by
  unfold Spec.kSelect Scalar.select IntOp.cmpi IntOp.andi
  cases h1 : t.slt 1000#32 <;> cases h2 : (1000#32).sle t <;> cases h3 : t.slt 10000#32 <;> simp

/-- The last host operations from ANY contents V, read at one row: the comparisons of the target against the two
    cluster bounds, and the selects between the three columns. It holds whatever V is: only the host operations
    enter. -/
private theorem fold_out (V : Valuation τ sig (Elt Ideal)) (i : S4096.Idx) :
    (StableHlo.after hostOps3_3 (StableHlo.after hostOps3_2 (StableHlo.after hostOps3_1 (StableHlo.after hostOps3 V)))
      (Proc.devRef .tc main_v24) : S4096.Idx → EReal) i
    = Scalar.select (IntOp.cmpi .slt ((V (Proc.devRef .tc main_arg1) : S4096.Idx → BitVec 32) i) 1000#32)
      (shapeCast S4096 (V (Proc.devRef .tc main_v10_0) : S4096x1.Idx → EReal) shapeCasts_S4096x1_S4096 i)
      (Scalar.select (IntOp.andi (IntOp.cmpi .sge ((V (Proc.devRef .tc main_arg1) : S4096.Idx → BitVec 32) i) 1000#32)
          (IntOp.cmpi .slt ((V (Proc.devRef .tc main_arg1) : S4096.Idx → BitVec 32) i) 10000#32))
        (shapeCast S4096 (V (Proc.devRef .tc main_v11) : S4096x1.Idx → EReal) shapeCasts_S4096x1_S4096 i)
        (shapeCast S4096 (V (Proc.devRef .tc main_v12) : S4096x1.Idx → EReal) shapeCasts_S4096x1_S4096 i)) := by
  -- the four stretches in turn, from the last back to the first
  generalize h1 : StableHlo.after hostOps3 V = V1
  generalize h2 : StableHlo.after hostOps3_1 V1 = V2
  dsimp only [hostOps3_3, hostOps3_2]
  after_results_simp
  subst h2
  dsimp only [hostOps3_1]
  after_results_simp
  subst h1
  dsimp only [hostOps3]
  after_results_simp
  rfl

/-- The same as the choice by cluster, the targets given as t. -/
private theorem select_after (V : Valuation τ sig (Elt Ideal)) (t : S4096.Idx → BitVec 32)
    (ht : V (Proc.devRef .tc main_arg1) = t) (i : S4096.Idx) :
    (StableHlo.after hostOps3_3 (StableHlo.after hostOps3_2 (StableHlo.after hostOps3_1 (StableHlo.after hostOps3 V)))
      (Proc.devRef .tc main_v24) : S4096.Idx → EReal) i
    = Spec.kSelect (t i) ((V (Proc.devRef .tc main_v10_0) : S4096x1.Idx → EReal) (ix2 (i 0) 0))
        ((V (Proc.devRef .tc main_v11) : S4096x1.Idx → EReal) (ix2 (i 0) 0))
        ((V (Proc.devRef .tc main_v12) : S4096x1.Idx → EReal) (ix2 (i 0) 0)) := by
  subst ht
  rw [fold_out V i, col_apply, col_apply, col_apply]
  exact select_chain _ _ _ _

/-- Row by row, the column of the target's cluster. -/
theorem w14_out (c : Dev nD) : (W14 m ρ c (Proc.devRef .tc main_v24) : S4096.Idx → EReal)
    = fun i => Spec.kSelect (a1 m c i) ((V10 m ρ c main_v10_0 : S4096x1.Idx → EReal) (ix2 (i 0) 0))
        ((V10 m ρ c main_v11 : S4096x1.Idx → EReal) (ix2 (i 0) 0)) ((V10 m ρ c main_v12 : S4096x1.Idx → EReal) (ix2 (i 0) 0)) :=
  funext fun i => select_after (W10 m ρ c) (a1 m c) (w10_t m ρ c) i

/-- Minus the mean of the first result. -/
theorem w14_loss (c : Dev nD) : (W14 m ρ c (Proc.devRef .tc main_v27) : S_.Idx → EReal)
    = Spec.lossTail reducesTo_S4096_S_d0 h_S_ (W14 m ρ c (Proc.devRef .tc main_v24)) := by
  -- the last stretch over whatever the selects left: a sum from zero, a quotient by 4096, a negation
  show StableHlo.after hostOps3_3 (W13 m ρ c) (Proc.devRef .tc main_v27)
    = Spec.lossTail reducesTo_S4096_S_d0 h_S_ (StableHlo.after hostOps3_3 (W13 m ρ c) (Proc.devRef .tc main_v24))
  generalize W13 m ρ c = V
  dsimp only [hostOps3_3]
  after_results
  rfl

end Cert.KernelIdeal.HostChain

end
-- ==== Proof.MathCore.lean ====
/-
  One row of the three kernels is the target's log-probability.

  Over the extended reals, for real inputs: a padded column holds −∞, whose shifted exponential is zero, so the
  padded row's maximum and sum of exponentials are the valid row's; with the maximum `M` and the logarithm `L`
  of the sum both real, `(a − M) − L = a − (M + L)`; and a sum over the columns of "the entry where the column is
  the wanted one, zero elsewhere" is that entry.
-/
import proofs.«414738_j37469294691089_1_alg».proof.Proof.Spec
import Mathlib.Data.EReal.Operations
import Mathlib.Analysis.SpecialFunctions.Log.Basic
import Mathlib.Data.Finset.Fold
import Mathlib.Data.Finset.Max
import Mathlib.Algebra.BigOperators.Fin

noncomputable section

namespace Cert.Spec

open Idealize.ShloMosaic

/-! ## Real rows -/

/-- A finite sum of reals, taken in the extended reals, is the real sum. -/
private theorem coe_sum {ι : Type*} (s : Finset ι) (g : ι → ℝ) :
    (∑ i ∈ s, (g i : EReal)) = ((∑ i ∈ s, g i : ℝ) : EReal) := by
  classical
  induction s using Finset.induction_on with
  | empty => simp
  | insert i s hi ih => rw [Finset.sum_insert hi, Finset.sum_insert hi, ih, EReal.coe_add]

/-- The inner product of two real rows is real. -/
private theorem dot_real {K : ℕ} (u v : Fin K → EReal) (hu : ∀ k, ∃ r : ℝ, u k = (r : EReal))
    (hv : ∀ k, ∃ r : ℝ, v k = (r : EReal)) : ∃ r : ℝ, dot u v = (r : EReal) := by
  choose ru hru using hu
  choose rv hrv using hv
  refine ⟨∑ k, ru k * rv k, ?_⟩
  unfold dot
  rw [← coe_sum]
  refine Finset.sum_congr rfl fun k _ => ?_
  rw [hru k, hrv k, EReal.coe_mul]

/-! ## The maximum of a row -/

/-- Every entry is below the row's maximum. -/
private theorem le_rowMax {n : ℕ} (g : Fin n → EReal) (i : Fin n) : g i ≤ rowMax g :=
  (Finset.le_fold_max _).mpr (Or.inr ⟨i, Finset.mem_univ i, le_rfl⟩)

/-- A bound of every entry bounds the maximum. -/
private theorem rowMax_le {n : ℕ} (g : Fin n → EReal) (c : EReal) (h : ∀ i, g i ≤ c) : rowMax g ≤ c :=
  (Finset.fold_max_le _).mpr ⟨bot_le, fun i _ => h i⟩

/-- The maximum of a nonempty row is one of its entries. -/
private theorem rowMax_attained {n : ℕ} (hn : 0 < n) (g : Fin n → EReal) : ∃ i, rowMax g = g i := by
  haveI : Nonempty (Fin n) := ⟨⟨0, hn⟩⟩
  obtain ⟨i, -, hi⟩ := Finset.exists_max_image (Finset.univ : Finset (Fin n)) g Finset.univ_nonempty
  exact ⟨i, le_antisymm (rowMax_le g _ fun j => hi j (Finset.mem_univ j)) (le_rowMax g i)⟩

/-- Padding a row with −∞ does not change its maximum. -/
private theorem rowMax_masked {C Cp : ℕ} (hC : C ≤ Cp) (l : Fin Cp → EReal) (f : Fin C → EReal)
    (hlf : ∀ (j : Fin Cp) (h : j.val < C), l j = f ⟨j.val, h⟩) : rowMax (masked C l) = rowMax f := by
  apply le_antisymm
  · refine rowMax_le _ _ fun j => ?_
    unfold masked
    split_ifs with h
    · rw [hlf j h]; exact le_rowMax f _
    · exact bot_le
  · refine rowMax_le _ _ fun i => ?_
    have h : (⟨i.val, lt_of_lt_of_le i.isLt hC⟩ : Fin Cp).val < C := i.isLt
    have e : masked C l ⟨i.val, lt_of_lt_of_le i.isLt hC⟩ = f i := by
      unfold masked
      rw [if_pos h, hlf _ h]
    rw [← e]
    exact le_rowMax _ _

/-! ## The sum of shifted exponentials -/

/-- A padded column contributes nothing: its shifted exponential is zero. The padded sum is the valid sum. -/
private theorem sum_exp_masked {C Cp : ℕ} (hC : C ≤ Cp) (l : Fin Cp → EReal) (f : Fin C → EReal)
    (hlf : ∀ (j : Fin Cp) (h : j.val < C), l j = f ⟨j.val, h⟩) (M : ℝ) :
    (∑ i, Ideal.exp (masked C l i - (M : EReal))) = ∑ i, Ideal.exp (f i - (M : EReal)) := by
  obtain ⟨d, rfl⟩ := Nat.exists_eq_add_of_le hC
  rw [Fin.sum_univ_add]
  have hpad : (∑ i : Fin d, Ideal.exp (masked C l (Fin.natAdd C i) - (M : EReal))) = 0 := by
    refine Finset.sum_eq_zero fun i _ => ?_
    have hn : ¬ (Fin.natAdd C i).val < C := by simp
    unfold masked
    rw [if_neg hn, EReal.bot_sub, Ideal.exp_bot]
  rw [hpad, add_zero]
  refine Finset.sum_congr rfl fun i _ => ?_
  have h : (Fin.castAdd d i).val < C := by simp
  have e : (⟨(Fin.castAdd d i).val, h⟩ : Fin C) = i := Fin.ext (by simp)
  unfold masked
  rw [if_pos h, hlf _ h, e]

/-- The shifted exponentials of a nonempty real row sum to a positive real. -/
private theorem sum_exp_real {C : ℕ} (h0 : 0 < C) (r : Fin C → ℝ) (M : ℝ) :
    ∃ S : ℝ, 0 < S ∧ (∑ i, Ideal.exp ((r i : EReal) - (M : EReal))) = (S : EReal) := by
  haveI : Nonempty (Fin C) := ⟨⟨0, h0⟩⟩
  refine ⟨∑ i, Real.exp (r i - M), Finset.sum_pos (fun i _ => Real.exp_pos _) Finset.univ_nonempty, ?_⟩
  rw [← coe_sum]
  refine Finset.sum_congr rfl fun i _ => ?_
  rw [← EReal.coe_sub, Ideal.exp_coe]

/-! ## The two shapes of the log-softmax agree -/

/-- At a valid column of a padded real row, the entry minus the padded row's `lse` is the valid row's
    log-softmax: the maximum `M` and the logarithm `L` are real, and `(a − M) − L = a − (M + L)`. -/
private theorem masked_sub_lse {C Cp : ℕ} (hC : C ≤ Cp) (h0 : 0 < C) (l : Fin Cp → EReal) (f : Fin C → EReal)
    (hreal : ∀ i, ∃ r : ℝ, f i = (r : EReal)) (hlf : ∀ (j : Fin Cp) (h : j.val < C), l j = f ⟨j.val, h⟩)
    (j : Fin Cp) (h : j.val < C) :
    masked C l j - lse (masked C l) = logSoftmax f ⟨j.val, h⟩ := by
  choose r hr using hreal
  obtain ⟨i₀, hi₀⟩ := rowMax_attained h0 f
  have hM : rowMax f = ((r i₀ : ℝ) : EReal) := by rw [hi₀, hr i₀]
  have hf : f = fun i => ((r i : ℝ) : EReal) := funext hr
  obtain ⟨S, hS, hsum⟩ := sum_exp_real h0 r (r i₀)
  have hj : masked C l j = ((r ⟨j.val, h⟩ : ℝ) : EReal) := by
    unfold masked
    rw [if_pos h, hlf j h, hr]
  unfold lse logSoftmax
  rw [rowMax_masked hC l f hlf, hM, sum_exp_masked hC l f hlf, hj, hr ⟨j.val, h⟩]
  have hsum' : (∑ i, Ideal.exp (f i - ((r i₀ : ℝ) : EReal))) = (S : EReal) := by
    rw [hf]; exact hsum
  rw [hsum', Ideal.log_coe, if_neg (not_le.mpr hS)]
  rw [← EReal.coe_sub, ← EReal.coe_sub, ← EReal.coe_add, ← EReal.coe_sub]
  congr 1
  ring

/-! ## Picked sums -/

/-- A sum of "the entry where the column is the wanted one, zero elsewhere" is that entry. -/
private theorem sum_pick {N : ℕ} (g : Fin N → EReal) (p : Fin N → Prop) [DecidablePred p] (j₀ : Fin N)
    (hp : ∀ j, p j ↔ j = j₀) : (∑ j, if p j then g j else 0) = g j₀ := by
  rw [Finset.sum_eq_single j₀]
  · rw [if_pos ((hp j₀).mpr rfl)]
  · intro b _ hb
    rw [if_neg (fun hpb => hb ((hp b).mp hpb))]
  · intro hj
    exact absurd (Finset.mem_univ j₀) hj

/-- When no column is the wanted one the sum is zero. -/
private theorem sum_pick_none {N : ℕ} (g : Fin N → EReal) (p : Fin N → Prop) [DecidablePred p]
    (hp : ∀ j, ¬ p j) : (∑ j, if p j then g j else 0) = 0 :=
  Finset.sum_eq_zero fun j _ => if_neg (hp j)

/-! ## Words -/

/-- A small column index, as a word, is the word `t` exactly when it is `t`'s value. -/
private theorem ofNat_eq_iff (j : ℕ) (hj : j < 4294967296) (t : BitVec 32) :
    BitVec.ofNat 32 j = t ↔ j = t.toNat := by
  constructor
  · intro h
    rw [← h, BitVec.toNat_ofNat]
    exact (Nat.mod_eq_of_lt (by omega)).symm
  · intro h
    apply BitVec.eq_of_toNat_eq
    rw [BitVec.toNat_ofNat, h]
    exact Nat.mod_eq_of_lt t.isLt

/-- Subtracting a cluster's offset from a target at or above it. -/
private theorem toNat_sub_off (t off : BitVec 32) (h : off.toNat ≤ t.toNat) :
    (t - off).toNat = t.toNat - off.toNat := by
  rw [BitVec.toNat_sub]
  have := t.isLt
  have := off.isLt
  omega

/-- A class label read signed is its unsigned value. -/
private theorem toInt_label (t : BitVec 32) (h : t.toNat < 50257) : t.toInt = (t.toNat : ℤ) :=
  BitVec.toInt_eq_toNat_of_lt (by omega)

private theorem slt_label (t : BitVec 32) (h : t.toNat < 50257) (c : ℕ) (hc : c < 50257) :
    t.slt (BitVec.ofNat 32 c) = true ↔ t.toNat < c := by
  rw [BitVec.slt_iff_toInt_lt, toInt_label t h, toInt_label (BitVec.ofNat 32 c)]
  · rw [BitVec.toNat_ofNat, Nat.mod_eq_of_lt (by omega)]; omega
  · rw [BitVec.toNat_ofNat, Nat.mod_eq_of_lt (by omega)]; exact hc

private theorem sle_label (t : BitVec 32) (h : t.toNat < 50257) (c : ℕ) (hc : c < 50257) :
    (BitVec.ofNat 32 c).sle t = true ↔ c ≤ t.toNat := by
  rw [BitVec.sle_iff_toInt_le, toInt_label t h, toInt_label (BitVec.ofNat 32 c)]
  · rw [BitVec.toNat_ofNat, Nat.mod_eq_of_lt (by omega)]; omega
  · rw [BitVec.toNat_ofNat, Nat.mod_eq_of_lt (by omega)]; exact hc

/-! ## The logits are real -/

private theorem headLogit_real (a : Args) (hf : a.Finite) (n : Fin 4096) (j : Fin 1002) :
    ∃ r : ℝ, headLogit a n j = (r : EReal) :=
  dot_real _ _ (hf.1 n) (hf.2.1 j)

private theorem hid0_real (a : Args) (hf : a.Finite) (n : Fin 4096) (r : Fin 256) :
    ∃ q : ℝ, hid0 a n r = (q : EReal) :=
  dot_real _ _ (hf.1 n) (hf.2.2.1 r)

private theorem logit0_real (a : Args) (hf : a.Finite) (n : Fin 4096) (j : Fin 9000) :
    ∃ r : ℝ, logit0 a n j = (r : EReal) :=
  dot_real _ _ (hid0_real a hf n) (hf.2.2.2.1 j)

private theorem hid1_real (a : Args) (hf : a.Finite) (n : Fin 4096) (r : Fin 64) :
    ∃ q : ℝ, hid1 a n r = (q : EReal) :=
  dot_real _ _ (hf.1 n) (hf.2.2.2.2.1 r)

private theorem logit1_real (a : Args) (hf : a.Finite) (n : Fin 4096) (j : Fin 40257) :
    ∃ r : ℝ, logit1 a n j = (r : EReal) :=
  dot_real _ _ (hid1_real a hf n) (hf.2.2.2.2.2 j)

/-! ## The head -/

/-- A valid column of the head's padded log-softmax is the specification's. -/
private theorem headLp_eq (a : Args) (hf : a.Finite) (n : Fin 4096) (wh : Fin 1024 → Fin 1024 → EReal)
    (hwh : ∀ (j : Fin 1024) (k : Fin 1024) (h : j.val < 1002), wh j k = a.Wh ⟨j.val, h⟩ k)
    (j : Fin 1024) (h : j.val < 1002) :
    headLp (a.X n) wh j = logSoftmax (headLogit a n) ⟨j.val, h⟩ := by
  unfold headLp
  refine masked_sub_lse (by norm_num) (by norm_num) (fun j => dot (a.X n) (wh j)) (headLogit a n)
    (headLogit_real a hf n) ?_ j h
  intro j h
  have e : wh j = a.Wh ⟨j.val, h⟩ := funext fun k => hwh j k h
  rw [e]
  rfl

/-- A cluster's column of the head. -/
private theorem kBias_eq (a : Args) (hf : a.Finite) (n : Fin 4096) (wh : Fin 1024 → Fin 1024 → EReal)
    (hwh : ∀ (j : Fin 1024) (k : Fin 1024) (h : j.val < 1002), wh j k = a.Wh ⟨j.val, h⟩ k)
    (c : ℕ) (hc : c < 1002) :
    kBias c (a.X n) wh = logSoftmax (headLogit a n) ⟨c, hc⟩ := by
  unfold kBias
  have hp : ∀ j : Fin 1024, j.val = c ↔ j = (⟨c, by omega⟩ : Fin 1024) := fun j =>
    ⟨fun h => Fin.ext h, fun h => by rw [h]⟩
  exact (sum_pick (headLp (a.X n) wh) _ ⟨c, by omega⟩ hp).trans (headLp_eq a hf n wh hwh ⟨c, by omega⟩ hc)

/-- The short-list entry for a target in the short list. -/
private theorem kShort_eq (a : Args) (hf : a.Finite) (n : Fin 4096) (wh : Fin 1024 → Fin 1024 → EReal)
    (hwh : ∀ (j : Fin 1024) (k : Fin 1024) (h : j.val < 1002), wh j k = a.Wh ⟨j.val, h⟩ k)
    (t : BitVec 32) (ht : t.toNat < 1000) :
    kShort (a.X n) wh t = logSoftmax (headLogit a n) ⟨t.toNat, by omega⟩ := by
  unfold kShort
  have hp : ∀ j : Fin 1024, (BitVec.ofNat 32 j.val = t ∧ j.val < 1000) ↔
      j = (⟨t.toNat, by omega⟩ : Fin 1024) := by
    intro j
    rw [ofNat_eq_iff j.val (by have := j.isLt; omega) t]
    constructor
    · rintro ⟨h, -⟩
      exact Fin.ext h
    · intro h
      subst h
      exact ⟨rfl, ht⟩
  exact (sum_pick (headLp (a.X n) wh) _ ⟨t.toNat, by omega⟩ hp).trans
    (headLp_eq a hf n wh hwh ⟨t.toNat, by omega⟩ (show t.toNat < 1002 by omega))

/-! ## A tail -/

/-- A tail's row for a target in its cluster: the picked column `t − off` is valid, so the masked entry is the
    logit, and the entry minus the padded `lse` is the valid row's log-softmax. -/
private theorem kTail_eq {R C Cp : ℕ} (hC : C ≤ Cp) (h0 : 0 < C) (hCp : Cp < 4294967296) (off : BitVec 32)
    (o : ℕ) (ho : off.toNat = o)
    (x : Fin 1024 → EReal) (wa : Fin R → Fin 1024 → EReal) (wb : Fin Cp → Fin R → EReal)
    (f : Fin C → EReal) (hreal : ∀ i, ∃ r : ℝ, f i = (r : EReal))
    (hlf : ∀ (j : Fin Cp) (h : j.val < C), dot (fun r => dot x (wa r)) (wb j) = f ⟨j.val, h⟩)
    (t : BitVec 32) (hoff : o ≤ t.toNat) (ht : t.toNat - o < C) (bias : EReal) :
    kTail C off x wa wb t bias = logSoftmax f ⟨t.toNat - o, ht⟩ + bias := by
  subst ho
  unfold kTail
  have hp : ∀ j : Fin Cp, BitVec.ofNat 32 j.val = t - off ↔
      j = (⟨t.toNat - off.toNat, lt_of_lt_of_le ht hC⟩ : Fin Cp) := by
    intro j
    rw [ofNat_eq_iff j.val (lt_trans j.isLt hCp) (t - off), toNat_sub_off t off hoff]
    exact ⟨fun h => Fin.ext h, fun h => by rw [h]⟩
  rw [sum_pick (masked C fun j => dot (fun r => dot x (wa r)) (wb j)) _ _ hp]
  rw [masked_sub_lse hC h0 (fun j => dot (fun r => dot x (wa r)) (wb j)) f hreal hlf
    ⟨t.toNat - off.toNat, lt_of_lt_of_le ht hC⟩ ht]

/-! ## The row -/

/-- The three kernels' row results, chosen by the target's cluster, are the target's log-probability: `wh`,
    `wb0`, `wb1` are the padded weights, equal to the arguments on their valid rows. -/
theorem kernel_row (a : Args) (hf : a.Finite) (hr : a.InRange) (n : Fin 4096)
    (wh : Fin 1024 → Fin 1024 → EReal) (hwh : ∀ (j : Fin 1024) (k : Fin 1024) (h : j.val < 1002), wh j k = a.Wh ⟨j.val, h⟩ k)
    (wb0 : Fin 9088 → Fin 256 → EReal) (hwb0 : ∀ (j : Fin 9088) (r : Fin 256) (h : j.val < 9000), wb0 j r = a.B0 ⟨j.val, h⟩ r)
    (wb1 : Fin 40320 → Fin 64 → EReal) (hwb1 : ∀ (j : Fin 40320) (r : Fin 64) (h : j.val < 40257), wb1 j r = a.B1 ⟨j.val, h⟩ r) :
    kSelect (a.T n) (kShort (a.X n) wh (a.T n))
      (kTail 9000 1000#32 (a.X n) a.A0 wb0 (a.T n) (kBias 1000 (a.X n) wh))
      (kTail 40257 10000#32 (a.X n) a.A1 wb1 (a.T n) (kBias 1001 (a.X n) wh))
    = lp a n := by
  have ht : (a.T n).toNat < 50257 := hr n
  have hl0 : ∀ (j : Fin 9088) (h : j.val < 9000),
      dot (fun r => dot (a.X n) (a.A0 r)) (wb0 j) = logit0 a n ⟨j.val, h⟩ := by
    intro j h
    have e : wb0 j = a.B0 ⟨j.val, h⟩ := funext fun r => hwb0 j r h
    rw [e]
    rfl
  have hl1 : ∀ (j : Fin 40320) (h : j.val < 40257),
      dot (fun r => dot (a.X n) (a.A1 r)) (wb1 j) = logit1 a n ⟨j.val, h⟩ := by
    intro j h
    have e : wb1 j = a.B1 ⟨j.val, h⟩ := funext fun r => hwb1 j r h
    rw [e]
    rfl
  unfold kSelect lp
  by_cases h1 : (a.T n).toNat < 1000
  · -- the short list
    rw [if_pos ((slt_label (a.T n) ht 1000 (by norm_num)).mpr h1), dif_pos h1]
    exact kShort_eq a hf n wh hwh (a.T n) h1
  · have hs1 : ¬ ((a.T n).slt 1000#32 = true) := fun h =>
      h1 ((slt_label (a.T n) ht 1000 (by norm_num)).mp h)
    rw [if_neg hs1, dif_neg h1]
    by_cases h2 : (a.T n).toNat < 10000
    · -- the first tail
      have hc : (1000#32).sle (a.T n) = true ∧ (a.T n).slt 10000#32 = true :=
        ⟨(sle_label (a.T n) ht 1000 (by norm_num)).mpr (by omega),
          (slt_label (a.T n) ht 10000 (by norm_num)).mpr h2⟩
      rw [if_pos hc, dif_pos h2, kBias_eq a hf n wh hwh 1000 (by norm_num)]
      exact kTail_eq (by norm_num) (by norm_num) (by norm_num) 1000#32 1000 rfl (a.X n) a.A0 wb0
        (logit0 a n) (logit0_real a hf n) hl0 (a.T n) (by omega) (by omega) _
    · -- the second tail
      have hc : ¬ ((1000#32).sle (a.T n) = true ∧ (a.T n).slt 10000#32 = true) := fun h =>
        h2 ((slt_label (a.T n) ht 10000 (by norm_num)).mp h.2)
      rw [if_neg hc, dif_neg h2, dif_pos ht, kBias_eq a hf n wh hwh 1001 (by norm_num)]
      exact kTail_eq (by norm_num) (by norm_num) (by norm_num) 10000#32 10000 rfl (a.X n) a.A1 wb1
        (logit1 a n) (logit1_real a hf n) hl1 (a.T n) (by omega) (by omega) _

end Cert.Spec

end
-- ==== Proof.KernelValue.lean ====
/-
  The kernel program's two results as the specification's functions of its argument arrays.

  Row `n` of each kernel's output column is that kernel's row function of what it finds: row `n` of the
  activations, the (padded) weights, row `n`'s target and, for the two tails, row `n` of the head's cluster
  column. What each kernel finds is what the host laid out before the first one, the later kernels also finding
  the head's columns. The host's choice among the three columns by the target's cluster is, row by row, the target's
  log-probability (the padded weights equal the arguments on the valid rows, which is all the masked row reads);
  the second result is the same three host operations of the first on both sides.
-/
import proofs.«414738_j37469294691089_1_alg».proof.Proof.KernelRun
import proofs.«414738_j37469294691089_1_alg».proof.Proof.Region0
import proofs.«414738_j37469294691089_1_alg».proof.Proof.Region1
import proofs.«414738_j37469294691089_1_alg».proof.Proof.Region2
import proofs.«414738_j37469294691089_1_alg».proof.Proof.HostChain
import proofs.«414738_j37469294691089_1_alg».proof.Proof.MathCore
import Idealize.ShloMosaic.Lib.ValueIdx

set_option maxRecDepth 16384

noncomputable section

namespace Cert.KernelIdeal.KernelValue

open Cert.KernelIdeal Cert.KernelIdeal.Gen Cert.KernelIdeal.HostChain
open Idealize.ShloMosaic Idealize.ShloMosaic.TcCoe Idealize.ShloMosaic.ValueIdx Idealize.SL.Sem

variable (m : (ℓ : Loc nD τ sig) → Buf (Elt Ideal) ℓ) (ρ : Dev nD → PrngReg)

/-- The kernel's argument arrays as coordinates. -/
def argsK (c : Dev nD) : Spec.Args :=
  Spec.mkArgs (a0 m c) (a1 m c) (a2 m c) (a3 m c) (a4 m c) (a5 m c) (a6 m c)

/-- The padded head weights the kernels read, by coordinates. -/
abbrev whp (c : Dev nD) : Fin 1024 → Fin 1024 → EReal := fun j k => (V7 m ρ c main_v2 : S1024x1024.Idx → EReal) (ix2 j k)
abbrev wb0p (c : Dev nD) : Fin 9088 → Fin 256 → EReal := fun j r => (V7 m ρ c main_v5 : S9088x256.Idx → EReal) (ix2 j r)
abbrev wb1p (c : Dev nD) : Fin 40320 → Fin 64 → EReal := fun j r => (V7 m ρ c main_v8 : S40320x64.Idx → EReal) (ix2 j r)

theorem short_row (c : Dev nD) (n : Fin 4096) :
    (V10 m ρ c main_v10_0 : S4096x1.Idx → EReal) (ix2 n 0)
      = Spec.kShort ((argsK m c).X n) (whp m ρ c) ((argsK m c).T n) := by
  rw [v10_short, Region0.arr3]
  show Spec.kShort (fun k => (V7 m ρ c main_v0 : S4096x1024.Idx → EReal) (ix2 n k)) (whp m ρ c)
    ((V7 m ρ c main_v9 : S4096x1.Idx → BitVec 32) (ix2 n 0)) = _
  rw [v7_x, v7_t]
  rfl

theorem bias0_row (c : Dev nD) (n : Fin 4096) :
    (V8 m ρ c main_v10_1 : S4096x1.Idx → EReal) (ix2 n 0) = Spec.kBias 1000 ((argsK m c).X n) (whp m ρ c) := by
  rw [v8_bias, Region0.arr4]
  show Spec.kBias 1000 (fun k => (V7 m ρ c main_v0 : S4096x1024.Idx → EReal) (ix2 n k)) (whp m ρ c) = _
  rw [v7_x]
  rfl

theorem bias1_row (c : Dev nD) (n : Fin 4096) :
    (V9 m ρ c main_v10_2 : S4096x1.Idx → EReal) (ix2 n 0) = Spec.kBias 1001 ((argsK m c).X n) (whp m ρ c) := by
  rw [v9_bias, Region0.arr5]
  show Spec.kBias 1001 (fun k => (V7 m ρ c main_v0 : S4096x1024.Idx → EReal) (ix2 n k)) (whp m ρ c) = _
  rw [v7_x]
  rfl

theorem tail0_row (c : Dev nD) (n : Fin 4096) :
    (V10 m ρ c main_v11 : S4096x1.Idx → EReal) (ix2 n 0)
      = Spec.kTail 9000 1000#32 ((argsK m c).X n) (argsK m c).A0 (wb0p m ρ c) ((argsK m c).T n)
          (Spec.kBias 1000 ((argsK m c).X n) (whp m ρ c)) := by
  rw [v10_tail0, Region1.arr5]
  show Spec.kTail 9000 1000#32 (fun k => (V8 m ρ c main_v0 : S4096x1024.Idx → EReal) (ix2 n k))
    (fun r k => (V8 m ρ c main_v3 : S256x1024.Idx → EReal) (ix2 r k))
    (fun j r => (V8 m ρ c main_v5 : S9088x256.Idx → EReal) (ix2 j r))
    ((V8 m ρ c main_v9 : S4096x1.Idx → BitVec 32) (ix2 n 0))
    ((V8 m ρ c main_v10_1 : S4096x1.Idx → EReal) (ix2 n 0)) = _
  rw [bias0_row, v8_x, v8_a0, v8_b0, v8_t, v7_x, v7_a0, v7_t]
  rfl

theorem tail1_row (c : Dev nD) (n : Fin 4096) :
    (V10 m ρ c main_v12 : S4096x1.Idx → EReal) (ix2 n 0)
      = Spec.kTail 40257 10000#32 ((argsK m c).X n) (argsK m c).A1 (wb1p m ρ c) ((argsK m c).T n)
          (Spec.kBias 1001 ((argsK m c).X n) (whp m ρ c)) := by
  rw [v10_tail1, Region2.arr5]
  show Spec.kTail 40257 10000#32 (fun k => (V9 m ρ c main_v0 : S4096x1024.Idx → EReal) (ix2 n k))
    (fun r k => (V9 m ρ c main_v6 : S64x1024.Idx → EReal) (ix2 r k))
    (fun j r => (V9 m ρ c main_v8 : S40320x64.Idx → EReal) (ix2 j r))
    ((V9 m ρ c main_v9 : S4096x1.Idx → BitVec 32) (ix2 n 0))
    ((V9 m ρ c main_v10_2 : S4096x1.Idx → EReal) (ix2 n 0)) = _
  rw [bias1_row, v9_x, v9_a1, v9_b1, v9_t, v7_x, v7_a1, v7_t]
  rfl

/-- The kernel's first result is the specification's. -/
theorem out_eq (c : Dev nD) (hf : (argsK m c).Finite) (hr : (argsK m c).InRange) :
    (W14 m ρ c (Proc.devRef .tc main_v24) : S4096.Idx → EReal) = Spec.out (argsK m c) := by
  rw [w14_out]
  funext i
  obtain ⟨n, rfl⟩ : ∃ n : Fin 4096, i = ix1 n := ⟨i 0, eq_ix1 i⟩
  show Spec.kSelect (a1 m c (ix1 n)) ((V10 m ρ c main_v10_0 : S4096x1.Idx → EReal) (ix2 n 0))
    ((V10 m ρ c main_v11 : S4096x1.Idx → EReal) (ix2 n 0)) ((V10 m ρ c main_v12 : S4096x1.Idx → EReal) (ix2 n 0))
    = Spec.lp (argsK m c) n
  rw [short_row, tail0_row, tail1_row]
  exact Spec.kernel_row (argsK m c) hf hr n (whp m ρ c) (fun j k h => v7_wh m ρ c j k h)
    (wb0p m ρ c) (fun j r h => v7_b0 m ρ c j r h) (wb1p m ρ c) (fun j r h => v7_b1 m ρ c j r h)

/-- The kernel's run with both results named: every weakly fair execution terminates, nothing faulting, the first
    result at every row's target log-probability, the second at minus their mean, the arguments unchanged. -/
theorem run_value (hpre : ∀ c : Dev nD, (argsK m c).Finite ∧ (argsK m c).InRange) :
    θ_run defs (onTc (τ := τ) (main (F := Ideal))) ⟨m, fun _ => 0, ρ⟩ (fun r => ∀ c : Dev nD,
      r.2.mem ((c.tc : Thread nD τ).loc main_v24) = Spec.out (argsK m c)
      ∧ r.2.mem ((c.tc : Thread nD τ).loc main_v27) = Spec.lossTail reducesTo_S4096_S_d0 h_S_ (Spec.out (argsK m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c).1.trans (out_eq m ρ c (hpre c).1 (hpre c).2),
     ((h c).2.1.trans (w14_loss m ρ c)).trans (congrArg _ (out_eq m ρ c (hpre c).1 (hpre c).2)),
     (h c).2.2⟩)
    (Cert.KernelIdeal.Gen.run m ρ)

end Cert.KernelIdeal.KernelValue

end
-- ==== Proof.LibNary3.lean ====
/-
  Two general facts for reading back a straight line of host operations that holds a THREE-operand `nary`
  operation (a concatenate of three computed tensors) among typed-reference operations of outlined callees.

  * `nary3_result` / `nary3_result'`: the result of an `nary` operation over a LITERAL family of three references,
    with each operand's contents at its own reference — `Fin.cons (V ↑x) (Fin.cons (V ↑a) (Fin.cons (V ↑b) …))` in place
    of `fun k => V ↑(![x, a, b] k)` —, so that rewriting the operands' contents can go on under it. It is the
    library's four-reference statement (`StableHlo.nary4_result`) at three references; the primed form is for one
    `simp` pass (the result reference un-indexed, as the library's other primed result lemmas).
  * `cast_pair`: a transport along an equation of types and back along its converse is the identity. It clears the
    paired `ofBuf (toBuf v)` transports a typed-reference operation's result carries into its consumer, by
    SYNTACTIC matching of the two types (where `cast_eq` on an unpaired transport would have to unify a buffer's
    computed type with its literal one).
-/
import Idealize.ShloMosaic.Lib.StableHlo.Run

noncomputable section

namespace Idealize.ShloMosaic.StableHlo

variable {nD : Nat} {τ : Topo} {sig : RefSig} {Val : EltTy → Type}

/-- `nary` over a literal family of three references: the result with each operand's contents at its own
    reference. -/
theorem nary3_result {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- The same, stated for a `simp` pass. -/
theorem nary3_result' {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

/-- A transport there and back is the identity. -/
theorem cast_pair {A B : Type} (h1 : A = B) (h2 : B = A) (v : B) : cast h1 (cast h2 v) = v := by
  subst h1; rfl

end Idealize.ShloMosaic.StableHlo

end
-- ==== Proof.RefValue.lean ====
/-
  The reference's two results as the specification's functions of its argument arrays.

  The reference forms the three clusters' log-softmaxes over the unpadded class axes, joins the 1000 + 9000 +
  40257 columns into one row of 50257 log-probabilities and takes, in each row, the entry at the target. With the
  target a class label the index needs no wrap-around and is in bounds, and the joined row's entry at `t` is the
  head's at `t`, the first tail's at `t − 1000` plus the head's column 1000, or the second tail's at `t − 10000`
  plus the head's column 1001, by the cluster `t` falls in.
-/
import proofs.«414738_j37469294691089_1_alg».proof.Defs
import proofs.«414738_j37469294691089_1_alg».proof.Proof.RefRead
import proofs.«414738_j37469294691089_1_alg».proof.Proof.Spec
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx Idealize.SL.Sem

/-! ## Auxiliary facts: a row maximum, a one-bit fold, the gather, the joined row, a label as a word -/

/-- The word of −∞ is the bottom element, so a maximum against it is the other operand. -/
private theorem max_negInf (y : EReal) : max (Ideal.ofBits .f32 0xFF800000#32) y = y := by
  simp [Ideal.ofBits, Ideal.ieee]

private theorem negInf_eq_bot : Ideal.ofBits .f32 0xFF800000#32 = (⊥ : EReal) := by
  simp [Ideal.ofBits, Ideal.ieee]

/-- Row `n` of an `[A, C]` array with column `k` put back on the reduced axis is `(n, k)`. -/
private theorem lift_row {A C : Nat} (h : (⟨2, ![A, C]⟩ : Shape).Reduces [1] (⟨1, ![A]⟩ : Shape)) (n : Fin A)
    (k : Fin ((⟨2, ![A, C]⟩ : Shape).size 1)) : h.lift (ix1 n) k = ix2 n (⟨k.val, k.isLt⟩ : Fin C) := by
  funext c; apply Fin.ext
  fin_cases c <;> rfl

/-- A maximum-reduce over the columns from −∞, read at row `n`, is that row's maximum. -/
private theorem rowMax_read {A C : Nat} (x : FVec Ideal ⟨2, ![A, C]⟩ .f32)
    (h' : (⟨2, ![A, C]⟩ : Shape).ReducesTo [1] (⟨1, ![A]⟩ : Shape))
    (h : (⟨2, ![A, C]⟩ : Shape).Reduces [1] (⟨1, ![A]⟩ : Shape)) (hu : 0 < (⟨0, ![]⟩ : Shape).numel) (n : Fin A) :
    Host.reduce FloatOps.maximumf x (constant (F := Ideal) (⟨0, ![]⟩ : Shape) .f32 0xFF800000#32) h' hu (ix1 n)
      = Spec.rowMax fun j : Fin C => x (ix2 n j) := by
  rw [Host.reduce_eq_fold_single FloatOps.maximumf x _ h' h hu]
  have hf : (x ∘ h.lift (ix1 n)) = fun k : Fin C => x (ix2 n k) := funext fun k => congrArg x (lift_row h n k)
  unfold Spec.rowMax
  rw [← negInf_eq_bot]
  exact congrArg (fun f => Finset.fold max (Ideal.ofBits .f32 0xFF800000#32) f (Finset.univ : Finset (Fin C))) hf

/-- A fold by `and` from 1 over words that are all 1 is 1. -/
private theorem fold_andi_one {ι : Type} [DecidableEq ι] (T : Finset ι) (f : ι → BitVec 1) (hf : ∀ i, f i = 1#1) :
    T.fold IntOp.andi 1#1 f = 1#1 := by
  induction T using Finset.induction_on with
  | empty => rfl
  | insert a T ha ih => rw [Finset.fold_insert ha, ih, hf a]; rfl

/-- An `and`-reduce from 1 over the last (unit) axis of words that are all 1 is 1. -/
private theorem allReduce_read (p : IVec S4096x1x1 1) (h' : S4096x1x1.ReducesTo [2] S4096x1) (hu : 0 < S_.numel)
    (j : S4096x1.Idx) (hp : ∀ i, p i = 1#1) :
    Host.reduce IntOp.andi p (constantI S_ 1 1#1) h' hu j = 1#1 := by
  rw [Host.reduce_eq_fold_single IntOp.andi p _ h' (by decide) hu]
  exact fold_andi_one _ _ (fun k => hp _)

/-- The gather of `take_along_axis` read at row `n`: row `n` of the operand (the batching axis) at the column its start
    index names, read signed and clamped into the class axis. -/
private theorem gather_read {α : Type} (x : S4096x50257.Idx → α) (idx : IVec S4096x1x1 32) (n : Fin 4096) (t : Fin 50257)
    (ht : min (idx (ix3 n (0 : Fin 1) (0 : Fin 1))).toInt.toNat (50257 - 1) = t.val) :
    Host.gather gather_S4096x50257_S4096x1x1_S4096x1_n_1_0_0_1_2_11 x idx (ix2 n (0 : Fin 1)) = x (ix2 n t) := by
  unfold Host.gather
  congr 1
  funext a
  refine Fin.ext ?_
  match a with
  | ⟨0, _⟩ =>
    show gather_S4096x50257_S4096x1x1_S4096x1_n_1_0_0_1_2_11.start (ix2 n (0 : Fin 1)) idx 0
      + gather_S4096x50257_S4096x1x1_S4096x1_n_1_0_0_1_2_11.batchCoord (ix2 n (0 : Fin 1)) 0
      + gather_S4096x50257_S4096x1x1_S4096x1_n_1_0_0_1_2_11.offCoord (ix2 n (0 : Fin 1)) 0 = n.val
    have hb : (0 : Fin 2) ∈ gather_S4096x50257_S4096x1x1_S4096x1_n_1_0_0_1_2_11.operandBatchingDims :=
      List.mem_singleton.mpr rfl
    rw [GatherDims.start_batching _ _ _ _ hb,
      GatherDims.offCoord_eq_zero _ _ _ (fun h => ((GatherDims.mem_sKept _ _).mp h).2 hb)]
    simp only [Nat.add_zero, Nat.zero_add]
    unfold GatherDims.batchCoord
    rw [dif_pos hb]
    rfl
  | ⟨1, _⟩ =>
    show gather_S4096x50257_S4096x1x1_S4096x1_n_1_0_0_1_2_11.start (ix2 n (0 : Fin 1)) idx 1
      + gather_S4096x50257_S4096x1x1_S4096x1_n_1_0_0_1_2_11.batchCoord (ix2 n (0 : Fin 1)) 1
      + gather_S4096x50257_S4096x1x1_S4096x1_n_1_0_0_1_2_11.offCoord (ix2 n (0 : Fin 1)) 1 = t.val
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S4096x50257_S4096x1x1_S4096x1_n_1_0_0_1_2_11.startIndexMap from
      List.mem_singleton.mpr rfl)]
    have hsi : gather_S4096x50257_S4096x1x1_S4096x1_n_1_0_0_1_2_11.siIdx (ix2 n (0 : Fin 1))
        ⟨List.idxOf (1 : Fin 2) gather_S4096x50257_S4096x1x1_S4096x1_n_1_0_0_1_2_11.startIndexMap,
          List.idxOf_lt_length_iff.2 (List.mem_singleton.mpr rfl)⟩ = ix3 n (0 : Fin 1) (0 : Fin 1) := by
      funext b; refine Fin.ext ?_
      match b with
      | ⟨0, _⟩ => rfl
      | ⟨1, _⟩ => rfl
      | ⟨2, _⟩ => rfl
    rw [hsi]
    exact ht

section Concat
variable {α : Type} (a : S4096x1000.Idx → α) (b : S4096x9000.Idx → α) (c : S4096x40257.Idx → α)
  (h : Shape.Concatenates [S4096x1000, S4096x9000, S4096x40257] S4096x50257 1) (n : Fin 4096) (t : Fin 50257)

/-- The joined row below column 1000 is the first piece. -/
private theorem concat_read_head (ht : t.val < 1000) :
    concatenate S4096x50257 1 [⟨S4096x1000, a⟩, ⟨S4096x9000, b⟩, ⟨S4096x40257, c⟩] h (ix2 n t)
      = a (ix2 n (⟨t.val, ht⟩ : Fin 1000)) := by
  refine concatenate_apply_piece (1 : Fin S4096x50257.rank)
    [⟨S4096x1000, a⟩, ⟨S4096x9000, b⟩, ⟨S4096x40257, c⟩] h (ix2 n t) 0 (by show (0 : Nat) < 3; omega) S4096x1000 a rfl rfl 0 rfl
    (ix2 n (⟨t.val, ht⟩ : Fin 1000)) ?_ ?_
  · intro d hd
    match d with
    | ⟨0, _⟩ => rfl
    | ⟨1, _⟩ => exact absurd rfl hd
  · show 0 + t.val = t.val
    omega

/-- From column 1000 to 9999 it is the second piece, 1000 columns back. -/
private theorem concat_read_tail0 (h0 : 1000 ≤ t.val) (h1 : t.val < 10000) :
    concatenate S4096x50257 1 [⟨S4096x1000, a⟩, ⟨S4096x9000, b⟩, ⟨S4096x40257, c⟩] h (ix2 n t)
      = b (ix2 n (⟨t.val - 1000, by omega⟩ : Fin 9000)) := by
  refine concatenate_apply_piece (1 : Fin S4096x50257.rank)
    [⟨S4096x1000, a⟩, ⟨S4096x9000, b⟩, ⟨S4096x40257, c⟩] h (ix2 n t) 1 (by show (1 : Nat) < 3; omega) S4096x9000 b rfl rfl 1000 rfl
    (ix2 n (⟨t.val - 1000, by omega⟩ : Fin 9000)) ?_ ?_
  · intro d hd
    match d with
    | ⟨0, _⟩ => rfl
    | ⟨1, _⟩ => exact absurd rfl hd
  · show 1000 + (t.val - 1000) = t.val
    omega

/-- From column 10000 on it is the third piece, 10000 columns back. -/
private theorem concat_read_tail1 (h1 : 10000 ≤ t.val) :
    concatenate S4096x50257 1 [⟨S4096x1000, a⟩, ⟨S4096x9000, b⟩, ⟨S4096x40257, c⟩] h (ix2 n t)
      = c (ix2 n (⟨t.val - 10000, by have := t.isLt; omega⟩ : Fin 40257)) := by
  refine concatenate_apply_piece (1 : Fin S4096x50257.rank)
    [⟨S4096x1000, a⟩, ⟨S4096x9000, b⟩, ⟨S4096x40257, c⟩] h (ix2 n t) 2 (by show (2 : Nat) < 3; omega) S4096x40257 c rfl rfl 10000 rfl
    (ix2 n (⟨t.val - 10000, by have := t.isLt; omega⟩ : Fin 40257)) ?_ ?_
  · intro d hd
    match d with
    | ⟨0, _⟩ => rfl
    | ⟨1, _⟩ => exact absurd rfl hd
  · show 10000 + (t.val - 10000) = t.val
    omega

end Concat

/-! A class label `t` (`t.toNat < 50257`) read as a signed word is the natural number itself: it is not negative, it
    lies in `[0, 50256]`, and clamping it into the class axis changes nothing. -/

private theorem label_toInt {t : BitVec 32} (ht : t.toNat < 50257) : t.toInt = (t.toNat : Int) :=
  BitVec.toInt_eq_toNat_of_lt (by omega)

private theorem label_not_neg {t : BitVec 32} (ht : t.toNat < 50257) : IntOp.cmpi .slt t 0#32 = 0#1 := by
  refine eq_zero_of_ne_one fun h => ?_
  have := IntOp.cmpi_slt.mp h
  rw [label_toInt ht] at this
  simp at this
  omega

private theorem label_ge {t : BitVec 32} (ht : t.toNat < 50257) : IntOp.cmpi .sge t 0#32 = 1#1 := by
  refine IntOp.cmpi_sge.mpr ?_
  rw [label_toInt ht]
  simp

private theorem label_le {t : BitVec 32} (ht : t.toNat < 50257) : IntOp.cmpi .sle t 50256#32 = 1#1 := by
  refine IntOp.cmpi_sle.mpr ?_
  rw [label_toInt ht]
  have : (50256#32 : BitVec 32).toInt = 50256 := by decide
  rw [this]
  omega

private theorem label_clamp {t : BitVec 32} (ht : t.toNat < 50257) : min t.toInt.toNat (50257 - 1) = t.toNat := by
  rw [label_toInt ht]
  simp
  omega

/-! ## The reference's stages at an index -/

section Stages
open Cert.ReferenceIdeal.Read

variable (x0 : (⟨S4096x1024, .f32⟩ : BufTy).Contents (Elt Ideal)) (x1 : (⟨S4096, .i32⟩ : BufTy).Contents (Elt Ideal))
  (x2 : (⟨S1002x1024, .f32⟩ : BufTy).Contents (Elt Ideal)) (x3 : (⟨S256x1024, .f32⟩ : BufTy).Contents (Elt Ideal))
  (x4 : (⟨S9000x256, .f32⟩ : BufTy).Contents (Elt Ideal)) (x5 : (⟨S64x1024, .f32⟩ : BufTy).Contents (Elt Ideal))
  (x6 : (⟨S40257x64, .f32⟩ : BufTy).Contents (Elt Ideal))

/-- The head's logits: row `n` of the activations against row `j` of the head weights (the transpose undone). -/
private theorem head_logit (n : Fin 4096) (j : Fin 1002) :
    val_main_v1 (F := Ideal) x0 x2 (ix2 n j) = Spec.headLogit (Spec.mkArgs x0 x1 x2 x3 x4 x5 x6) n j := by
  rw [val_main_v1_apply]
  show _ = ∑ k : Fin 1024, x0 (ix2 n k) * x2 (ix2 j k)
  refine Finset.sum_congr rfl fun k _ => ?_
  have el : lidx_main_v1 (ix2 n j) k = ix2 n k := funext fun a => by
    match a with | ⟨0, _⟩ => rfl | ⟨1, _⟩ => rfl
  have er : idx_main_v0 (ridx_main_v1 (ix2 n j) k) = ix2 j k := funext fun a => by
    match a with | ⟨0, _⟩ => rfl | ⟨1, _⟩ => rfl
  rw [val_main_v0_apply, el, er]

/-- The first tail's hidden row. -/
private theorem hid0_read (n : Fin 4096) (r : Fin 256) :
    val_main_v5 (F := Ideal) x0 x3 (ix2 n r) = Spec.hid0 (Spec.mkArgs x0 x1 x2 x3 x4 x5 x6) n r := by
  rw [val_main_v5_apply]
  show _ = ∑ k : Fin 1024, x0 (ix2 n k) * x3 (ix2 r k)
  refine Finset.sum_congr rfl fun k _ => ?_
  have el : lidx_main_v5 (ix2 n r) k = ix2 n k := funext fun a => by
    match a with | ⟨0, _⟩ => rfl | ⟨1, _⟩ => rfl
  have er : idx_main_v4 (ridx_main_v5 (ix2 n r) k) = ix2 r k := funext fun a => by
    match a with | ⟨0, _⟩ => rfl | ⟨1, _⟩ => rfl
  rw [val_main_v4_apply, el, er]

/-- The first tail's logits. -/
private theorem tail0_logit (n : Fin 4096) (j : Fin 9000) :
    val_main_v7 (F := Ideal) x0 x3 x4 (ix2 n j) = Spec.logit0 (Spec.mkArgs x0 x1 x2 x3 x4 x5 x6) n j := by
  rw [val_main_v7_apply]
  show _ = ∑ r : Fin 256, Spec.hid0 (Spec.mkArgs x0 x1 x2 x3 x4 x5 x6) n r * x4 (ix2 j r)
  refine Finset.sum_congr rfl fun r _ => ?_
  have el : lidx_main_v7 (ix2 n j) r = ix2 n r := funext fun a => by
    match a with | ⟨0, _⟩ => rfl | ⟨1, _⟩ => rfl
  have er : idx_main_v6 (ridx_main_v7 (ix2 n j) r) = ix2 j r := funext fun a => by
    match a with | ⟨0, _⟩ => rfl | ⟨1, _⟩ => rfl
  rw [val_main_v6_apply, el, er, hid0_read x0 x1 x2 x3 x4 x5 x6]

/-- The second tail's hidden row. -/
private theorem hid1_read (n : Fin 4096) (r : Fin 64) :
    val_main_v13 (F := Ideal) x0 x5 (ix2 n r) = Spec.hid1 (Spec.mkArgs x0 x1 x2 x3 x4 x5 x6) n r := by
  rw [val_main_v13_apply]
  show _ = ∑ k : Fin 1024, x0 (ix2 n k) * x5 (ix2 r k)
  refine Finset.sum_congr rfl fun k _ => ?_
  have el : lidx_main_v13 (ix2 n r) k = ix2 n k := funext fun a => by
    match a with | ⟨0, _⟩ => rfl | ⟨1, _⟩ => rfl
  have er : idx_main_v12 (ridx_main_v13 (ix2 n r) k) = ix2 r k := funext fun a => by
    match a with | ⟨0, _⟩ => rfl | ⟨1, _⟩ => rfl
  rw [val_main_v12_apply, el, er]

/-- The second tail's logits. -/
private theorem tail1_logit (n : Fin 4096) (j : Fin 40257) :
    val_main_v15 (F := Ideal) x0 x5 x6 (ix2 n j) = Spec.logit1 (Spec.mkArgs x0 x1 x2 x3 x4 x5 x6) n j := by
  rw [val_main_v15_apply]
  show _ = ∑ r : Fin 64, Spec.hid1 (Spec.mkArgs x0 x1 x2 x3 x4 x5 x6) n r * x6 (ix2 j r)
  refine Finset.sum_congr rfl fun r _ => ?_
  have el : lidx_main_v15 (ix2 n j) r = ix2 n r := funext fun a => by
    match a with | ⟨0, _⟩ => rfl | ⟨1, _⟩ => rfl
  have er : idx_main_v14 (ridx_main_v15 (ix2 n j) r) = ix2 j r := funext fun a => by
    match a with | ⟨0, _⟩ => rfl | ⟨1, _⟩ => rfl
  rw [val_main_v14_apply, el, er, hid1_read x0 x1 x2 x3 x4 x5 x6]

/-! The three row maxima: the maximum-reduce from −∞ over each cluster's class axis. -/

private theorem head_max (n : Fin 4096) :
    val_main_call0_v0 (F := Ideal) x0 x2 (ix1 n)
      = Spec.rowMax fun j : Fin 1002 => val_main_v1 (F := Ideal) x0 x2 (ix2 n j) := by
  unfold val_main_call0_v0 val_main_call0_cst
  generalize val_main_v1 (F := Ideal) x0 x2 = y
  exact rowMax_read y _ (by decide) _ n

private theorem tail0_max (n : Fin 4096) :
    val_main_call1_v0 (F := Ideal) x0 x3 x4 (ix1 n)
      = Spec.rowMax fun j : Fin 9000 => val_main_v7 (F := Ideal) x0 x3 x4 (ix2 n j) := by
  unfold val_main_call1_v0 val_main_call1_cst
  generalize val_main_v7 (F := Ideal) x0 x3 x4 = y
  exact rowMax_read y _ (by decide) _ n

private theorem tail1_max (n : Fin 4096) :
    val_main_call2_v0 (F := Ideal) x0 x5 x6 (ix1 n)
      = Spec.rowMax fun j : Fin 40257 => val_main_v15 (F := Ideal) x0 x5 x6 (ix2 n j) := by
  unfold val_main_call2_v0 val_main_call2_cst
  generalize val_main_v15 (F := Ideal) x0 x5 x6 = y
  exact rowMax_read y _ (by decide) _ n

/-! The three log-softmaxes, in the reference's own order: the shift by the row maximum first (the reference's further
    maximum against −∞ is the identity), then the logarithm of the shifted exponentials' sum (taken from the zero word). -/

private theorem head_shift (n : Fin 4096) (j : Fin 1002) :
    val_main_call0_v5 (F := Ideal) x0 x2 (ix2 n j)
      = val_main_v1 (F := Ideal) x0 x2 (ix2 n j) - Spec.rowMax fun j : Fin 1002 => val_main_v1 (F := Ideal) x0 x2 (ix2 n j) := by
  have e : idx_main_call0_v3 (idx_main_call0_v4 (ix2 n j)) = ix1 n := funext fun a => by
    match a with | ⟨0, _⟩ => rfl
  rw [val_main_call0_v5_apply, val_main_call0_v4_apply, val_main_call0_v3_apply, val_main_call0_v2_apply,
    val_main_call0_v1_apply, val_main_call0_cst_0_apply, e, head_max x0 x2, Ideal.subf_def, Ideal.maximumf_def,
    Ideal.ofBits_def, max_negInf]

private theorem head_expSum (n : Fin 4096) :
    val_main_call0_v7 (F := Ideal) x0 x2 (ix1 n)
      = ∑ k : Fin 1002, Ideal.exp (val_main_v1 (F := Ideal) x0 x2 (ix2 n k)
          - Spec.rowMax fun j : Fin 1002 => val_main_v1 (F := Ideal) x0 x2 (ix2 n j)) := by
  rw [val_main_call0_v7_apply, val_main_call0_cst_1_apply, Ideal.ofBits_def, Ideal.ofBits_zero_f32, zero_add]
  refine Finset.sum_congr rfl fun k _ => ?_
  have e : idx_main_call0_v7 (ix1 n) k = ix2 n k := funext fun a => by
    match a with | ⟨0, _⟩ => rfl | ⟨1, _⟩ => rfl
  rw [e, val_main_call0_v6_apply, head_shift x0 x2, Ideal.hostUnary_exp_def]

private theorem head_lsm (n : Fin 4096) (j : Fin 1002) :
    val_main_v2 (F := Ideal) x0 x2 (ix2 n j)
      = Spec.logSoftmax (Spec.headLogit (Spec.mkArgs x0 x1 x2 x3 x4 x5 x6) n) j := by
  have hl : Spec.headLogit (Spec.mkArgs x0 x1 x2 x3 x4 x5 x6) n
      = fun j : Fin 1002 => val_main_v1 (F := Ideal) x0 x2 (ix2 n j) :=
    funext fun j => (head_logit x0 x1 x2 x3 x4 x5 x6 n j).symm
  have e : idx_main_call0_v8 (idx_main_call0_v10 (ix2 n j)) = ix1 n := funext fun a => by
    match a with | ⟨0, _⟩ => rfl
  rw [hl, val_main_v2_apply, head_shift x0 x2, val_main_call0_v10_apply, val_main_call0_v9_apply, val_main_call0_v8_apply, e,
    head_expSum x0 x2, Ideal.subf_def, Ideal.hostUnary_log_def]
  rfl

private theorem tail0_shift (n : Fin 4096) (j : Fin 9000) :
    val_main_call1_v5 (F := Ideal) x0 x3 x4 (ix2 n j)
      = val_main_v7 (F := Ideal) x0 x3 x4 (ix2 n j) - Spec.rowMax fun j : Fin 9000 => val_main_v7 (F := Ideal) x0 x3 x4 (ix2 n j) := by
  have e : idx_main_call1_v3 (idx_main_call1_v4 (ix2 n j)) = ix1 n := funext fun a => by
    match a with | ⟨0, _⟩ => rfl
  rw [val_main_call1_v5_apply, val_main_call1_v4_apply, val_main_call1_v3_apply, val_main_call1_v2_apply,
    val_main_call1_v1_apply, val_main_call1_cst_0_apply, e, tail0_max x0 x3 x4, Ideal.subf_def, Ideal.maximumf_def,
    Ideal.ofBits_def, max_negInf]

private theorem tail0_expSum (n : Fin 4096) :
    val_main_call1_v7 (F := Ideal) x0 x3 x4 (ix1 n)
      = ∑ k : Fin 9000, Ideal.exp (val_main_v7 (F := Ideal) x0 x3 x4 (ix2 n k)
          - Spec.rowMax fun j : Fin 9000 => val_main_v7 (F := Ideal) x0 x3 x4 (ix2 n j)) := by
  rw [val_main_call1_v7_apply, val_main_call1_cst_1_apply, Ideal.ofBits_def, Ideal.ofBits_zero_f32, zero_add]
  refine Finset.sum_congr rfl fun k _ => ?_
  have e : idx_main_call1_v7 (ix1 n) k = ix2 n k := funext fun a => by
    match a with | ⟨0, _⟩ => rfl | ⟨1, _⟩ => rfl
  rw [e, val_main_call1_v6_apply, tail0_shift x0 x3 x4, Ideal.hostUnary_exp_def]

private theorem tail0_lsm (n : Fin 4096) (j : Fin 9000) :
    val_main_v8 (F := Ideal) x0 x3 x4 (ix2 n j)
      = Spec.logSoftmax (Spec.logit0 (Spec.mkArgs x0 x1 x2 x3 x4 x5 x6) n) j := by
  have hl : Spec.logit0 (Spec.mkArgs x0 x1 x2 x3 x4 x5 x6) n
      = fun j : Fin 9000 => val_main_v7 (F := Ideal) x0 x3 x4 (ix2 n j) :=
    funext fun j => (tail0_logit x0 x1 x2 x3 x4 x5 x6 n j).symm
  have e : idx_main_call1_v8 (idx_main_call1_v10 (ix2 n j)) = ix1 n := funext fun a => by
    match a with | ⟨0, _⟩ => rfl
  rw [hl, val_main_v8_apply, tail0_shift x0 x3 x4, val_main_call1_v10_apply, val_main_call1_v9_apply, val_main_call1_v8_apply, e,
    tail0_expSum x0 x3 x4, Ideal.subf_def, Ideal.hostUnary_log_def]
  rfl

private theorem tail1_shift (n : Fin 4096) (j : Fin 40257) :
    val_main_call2_v5 (F := Ideal) x0 x5 x6 (ix2 n j)
      = val_main_v15 (F := Ideal) x0 x5 x6 (ix2 n j) - Spec.rowMax fun j : Fin 40257 => val_main_v15 (F := Ideal) x0 x5 x6 (ix2 n j) := by
  have e : idx_main_call2_v3 (idx_main_call2_v4 (ix2 n j)) = ix1 n := funext fun a => by
    match a with | ⟨0, _⟩ => rfl
  rw [val_main_call2_v5_apply, val_main_call2_v4_apply, val_main_call2_v3_apply, val_main_call2_v2_apply,
    val_main_call2_v1_apply, val_main_call2_cst_0_apply, e, tail1_max x0 x5 x6, Ideal.subf_def, Ideal.maximumf_def,
    Ideal.ofBits_def, max_negInf]

private theorem tail1_expSum (n : Fin 4096) :
    val_main_call2_v7 (F := Ideal) x0 x5 x6 (ix1 n)
      = ∑ k : Fin 40257, Ideal.exp (val_main_v15 (F := Ideal) x0 x5 x6 (ix2 n k)
          - Spec.rowMax fun j : Fin 40257 => val_main_v15 (F := Ideal) x0 x5 x6 (ix2 n j)) := by
  rw [val_main_call2_v7_apply, val_main_call2_cst_1_apply, Ideal.ofBits_def, Ideal.ofBits_zero_f32, zero_add]
  refine Finset.sum_congr rfl fun k _ => ?_
  have e : idx_main_call2_v7 (ix1 n) k = ix2 n k := funext fun a => by
    match a with | ⟨0, _⟩ => rfl | ⟨1, _⟩ => rfl
  rw [e, val_main_call2_v6_apply, tail1_shift x0 x5 x6, Ideal.hostUnary_exp_def]

private theorem tail1_lsm (n : Fin 4096) (j : Fin 40257) :
    val_main_v16 (F := Ideal) x0 x5 x6 (ix2 n j)
      = Spec.logSoftmax (Spec.logit1 (Spec.mkArgs x0 x1 x2 x3 x4 x5 x6) n) j := by
  have hl : Spec.logit1 (Spec.mkArgs x0 x1 x2 x3 x4 x5 x6) n
      = fun j : Fin 40257 => val_main_v15 (F := Ideal) x0 x5 x6 (ix2 n j) :=
    funext fun j => (tail1_logit x0 x1 x2 x3 x4 x5 x6 n j).symm
  have e : idx_main_call2_v8 (idx_main_call2_v10 (ix2 n j)) = ix1 n := funext fun a => by
    match a with | ⟨0, _⟩ => rfl
  rw [hl, val_main_v16_apply, tail1_shift x0 x5 x6, val_main_call2_v10_apply, val_main_call2_v9_apply, val_main_call2_v8_apply, e,
    tail1_expSum x0 x5 x6, Ideal.subf_def, Ideal.hostUnary_log_def]
  rfl

/-! The joined row of 50257 log-probabilities at column `t`, by the cluster `t` falls in. -/

private theorem row_head (n : Fin 4096) (t : Fin 50257) (ht : t.val < 1000) :
    val_main_v20 (F := Ideal) x0 x2 x3 x4 x5 x6 (ix2 n t)
      = Spec.logSoftmax (Spec.headLogit (Spec.mkArgs x0 x1 x2 x3 x4 x5 x6) n) (⟨t.val, by omega⟩ : Fin 1002) := by
  have e : idx_main_v3 (ix2 n (⟨t.val, ht⟩ : Fin 1000)) = ix2 n (⟨t.val, by omega⟩ : Fin 1002) := funext fun a => by
    match a with | ⟨0, _⟩ => rfl | ⟨1, _⟩ => rfl
  unfold val_main_v20
  rw [concat_read_head _ _ _ _ n t ht, val_main_v3_apply, e, head_lsm x0 x1 x2 x3 x4 x5 x6]

private theorem row_tail0 (n : Fin 4096) (t : Fin 50257) (h0 : 1000 ≤ t.val) (h1 : t.val < 10000) :
    val_main_v20 (F := Ideal) x0 x2 x3 x4 x5 x6 (ix2 n t)
      = Spec.logSoftmax (Spec.logit0 (Spec.mkArgs x0 x1 x2 x3 x4 x5 x6) n) (⟨t.val - 1000, by omega⟩ : Fin 9000)
        + Spec.logSoftmax (Spec.headLogit (Spec.mkArgs x0 x1 x2 x3 x4 x5 x6) n) (⟨1000, by norm_num⟩ : Fin 1002) := by
  have e : idx_main_v9 (idx_main_v10 (ix2 n (⟨t.val - 1000, by omega⟩ : Fin 9000)))
      = ix2 n (⟨1000, by norm_num⟩ : Fin 1002) := funext fun a => by
    match a with | ⟨0, _⟩ => rfl | ⟨1, _⟩ => rfl
  unfold val_main_v20
  rw [concat_read_tail0 _ _ _ _ n t h0 h1, val_main_v11_apply, val_main_v10_apply, val_main_v9_apply, e,
    tail0_lsm x0 x1 x2 x3 x4 x5 x6, head_lsm x0 x1 x2 x3 x4 x5 x6, Ideal.addf_def]

private theorem row_tail1 (n : Fin 4096) (t : Fin 50257) (h1 : 10000 ≤ t.val) :
    val_main_v20 (F := Ideal) x0 x2 x3 x4 x5 x6 (ix2 n t)
      = Spec.logSoftmax (Spec.logit1 (Spec.mkArgs x0 x1 x2 x3 x4 x5 x6) n)
          (⟨t.val - 10000, by have := t.isLt; omega⟩ : Fin 40257)
        + Spec.logSoftmax (Spec.headLogit (Spec.mkArgs x0 x1 x2 x3 x4 x5 x6) n) (⟨1001, by norm_num⟩ : Fin 1002) := by
  have e : idx_main_v17 (idx_main_v18 (ix2 n (⟨t.val - 10000, by have := t.isLt; omega⟩ : Fin 40257)))
      = ix2 n (⟨1001, by norm_num⟩ : Fin 1002) := funext fun a => by
    match a with | ⟨0, _⟩ => rfl | ⟨1, _⟩ => rfl
  unfold val_main_v20
  rw [concat_read_tail1 _ _ _ _ n t h1, val_main_v19_apply, val_main_v18_apply, val_main_v17_apply, e,
    tail1_lsm x0 x1 x2 x3 x4 x5 x6, head_lsm x0 x1 x2 x3 x4 x5 x6, Ideal.addf_def]

/-! `take_along_axis` at a class label: no wrap-around (the label is not negative), in bounds (so the select keeps the
    gathered entry), and the gather reads the row's entry at the label. -/

/-- The start index of every row is the row's label itself. -/
private theorem start_read (hr : ∀ n : Fin 4096, (x1 (ix1 n)).toNat < 50257) (r : Fin 4096) (u v : Fin 1) :
    val_main_call3_v5 (F := Ideal) x1 (ix3 r u v) = x1 (ix1 r) := by
  have e : idx_main_v21 (idx_main_call3_v5 (ix3 r u v)) = ix1 r := funext fun a => by
    match a with
    | ⟨0, _⟩ =>
      refine Fin.ext ?_
      show ((r.val * 1 + u.val) * 1 + v.val) / 1 = r.val
      have := u.isLt; have := v.isLt; omega
  rw [val_main_call3_v5_apply, val_main_call3_v4_apply, val_main_call3_v1_apply, val_main_v21_apply, e,
    val_main_call3_v0_apply, val_main_call3_c_apply, label_not_neg (hr r), select_zero]

/-- The bounds test holds at every index. -/
private theorem inBounds_read (hr : ∀ n : Fin 4096, (x1 (ix1 n)).toNat < 50257) (i : S4096x1x1.Idx) :
    val_main_call3_v11 (F := Ideal) x1 i = 1#1 := by
  obtain ⟨r, u, v, rfl⟩ : ∃ (r : Fin 4096) (u v : Fin 1), i = ix3 r u v := ⟨i 0, i 1, i 2, eq_ix3 i⟩
  rw [val_main_call3_v11_apply, val_main_call3_v7_apply, val_main_call3_v10_apply, start_read x1 hr,
    val_main_call3_v6_apply, val_main_call3_c_2_apply, val_main_call3_v9_apply, val_main_call3_v8_apply,
    val_main_call3_c_1_apply, label_ge (hr r), label_le (hr r)]
  rfl

private theorem take_read (hr : ∀ n : Fin 4096, (x1 (ix1 n)).toNat < 50257) (n : Fin 4096) :
    val_main_v23 (F := Ideal) x0 x1 x2 x3 x4 x5 x6 (ix1 n)
      = val_main_v20 (F := Ideal) x0 x2 x3 x4 x5 x6 (ix2 n (⟨(x1 (ix1 n)).toNat, hr n⟩ : Fin 50257)) := by
  have e : idx_main_v23 (ix1 n) = ix2 n (0 : Fin 1) := funext fun a => by
    match a with
    | ⟨0, _⟩ => exact Fin.ext (Nat.div_one _)
    | ⟨1, _⟩ => rfl
  have h12 : val_main_call3_v12 (F := Ideal) x1 (ix2 n (0 : Fin 1)) = 1#1 := by
    unfold val_main_call3_v12 val_main_call3_c_3
    exact allReduce_read _ _ _ _ (inBounds_read x1 hr)
  have h13 : val_main_call3_v13 (F := Ideal) x0 x1 x2 x3 x4 x5 x6 (ix2 n (0 : Fin 1))
      = val_main_v20 (F := Ideal) x0 x2 x3 x4 x5 x6 (ix2 n (⟨(x1 (ix1 n)).toNat, hr n⟩ : Fin 50257)) := by
    unfold val_main_call3_v13
    generalize val_main_v20 (F := Ideal) x0 x2 x3 x4 x5 x6 = y
    exact gather_read y _ n _ (by rw [start_read x1 hr]; exact label_clamp (hr n))
  rw [val_main_v23_apply, e, val_main_v22_apply, h12, h13, select_one]

/-- The reference's first result at row `n` is the specification's log-probability of the row's label. -/
private theorem out_read (hr : (Spec.mkArgs x0 x1 x2 x3 x4 x5 x6).InRange) (n : Fin 4096) :
    val_main_v23 (F := Ideal) x0 x1 x2 x3 x4 x5 x6 (ix1 n) = Spec.lp (Spec.mkArgs x0 x1 x2 x3 x4 x5 x6) n := by
  have hr' : ∀ n : Fin 4096, (x1 (ix1 n)).toNat < 50257 := hr
  rw [take_read x0 x1 x2 x3 x4 x5 x6 hr' n]
  unfold Spec.lp
  by_cases h0 : ((Spec.mkArgs x0 x1 x2 x3 x4 x5 x6).T n).toNat < 1000
  · rw [dif_pos h0]
    exact row_head x0 x1 x2 x3 x4 x5 x6 n _ h0
  · rw [dif_neg h0]
    by_cases h1 : ((Spec.mkArgs x0 x1 x2 x3 x4 x5 x6).T n).toNat < 10000
    · rw [dif_pos h1]
      exact row_tail0 x0 x1 x2 x3 x4 x5 x6 n _ (Nat.le_of_not_lt h0) h1
    · rw [dif_neg h1, dif_pos (hr n)]
      exact row_tail1 x0 x1 x2 x3 x4 x5 x6 n _ (Nat.le_of_not_lt h1)

/-- The second result is the three closing host operations (a sum from zero, a quotient by 4096, a negation) of the first. -/
private theorem loss_read :
    val_main_v26 (F := Ideal) x0 x1 x2 x3 x4 x5 x6
      = Spec.lossTail reducesTo_S4096_S_d0 h_S_ (val_main_v23 (F := Ideal) x0 x1 x2 x3 x4 x5 x6) := by
  unfold val_main_v26 val_main_v25 val_main_v24 val_main_cst val_main_cst_0 Spec.lossTail
  rfl

end Stages

variable (m : (ℓ : Loc nD τ sig) → Buf (Elt Ideal) ℓ)

/-- The reference's argument arrays as coordinates. -/
def argsR (c : Dev nD) : Spec.Args :=
  Spec.mkArgs (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6))

/-- The first result: each row's target log-probability. -/
theorem ref_out (c : Dev nD) (hr : (argsR m c).InRange) :
    (Cert.ReferenceIdeal.Value.res_main_v23 (F := Ideal) m c : S4096.Idx → EReal) = Spec.out (argsR m c) := by
  rw [Read.val_main_v23_eq]
  funext i
  obtain ⟨n, rfl⟩ : ∃ n : Fin 4096, i = ix1 n := ⟨i 0, eq_ix1 i⟩
  show _ = Spec.lp (argsR m c) n
  exact out_read _ _ _ _ _ _ _ hr n

/-- The second result: minus the mean of the first. -/
theorem ref_loss (c : Dev nD) :
    (Cert.ReferenceIdeal.Value.res_main_v26 (F := Ideal) m c : S_.Idx → EReal)
      = Spec.lossTail reducesTo_S4096_S_d0 h_S_ (Cert.ReferenceIdeal.Value.res_main_v23 (F := Ideal) m c) := by
  rw [Read.val_main_v26_eq, Read.val_main_v23_eq]
  exact loss_read _ _ _ _ _ _ _

end Cert.ReferenceIdeal.RefValue

end
-- ==== Proof.PreDecode.lean ====
/-
  What the precondition says of the argument arrays: every float entry is a real number, and every target is a
  class label.
-/
import proofs.«414738_j37469294691089_1_alg».proof.Pre_finite_inputs
import proofs.«414738_j37469294691089_1_alg».proof.Proof.Spec
import Idealize.ShloMosaic.Lib.ReduceAll
import Idealize.ShloMosaic.Lib.StableHlo.Predicate
import Idealize.ShloMosaic.Lib.ValueIdx
import Idealize.ShloMosaic.PureOps.Ideal.Laws

noncomputable section

namespace Cert.PreDecode

open Idealize.ShloMosaic Idealize.ShloMosaic.ValueIdx

/-- The scalar shape has one index. -/
private instance : Subsingleton Cert.Pre_finite_inputs.S_.Idx := ⟨fun a b => funext fun d => d.elim0⟩

/-- The word `0x7F800000` denotes +∞. -/
private theorem ofBits_inf : Ideal.ofBits .f32 0x7F800000#32 = (⊤ : EReal) := by simp [Ideal.ofBits, Ideal.ieee]

/-- An extended real whose absolute value `max x (-x)` lies strictly below +∞ is a real number: `⊤` fails on the
    left of the maximum, `⊥` on the right (its negation is `⊤`). -/
private theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : Ideal.cmp .olt (max x (-x)) (Ideal.ofBits .f32 0x7F800000#32) = 1#1 := h
  rw [ofBits_inf] at h'
  unfold Ideal.cmp at h'
  have hlt : max x (-x) < ⊤ := by
    simpa [StableHlo.Predicate.ofBool_eq_one_iff] using h'
  induction x using EReal.rec with
  | bot => simp at hlt
  | top => simp at hlt
  | coe r => exact ⟨r, rfl⟩

/-- The conjunction of `|x i| < +∞` over all indices `i` of an array, equal to 1: every entry of the array is a real
    number. -/
private theorem finite_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1)
    (i : s.Idx) : ∃ r : ℝ, x i = (r : EReal) :=
  real_of_abs_lt_inf (x i) (Host.reduce_andi_all _ _ hr hu ix0 e i)

/-- A 32-bit word that is at least 0 and below 50257 as a signed number is below 50257 as an unsigned one. -/
private theorem toNat_lt_of_signed {t : BitVec 32} (h0 : (0#32).toInt ≤ t.toInt) (h1 : t.toInt < (50257#32).toInt) :
    t.toNat < 50257 := by
  have e0 : (0#32 : BitVec 32).toInt = 0 := by decide
  have e1 : (50257#32 : BitVec 32).toInt = 50257 := by decide
  rw [e0] at h0
  rw [e1] at h1
  rw [BitVec.toInt_eq_toNat_cond] at h0 h1
  have := t.isLt
  split at h0 <;> omega

variable [Cert.Pre_finite_inputs.Facts]

/-- The printed precondition, all ones, gives finiteness of the six float arrays and the label range of the targets. -/
theorem of_fn (x : FVec Ideal Cert.Pre_finite_inputs.S4096x1024 .f32) (t : IVec Cert.Pre_finite_inputs.S4096 32)
    (wh : FVec Ideal Cert.Pre_finite_inputs.S1002x1024 .f32) (a0 : FVec Ideal Cert.Pre_finite_inputs.S256x1024 .f32)
    (b0 : FVec Ideal Cert.Pre_finite_inputs.S9000x256 .f32) (a1 : FVec Ideal Cert.Pre_finite_inputs.S64x1024 .f32)
    (b1 : FVec Ideal Cert.Pre_finite_inputs.S40257x64 .f32)
    (h : Cert.Pre_finite_inputs.fn (F := Ideal) x t wh a0 b0 a1 b1 = fun _ => 1#1) :
    (Spec.mkArgs x t wh a0 b0 a1 b1).Finite ∧ (Spec.mkArgs x t wh a0 b0 a1 b1).InRange := by
  have h0 := congrFun h ix0
  dsimp only [Cert.Pre_finite_inputs.fn, Cert.Pre_finite_inputs.fn_part1, Cert.Pre_finite_inputs.fn_part2] at h0
  -- the outer chain of `and`s, read at the one scalar index: seven one-bit words, each of which is 1
  have h1 : IntOp.andi (IntOp.andi (IntOp.andi (IntOp.andi (IntOp.andi (IntOp.andi _ _) _) _) _) _) _ = 1#1 := h0
  simp only [IntOp.andi_eq_one] at h1
  obtain ⟨⟨⟨⟨⟨⟨hX, hWh⟩, hA0⟩, hB0⟩, hA1⟩, hB1⟩, hT⟩ := h1
  unfold Spec.Args.Finite Spec.Args.InRange
  refine ⟨⟨fun n k => finite_of_all x _ _ _ hX (ix2 n k), fun j k => finite_of_all wh _ _ _ hWh (ix2 j k),
    fun j k => finite_of_all a0 _ _ _ hA0 (ix2 j k), fun j k => finite_of_all b0 _ _ _ hB0 (ix2 j k),
    fun j k => finite_of_all a1 _ _ _ hA1 (ix2 j k), fun j k => finite_of_all b1 _ _ _ hB1 (ix2 j k)⟩, fun n => ?_⟩
  -- the targets: the reduced array is the `and` of the two signed compares against the broadcast constants
  have hn := Host.reduce_andi_all _ _ _ _ ix0 hT (ix1 n)
  have hn' : IntOp.andi (IntOp.cmpi .sge (t (ix1 n)) 0#32) (IntOp.cmpi .slt (t (ix1 n)) 50257#32) = 1#1 := hn
  obtain ⟨hge, hlt⟩ := IntOp.andi_eq_one.1 hn'
  exact toNat_lt_of_signed (IntOp.cmpi_sge.1 hge) (IntOp.cmpi_slt.1 hlt)

end Cert.PreDecode

end
-- ==== Proof.lean ====
/-
  The five claims of the adaptive-softmax certificate.

  Three frames: the two kernel programs' are the generated frames of their three-region runs; the reference's is its
  run with the results dropped. The idealization's ledger has three entries, one per kernel, each naming the mask
  fill −1e30 as −∞: the padded class columns then contribute nothing to a row's maximum or to its sum of
  exponentials, which is how the reference, having no padding, reads them. The value claim: under the precondition
  (real float inputs, targets that are class labels) both programs' first result is, row by row, the target's
  log-probability, and both programs' second result is minus its mean.
-/
import proofs.«414738_j37469294691089_1_alg».proof.Defs
import proofs.«414738_j37469294691089_1_alg».proof.Proof.Gen.Kernel
import proofs.«414738_j37469294691089_1_alg».proof.Proof.Gen.Kernel.Skeleton
import proofs.«414738_j37469294691089_1_alg».proof.Proof.Gen.Kernel.Launch
import proofs.«414738_j37469294691089_1_alg».proof.Proof.Gen.Kernel.Points
import proofs.«414738_j37469294691089_1_alg».proof.Proof.Gen.Kernel.Frame
import proofs.«414738_j37469294691089_1_alg».proof.Proof.Gen.KernelIdeal
import proofs.«414738_j37469294691089_1_alg».proof.Proof.Gen.KernelIdeal.Skeleton
import proofs.«414738_j37469294691089_1_alg».proof.Proof.Gen.KernelIdeal.Launch
import proofs.«414738_j37469294691089_1_alg».proof.Proof.Gen.KernelIdeal.Points
import proofs.«414738_j37469294691089_1_alg».proof.Proof.Gen.KernelIdeal.Frame
import proofs.«414738_j37469294691089_1_alg».proof.Proof.Gen.ReferenceIdeal
import proofs.«414738_j37469294691089_1_alg».proof.Proof.Gen.Pre_finite_inputs
import proofs.«414738_j37469294691089_1_alg».proof.Proof.KernelValue
import proofs.«414738_j37469294691089_1_alg».proof.Proof.RefValue
import proofs.«414738_j37469294691089_1_alg».proof.Proof.PreDecode
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The ledger's three entries: the table gives the mask fill's name the value −∞, and each printed constant is
    that value at the ideal instance. -/
theorem preserves : Cert.preserves_Kernel_KernelIdeal :=
  ⟨IdealRules.named_const.statement Cert.KernelIdeal.κ "neg_big" .f32 0xF149F2CA#32 ⊥ rfl,
   IdealRules.named_const.statement Cert.KernelIdeal.κ "neg_big" .f32 0xF149F2CA#32 ⊥ rfl,
   IdealRules.named_const.statement Cert.KernelIdeal.κ "neg_big" .f32 0xF149F2CA#32 ⊥ rfl⟩

/-- Both programs end with every row's target log-probability and minus its mean. -/
theorem algebraic : Cert.algebraic_KernelIdeal_ReferenceIdeal := by
  intro m ρ m' ρ' hpre hagree
  have hK : ∀ c : Dev Cert.KernelIdeal.nD,
      (Cert.KernelIdeal.KernelValue.argsK m c).Finite ∧ (Cert.KernelIdeal.KernelValue.argsK m c).InRange :=
    fun c => Cert.PreDecode.of_fn _ _ _ _ _ _ _ (hpre c)
  have hargs : ∀ c : Dev Cert.KernelIdeal.nD,
      Cert.ReferenceIdeal.RefValue.argsR m' c = Cert.KernelIdeal.KernelValue.argsK m c := fun c => by
    obtain ⟨h0, h1, h2, h3, h4, h5, h6⟩ := hagree c
    unfold Cert.ReferenceIdeal.RefValue.argsR Cert.KernelIdeal.KernelValue.argsK
    rw [h0, h1, h2, h3, h4, h5, h6]
  refine ⟨fun c => Spec.out (Cert.KernelIdeal.KernelValue.argsK m c),
    fun c => Spec.lossTail Cert.KernelIdeal.Facts₀.reducesTo_S4096_S_d0 Cert.KernelIdeal.Facts₀.h_S_
      (Spec.out (Cert.KernelIdeal.KernelValue.argsK m c)),
    Cert.KernelIdeal.KernelValue.run_value m ρ hK, ?_⟩
  refine (θ_run Cert.ReferenceIdeal.defs _ _).mono (fun r h c => ⟨?_, ?_, (h c).2.2⟩)
    (Cert.ReferenceIdeal.Value.run (F := Ideal) m' ρ')
  · have hr : (Cert.ReferenceIdeal.RefValue.argsR m' c).InRange := by rw [hargs c]; exact (hK c).2
    exact (h c).1.trans ((Cert.ReferenceIdeal.RefValue.ref_out m' c hr).trans (congrArg Spec.out (hargs c)))
  · have hr : (Cert.ReferenceIdeal.RefValue.argsR m' c).InRange := by rw [hargs c]; exact (hK c).2
    refine (h c).2.1.trans ((Cert.ReferenceIdeal.RefValue.ref_loss m' c).trans ?_)
    rw [Cert.ReferenceIdeal.RefValue.ref_out m' c hr, hargs c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
